-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x80 : Shape := ⟨2, ![4096, 80]⟩
abbrev S20480x512 : Shape := ⟨2, ![20480, 512]⟩
abbrev S512 : Shape := ⟨1, ![512]⟩
abbrev S512x512 : Shape := ⟨2, ![512, 512]⟩
abbrev S_ : Shape := ⟨0, ![]⟩

class Facts : Prop where
  bcast_S_S20480x512 : S_.BroadcastsInDim S20480x512 (![] : Fin 0 → Fin S20480x512.rank)
  reducesTo_S20480x512_S_d0_1 : S20480x512.ReducesTo [0, 1] S_
  h_S_ : 0 < S_.numel
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S4096x80 : S_.BroadcastsInDim S4096x80 (![] : Fin 0 → Fin S4096x80.rank)
  reducesTo_S4096x80_S_d0_1 : S4096x80.ReducesTo [0, 1] S_

variable [Facts]

def fn_part1 {F : FTy → Type} [FloatOps F] (main_arg0 : IVec S4096x80 32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_c_6 : IVec S_ 32 := constantI S_ 32 0#32
  let main_v19 : IVec S4096x80 32 := broadcastInDim S4096x80 ![] bcast_S_S4096x80 main_c_6
  let main_v20 : IVec S4096x80 1 := cmpi .sge main_arg0 main_v19
  let main_c_7 : IVec S_ 1 := constantI S_ 1 1#1
  let main_v21 : IVec S_ 1 := (fun x v => Host.reduce IntOp.andi x v reducesTo_S4096x80_S_d0_1 h_S_) main_v20 main_c_7
  let main_v22 : IVec S_ 1 := andi main_v18 main_v21
  let main_c_8 : IVec S_ 32 := constantI S_ 32 256#32
  let main_v23 : IVec S4096x80 32 := broadcastInDim S4096x80 ![] bcast_S_S4096x80 main_c_8
  let main_v24 : IVec S4096x80 1 := cmpi .slt main_arg0 main_v23
  let main_c_9 : IVec S_ 1 := constantI S_ 1 1#1
  let main_v25 : IVec S_ 1 := (fun x v => Host.reduce IntOp.andi x v reducesTo_S4096x80_S_d0_1 h_S_) main_v24 main_c_9
  let main_v26 : IVec S_ 1 := andi main_v22 main_v25
  main_v26

def fn {F : FTy → Type} [FloatOps F] (main_arg0 : IVec S4096x80 32) (main_arg1 : FVec F S20480x512 .f32) (main_arg2 : FVec F S512 .f32) (main_arg3 : FVec F S512x512 .f32) (main_arg4 : FVec F S512 .f32) : IVec S_ 1 :=
  let main_v0 : FVec F S20480x512 .f32 := Host.absf main_arg1
  let main_cst : FVec F S_ .f32 := constant S_ .f32 0x7F800000#32
  let main_v1 : FVec F S20480x512 .f32 := broadcastInDim S20480x512 ![] bcast_S_S20480x512 main_cst
  let main_v2 : IVec S20480x512 1 := cmpf .olt main_v0 main_v1
  let main_c : IVec S_ 1 := constantI S_ 1 1#1
  let main_v3 : IVec S_ 1 := (fun x v => Host.reduce IntOp.andi x v reducesTo_S20480x512_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg0 main_v13 main_v16
-- ==== Kernel.lean ====
abbrev S4096x80 : Shape := ⟨2, ![4096, 80]⟩
abbrev S20480x512 : Shape := ⟨2, ![20480, 512]⟩
abbrev S512 : Shape := ⟨1, ![512]⟩
abbrev S512x512 : Shape := ⟨2, ![512, 512]⟩
abbrev S_ : Shape := ⟨0, ![]⟩
abbrev S1x512 : Shape := ⟨2, ![1, 512]⟩
abbrev S4096x512 : Shape := ⟨2, ![4096, 512]⟩
abbrev S1024x80 : Shape := ⟨2, ![1024, 80]⟩
abbrev S1024x512 : Shape := ⟨2, ![1024, 512]⟩
abbrev S2x2048x512 : Shape := ⟨3, ![2, 2048, 512]⟩
abbrev S2x1024x2048 : Shape := ⟨3, ![2, 1024, 2048]⟩
abbrev S2 : Shape := ⟨1, ![2]⟩
abbrev S1x256 : Shape := ⟨2, ![1, 256]⟩
abbrev S1 : Shape := ⟨1, ![1]⟩
abbrev S1x2048x512 : Shape := ⟨3, ![1, 2048, 512]⟩
abbrev S2048x512 : Shape := ⟨2, ![2048, 512]⟩
abbrev S1024x1 : Shape := ⟨2, ![1024, 1]⟩
abbrev S1024x256 : Shape := ⟨2, ![1024, 256]⟩
abbrev S1x1024x256 : Shape := ⟨3, ![1, 1024, 256]⟩
abbrev S1x1024x2048 : Shape := ⟨3, ![1, 1024, 2048]⟩
abbrev S1024x2048 : Shape := ⟨2, ![1024, 2048]⟩

abbrev nBuf : Space → Nat
  | .hbm => 17
  | .vmem => 10
  | .smem => 0
  | _ => 0

abbrev bufTy : (tb : Table) → Fin (tcTables nBuf tb) → BufTy
  | .hbm, ⟨0, _⟩ => ⟨S4096x80, .i32⟩
  | .hbm, ⟨1, _⟩ => ⟨S20480x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4096x80, .i32⟩
  | .hbm, ⟨9, _⟩ => ⟨S4096x80, .i32⟩
  | .hbm, ⟨10, _⟩ => ⟨S_, .i32⟩
  | .hbm, ⟨11, _⟩ => ⟨S4096x80, .i32⟩
  | .hbm, ⟨12, _⟩ => ⟨S4096x80, .i32⟩
  | .hbm, ⟨13, _⟩ => ⟨S512x512, .bf16⟩
  | .hbm, ⟨14, _⟩ => ⟨S1x512, .f32⟩
  | .hbm, ⟨15, _⟩ => ⟨S1x512, .f32⟩
  | .hbm, ⟨16, _⟩ => ⟨S4096x512, .f32⟩
  | .local _ .vmem, ⟨0, _⟩ => ⟨S1024x80, .i32⟩
  | .local _ .vmem, ⟨1, _⟩ => ⟨S1024x80, .i32⟩
  | .local _ .vmem, ⟨2, _⟩ => ⟨S512x512, .bf16⟩
  | .local _ .vmem, ⟨3, _⟩ => ⟨S1x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | .local _ .vmem, ⟨7, _⟩ => ⟨S2x2048x512, .f32⟩
  | .local _ .vmem, ⟨8, _⟩ => ⟨S2x1024x2048, .bf16⟩
  | .local _ .vmem, ⟨9, _⟩ => ⟨S1024x512, .f32⟩
  | _, _ => ⟨S4096x80, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x80 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S4096x80 : S_.BroadcastsInDim S4096x80 (![] : Fin 0 → Fin S4096x80.rank)
  bitsLt_bf16_f32 : FTy.bits .bf16 < FTy.bits .f32
  shapeCasts_S512_S1x512 : S512.ShapeCasts S1x512
  inb_S1024x80_S1024x80_0_0 : ∀ a, (![0, 0] : Fin 2 → Nat) a + S1024x80.size a ≤ S1024x80.size a
  h_S1024x80 : 0 < S1024x80.numel
  shapeCasts_S1024x80_S1024x80 : S1024x80.ShapeCasts S1024x80
  iota_S1x256_d1_w32 : S1x256.Iotas .tc 32 [1]
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2_S1_0 : ∀ a, (![0] : Fin 1 → Nat) a + S1.size a ≤ S2.size a
  squeezes_S1_S_ : S1.Squeezes S_
  inb_S2x2048x512_S1x2048x512_0_0_0 : ∀ a, (![0, 0, 0] : Fin 3 → Nat) a + S1x2048x512.size a ≤ S2x2048x512.size a
  squeezes_S1x2048x512_S2048x512 : S1x2048x512.Squeezes S2048x512
  inb_S20480x512_S2048x512_0_0 : ∀ a, (![0, 0] : Fin 2 → Nat) a + S2048x512.size a ≤ S20480x512.size a
  inb_S2_S1_1 : ∀ a, (![1] : Fin 1 → Nat) a + S1.size a ≤ S2.size a
  inb_S2x2048x512_S1x2048x512_1_0_0 : ∀ a, (![1, 0, 0] : Fin 3 → Nat) a + S1x2048x512.size a ≤ S2x2048x512.size a
  inb_S20480x512_S2048x512_2048_0 : ∀ a, (![2048, 0] : Fin 2 → Nat) a + S2048x512.size a ≤ S20480x512.size a
  slices_S1024x80_o0_0_S1024x1 : S1024x80.Slices ![0, 0] S1024x1
  broadcasts_S1024x1_S1024x256 : S1024x1.Broadcasts S1024x256
  broadcasts_S1x256_S1024x256 : S1x256.Broadcasts S1024x256
  natLt_1_32 : 1 < 32
  inb_S2x1024x2048_S1x1024x256_0_0_0 : ∀ a, (![0, 0, 0] : Fin 3 → Nat) a + S1x1024x256.size a ≤ S2x1024x2048.size a
  h_S1x1024x256 : 0 < S1x1024x256.numel
  shapeCasts_S1x1024x256_S1024x256 : S1x1024x256.ShapeCasts S1024x256
  shapeCasts_S1024x256_S1x1024x256 : S1024x256.ShapeCasts S1x1024x256
  packedbf16_S2x1024x2048_S1x1024x256_0_0_0 : (Rect.unit (s := S2x1024x2048) ![0, 0, 0] S1x1024x256.size inb_S2x1024x2048_S1x1024x256_0_0_0).PackedRows (EltTy.packing .bf16)
  slices_S1024x80_o0_1_S1024x1 : S1024x80.Slices ![0, 1] S1024x1
  inb_S2x1024x2048_S1x1024x256_0_0_256 : ∀ a, (![0, 0, 256] : Fin 3 → Nat) a + S1x1024x256.size a ≤ S2x1024x2048.size a
  packedbf16_S2x1024x2048_S1x1024x256_0_0_256 : (Rect.unit (s := S2x1024x2048) ![0, 0, 256] S1x1024x256.size inb_S2x1024x2048_S1x1024x256_0_0_256).PackedRows (EltTy.packing .bf16)
  slices_S1024x80_o0_2_S1024x1 : S1024x80.Slices ![0, 2] S1024x1
  inb_S2x1024x2048_S1x1024x256_0_0_512 : ∀ a, (![0, 0, 512] : Fin 3 → Nat) a + S1x1024x256.size a ≤ S2x1024x2048.size a
  packedbf16_S2x1024x2048_S1x1024x256_0_0_512 : (Rect.unit (s := S2x1024x2048) ![0, 0, 512] S1x1024x256.size inb_S2x1024x2048_S1x1024x256_0_0_512).PackedRows (EltTy.packing .bf16)
  slices_S1024x80_o0_3_S1024x1 : S1024x80.Slices ![0, 3] S1024x1
  inb_S2x1024x2048_S1x1024x256_0_0_768 : ∀ a, (![0, 0, 768] : Fin 3 → Nat) a + S1x1024x256.size a ≤ S2x1024x2048.size a
  packedbf16_S2x1024x2048_S1x1024x256_0_0_768 : (Rect.unit (s := S2x1024x2048) ![0, 0, 768] S1x1024x256.size inb_S2x1024x2048_S1x1024x256_0_0_768).PackedRows (EltTy.packing .bf16)
  slices_S1024x80_o0_4_S1024x1 : S1024x80.Slices ![0, 4] S1024x1
  inb_S2x1024x2048_S1x1024x256_0_0_1024 : ∀ a, (![0, 0, 1024] : Fin 3 → Nat) a + S1x1024x256.size a ≤ S2x1024x2048.size a
  packedbf16_S2x1024x2048_S1x1024x256_0_0_1024 : (Rect.unit (s := S2x1024x2048) ![0, 0, 1024] S1x1024x256.size inb_S2x1024x2048_S1x1024x256_0_0_1024).PackedRows (EltTy.packing .bf16)
  slices_S1024x80_o0_5_S1024x1 : S1024x80.Slices ![0, 5] S1024x1
  inb_S2x1024x2048_S1x1024x256_0_0_1280 : ∀ a, (![0, 0, 1280] : Fin 3 → Nat) a + S1x1024x256.size a ≤ S2x1024x2048.size a
  packedbf16_S2x1024x2048_S1x1024x256_0_0_1280 : (Rect.unit (s := S2x1024x2048) ![0, 0, 1280] S1x1024x256.size inb_S2x1024x2048_S1x1024x256_0_0_1280).PackedRows (EltTy.packing .bf16)
  slices_S1024x80_o0_6_S1024x1 : S1024x80.Slices ![0, 6] S1024x1
  inb_S2x1024x2048_S1x1024x256_0_0_1536 : ∀ a, (![0, 0, 1536] : Fin 3 → Nat) a + S1x1024x256.size a ≤ S2x1024x2048.size a
  packedbf16_S2x1024x2048_S1x1024x256_0_0_1536 : (Rect.unit (s := S2x1024x2048) ![0, 0, 1536] S1x1024x256.size inb_S2x1024x2048_S1x1024x256_0_0_1536).PackedRows (EltTy.packing .bf16)
  slices_S1024x80_o0_7_S1024x1 : S1024x80.Slices ![0, 7] S1024x1
  inb_S2x1024x2048_S1x1024x256_0_0_1792 : ∀ a, (![0, 0, 1792] : Fin 3 → Nat) a + S1x1024x256.size a ≤ S2x1024x2048.size a
  packedbf16_S2x1024x2048_S1x1024x256_0_0_1792 : (Rect.unit (s := S2x1024x2048) ![0, 0, 1792] S1x1024x256.size inb_S2x1024x2048_S1x1024x256_0_0_1792).PackedRows (EltTy.packing .bf16)
  h_S1x2048x512 : 0 < S1x2048x512.numel
  shapeCasts_S1x2048x512_S2048x512 : S1x2048x512.ShapeCasts S2048x512
  inb_S2x1024x2048_S1x1024x2048_0_0_0 : ∀ a, (![0, 0, 0] : Fin 3 → Nat) a + S1x1024x2048.size a ≤ S2x1024x2048.size a
  h_S1x1024x2048 : 0 < S1x1024x2048.numel
  shapeCasts_S1x1024x2048_S1024x2048 : S1x1024x2048.ShapeCasts S1024x2048
  inb_S20480x512_S2048x512_4096_0 : ∀ a, (![4096, 0] : Fin 2 → Nat) a + S2048x512.size a ≤ S20480x512.size a
  slices_S1024x80_o0_8_S1024x1 : S1024x80.Slices ![0, 8] S1024x1
  inb_S2x1024x2048_S1x1024x256_1_0_0 : ∀ a, (![1, 0, 0] : Fin 3 → Nat) a + S1x1024x256.size a ≤ S2x1024x2048.size a
  packedbf16_S2x1024x2048_S1x1024x256_1_0_0 : (Rect.unit (s := S2x1024x2048) ![1, 0, 0] S1x1024x256.size inb_S2x1024x2048_S1x1024x256_1_0_0).PackedRows (EltTy.packing .bf16)
  slices_S1024x80_o0_9_S1024x1 : S1024x80.Slices ![0, 9] S1024x1
  inb_S2x1024x2048_S1x1024x256_1_0_256 : ∀ a, (![1, 0, 256] : Fin 3 → Nat) a + S1x1024x256.size a ≤ S2x1024x2048.size a
  packedbf16_S2x1024x2048_S1x1024x256_1_0_256 : (Rect.unit (s := S2x1024x2048) ![1, 0, 256] S1x1024x256.size inb_S2x1024x2048_S1x1024x256_1_0_256).PackedRows (EltTy.packing .bf16)
  slices_S1024x80_o0_10_S1024x1 : S1024x80.Slices ![0, 10] S1024x1
  inb_S2x1024x2048_S1x1024x256_1_0_512 : ∀ a, (![1, 0, 512] : Fin 3 → Nat) a + S1x1024x256.size a ≤ S2x1024x2048.size a
  packedbf16_S2x1024x2048_S1x1024x256_1_0_512 : (Rect.unit (s := S2x1024x2048) ![1, 0, 512] S1x1024x256.size inb_S2x1024x2048_S1x1024x256_1_0_512).PackedRows (EltTy.packing .bf16)
  slices_S1024x80_o0_11_S1024x1 : S1024x80.Slices ![0, 11] S1024x1
  inb_S2x1024x2048_S1x1024x256_1_0_768 : ∀ a, (![1, 0, 768] : Fin 3 → Nat) a + S1x1024x256.size a ≤ S2x1024x2048.size a
  packedbf16_S2x1024x2048_S1x1024x256_1_0_768 : (Rect.unit (s := S2x1024x2048) ![1, 0, 768] S1x1024x256.size inb_S2x1024x2048_S1x1024x256_1_0_768).PackedRows (EltTy.packing .bf16)
  slices_S1024x80_o0_12_S1024x1 : S1024x80.Slices ![0, 12] S1024x1
  inb_S2x1024x2048_S1x1024x256_1_0_1024 : ∀ a, (![1, 0, 1024] : Fin 3 → Nat) a + S1x1024x256.size a ≤ S2x1024x2048.size a
  packedbf16_S2x1024x2048_S1x1024x256_1_0_1024 : (Rect.unit (s := S2x1024x2048) ![1, 0, 1024] S1x1024x256.size inb_S2x1024x2048_S1x1024x256_1_0_1024).PackedRows (EltTy.packing .bf16)
  slices_S1024x80_o0_13_S1024x1 : S1024x80.Slices ![0, 13] S1024x1
  inb_S2x1024x2048_S1x1024x256_1_0_1280 : ∀ a, (![1, 0, 1280] : Fin 3 → Nat) a + S1x1024x256.size a ≤ S2x1024x2048.size a
  packedbf16_S2x1024x2048_S1x1024x256_1_0_1280 : (Rect.unit (s := S2x1024x2048) ![1, 0, 1280] S1x1024x256.size inb_S2x1024x2048_S1x1024x256_1_0_1280).PackedRows (EltTy.packing .bf16)
  slices_S1024x80_o0_14_S1024x1 : S1024x80.Slices ![0, 14] S1024x1
  inb_S2x1024x2048_S1x1024x256_1_0_1536 : ∀ a, (![1, 0, 1536] : Fin 3 → Nat) a + S1x1024x256.size a ≤ S2x1024x2048.size a
  packedbf16_S2x1024x2048_S1x1024x256_1_0_1536 : (Rect.unit (s := S2x1024x2048) ![1, 0, 1536] S1x1024x256.size inb_S2x1024x2048_S1x1024x256_1_0_1536).PackedRows (EltTy.packing .bf16)
  slices_S1024x80_o0_15_S1024x1 : S1024x80.Slices ![0, 15] S1024x1
  inb_S2x1024x2048_S1x1024x256_1_0_1792 : ∀ a, (![1, 0, 1792] : Fin 3 → Nat) a + S1x1024x256.size a ≤ S2x1024x2048.size a
  packedbf16_S2x1024x2048_S1x1024x256_1_0_1792 : (Rect.unit (s := S2x1024x2048) ![1, 0, 1792] S1x1024x256.size inb_S2x1024x2048_S1x1024x256_1_0_1792).PackedRows (EltTy.packing .bf16)
  inb_S2x1024x2048_S1x1024x2048_1_0_0 : ∀ a, (![1, 0, 0] : Fin 3 → Nat) a + S1x1024x2048.size a ≤ S2x1024x2048.size a
  inb_S20480x512_S2048x512_6144_0 : ∀ a, (![6144, 0] : Fin 2 → Nat) a + S2048x512.size a ≤ S20480x512.size a
  slices_S1024x80_o0_16_S1024x1 : S1024x80.Slices ![0, 16] S1024x1
  slices_S1024x80_o0_17_S1024x1 : S1024x80.Slices ![0, 17] S1024x1
  slices_S1024x80_o0_18_S1024x1 : S1024x80.Slices ![0, 18] S1024x1
  slices_S1024x80_o0_19_S1024x1 : S1024x80.Slices ![0, 19] S1024x1
  slices_S1024x80_o0_20_S1024x1 : S1024x80.Slices ![0, 20] S1024x1
  slices_S1024x80_o0_21_S1024x1 : S1024x80.Slices ![0, 21] S1024x1
  slices_S1024x80_o0_22_S1024x1 : S1024x80.Slices ![0, 22] S1024x1
  slices_S1024x80_o0_23_S1024x1 : S1024x80.Slices ![0, 23] S1024x1
  inb_S20480x512_S2048x512_8192_0 : ∀ a, (![8192, 0] : Fin 2 → Nat) a + S2048x512.size a ≤ S20480x512.size a
  slices_S1024x80_o0_24_S1024x1 : S1024x80.Slices ![0, 24] S1024x1
  slices_S1024x80_o0_25_S1024x1 : S1024x80.Slices ![0, 25] S1024x1
  slices_S1024x80_o0_26_S1024x1 : S1024x80.Slices ![0, 26] S1024x1
  slices_S1024x80_o0_27_S1024x1 : S1024x80.Slices ![0, 27] S1024x1
  slices_S1024x80_o0_28_S1024x1 : S1024x80.Slices ![0, 28] S1024x1
  slices_S1024x80_o0_29_S1024x1 : S1024x80.Slices ![0, 29] S1024x1
  slices_S1024x80_o0_30_S1024x1 : S1024x80.Slices ![0, 30] S1024x1
  slices_S1024x80_o0_31_S1024x1 : S1024x80.Slices ![0, 31] S1024x1
  inb_S20480x512_S2048x512_10240_0 : ∀ a, (![10240, 0] : Fin 2 → Nat) a + S2048x512.size a ≤ S20480x512.size a
  slices_S1024x80_o0_32_S1024x1 : S1024x80.Slices ![0, 32] S1024x1
  slices_S1024x80_o0_33_S1024x1 : S1024x80.Slices ![0, 33] S1024x1
  slices_S1024x80_o0_34_S1024x1 : S1024x80.Slices ![0, 34] S1024x1
  slices_S1024x80_o0_35_S1024x1 : S1024x80.Slices ![0, 35] S1024x1
  slices_S1024x80_o0_36_S1024x1 : S1024x80.Slices ![0, 36] S1024x1
  slices_S1024x80_o0_37_S1024x1 : S1024x80.Slices ![0, 37] S1024x1
  slices_S1024x80_o0_38_S1024x1 : S1024x80.Slices ![0, 38] S1024x1
  slices_S1024x80_o0_39_S1024x1 : S1024x80.Slices ![0, 39] S1024x1
  inb_S20480x512_S2048x512_12288_0 : ∀ a, (![12288, 0] : Fin 2 → Nat) a + S2048x512.size a ≤ S20480x512.size a
  slices_S1024x80_o0_40_S1024x1 : S1024x80.Slices ![0, 40] S1024x1
  slices_S1024x80_o0_41_S1024x1 : S1024x80.Slices ![0, 41] S1024x1
  slices_S1024x80_o0_42_S1024x1 : S1024x80.Slices ![0, 42] S1024x1
  slices_S1024x80_o0_43_S1024x1 : S1024x80.Slices ![0, 43] S1024x1
  slices_S1024x80_o0_44_S1024x1 : S1024x80.Slices ![0, 44] S1024x1
  slices_S1024x80_o0_45_S1024x1 : S1024x80.Slices ![0, 45] S1024x1
  slices_S1024x80_o0_46_S1024x1 : S1024x80.Slices ![0, 46] S1024x1
  slices_S1024x80_o0_47_S1024x1 : S1024x80.Slices ![0, 47] S1024x1
  inb_S20480x512_S2048x512_14336_0 : ∀ a, (![14336, 0] : Fin 2 → Nat) a + S2048x512.size a ≤ S20480x512.size a
  slices_S1024x80_o0_48_S1024x1 : S1024x80.Slices ![0, 48] S1024x1
  slices_S1024x80_o0_49_S1024x1 : S1024x80.Slices ![0, 49] S1024x1
  slices_S1024x80_o0_50_S1024x1 : S1024x80.Slices ![0, 50] S1024x1
  slices_S1024x80_o0_51_S1024x1 : S1024x80.Slices ![0, 51] S1024x1
  slices_S1024x80_o0_52_S1024x1 : S1024x80.Slices ![0, 52] S1024x1
  slices_S1024x80_o0_53_S1024x1 : S1024x80.Slices ![0, 53] S1024x1
  slices_S1024x80_o0_54_S1024x1 : S1024x80.Slices ![0, 54] S1024x1
  slices_S1024x80_o0_55_S1024x1 : S1024x80.Slices ![0, 55] S1024x1
  inb_S20480x512_S2048x512_16384_0 : ∀ a, (![16384, 0] : Fin 2 → Nat) a + S2048x512.size a ≤ S20480x512.size a
  slices_S1024x80_o0_56_S1024x1 : S1024x80.Slices ![0, 56] S1024x1
  slices_S1024x80_o0_57_S1024x1 : S1024x80.Slices ![0, 57] S1024x1
  slices_S1024x80_o0_58_S1024x1 : S1024x80.Slices ![0, 58] S1024x1
  slices_S1024x80_o0_59_S1024x1 : S1024x80.Slices ![0, 59] S1024x1
  slices_S1024x80_o0_60_S1024x1 : S1024x80.Slices ![0, 60] S1024x1
  slices_S1024x80_o0_61_S1024x1 : S1024x80.Slices ![0, 61] S1024x1
  slices_S1024x80_o0_62_S1024x1 : S1024x80.Slices ![0, 62] S1024x1
  slices_S1024x80_o0_63_S1024x1 : S1024x80.Slices ![0, 63] S1024x1
  inb_S20480x512_S2048x512_18432_0 : ∀ a, (![18432, 0] : Fin 2 → Nat) a + S2048x512.size a ≤ S20480x512.size a
  slices_S1024x80_o0_64_S1024x1 : S1024x80.Slices ![0, 64] S1024x1
  slices_S1024x80_o0_65_S1024x1 : S1024x80.Slices ![0, 65] S1024x1
  slices_S1024x80_o0_66_S1024x1 : S1024x80.Slices ![0, 66] S1024x1
  slices_S1024x80_o0_67_S1024x1 : S1024x80.Slices ![0, 67] S1024x1
  slices_S1024x80_o0_68_S1024x1 : S1024x80.Slices ![0, 68] S1024x1
  slices_S1024x80_o0_69_S1024x1 : S1024x80.Slices ![0, 69] S1024x1
  slices_S1024x80_o0_70_S1024x1 : S1024x80.Slices ![0, 70] S1024x1
  slices_S1024x80_o0_71_S1024x1 : S1024x80.Slices ![0, 71] S1024x1
  slices_S1024x80_o0_72_S1024x1 : S1024x80.Slices ![0, 72] S1024x1
  slices_S1024x80_o0_73_S1024x1 : S1024x80.Slices ![0, 73] S1024x1
  slices_S1024x80_o0_74_S1024x1 : S1024x80.Slices ![0, 74] S1024x1
  slices_S1024x80_o0_75_S1024x1 : S1024x80.Slices ![0, 75] S1024x1
  slices_S1024x80_o0_76_S1024x1 : S1024x80.Slices ![0, 76] S1024x1
  slices_S1024x80_o0_77_S1024x1 : S1024x80.Slices ![0, 77] S1024x1
  slices_S1024x80_o0_78_S1024x1 : S1024x80.Slices ![0, 78] S1024x1
  slices_S1024x80_o0_79_S1024x1 : S1024x80.Slices ![0, 79] S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S1024x2048_S2048x512_S1024x512_1_0_0_1_n_n_wf : DotDims.WF S1024x2048 S2048x512 S1024x512 [1] [0] [0] [1] [] []
  dot_S1024x512_S512x512_S1024x512_1_0_0_1_n_n_wf : DotDims.WF S1024x512 S512x512 S1024x512 [1] [0] [0] [1] [] []
  hcc0_scratch3 : 7 + S2.numel ≤ 9
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x80.size a ≤ S4096x80.size a
  hwx0_0 : ∀ i : grid0.Coords, EltTy.bits .i32 = 32 ∨ (Rect.block (s := S4096x80) S1024x80.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S512x512.size a ≤ S512x512.size a
  hwx0_1 : ∀ i : grid0.Coords, EltTy.bits .bf16 = 32 ∨ (Rect.block (s := S512x512) S512x512.size (cc0_transform_2 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S1x512.size a ≤ S1x512.size a
  hwx0_2 : ∀ i : grid0.Coords, EltTy.bits .f32 = 32 ∨ (Rect.block (s := S1x512) S1x512.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S1x512.size a ≤ S1x512.size a
  hwx0_3 : ∀ i : grid0.Coords, EltTy.bits .f32 = 32 ∨ (Rect.block (s := S1x512) S1x512.size (cc0_transform_4 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_5 i = cc0_transform_5 i'
  hinb0_4 : ∀ (i : grid0.Coords) a, (cc0_transform_5 i a + 1) * S1024x512.size a ≤ S4096x512.size a
  hwx0_4 : ∀ i : grid0.Coords, EltTy.bits .f32 = 32 ∨ (Rect.block (s := S4096x512) S1024x512.size (cc0_transform_5 i) (hinb0_4 i)).WholeWords (EltTy.packing .f32)

variable [Facts₀]

abbrev cc0_scratch3 : DmaSems sig S2 := SemArray.consecutive 7 S2 hcc0_scratch3
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_2 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_3 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_4 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x512.size cc0_transform_5 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x80 : Shape := ⟨2, ![4096, 80]⟩
abbrev S20480x512 : Shape := ⟨2, ![20480, 512]⟩
abbrev S512 : Shape := ⟨1, ![512]⟩
abbrev S512x512 : Shape := ⟨2, ![512, 512]⟩
abbrev S80 : Shape := ⟨1, ![80]⟩
abbrev S1x80 : Shape := ⟨2, ![1, 80]⟩
abbrev S_ : Shape := ⟨0, ![]⟩
abbrev S4096x80x1 : Shape := ⟨3, ![4096, 80, 1]⟩
abbrev S1 : Shape := ⟨1, ![1]⟩
abbrev S1x1x1 : Shape := ⟨3, ![1, 1, 1]⟩
abbrev S4096x80x512 : Shape := ⟨3, ![4096, 80, 512]⟩
abbrev S4096x512 : Shape := ⟨2, ![4096, 512]⟩
abbrev S1x512 : Shape := ⟨2, ![1, 512]⟩

abbrev nBuf : Space → Nat
  | .hbm => 50
  | .vmem => 0
  | .smem => 0
  | _ => 0

abbrev bufTy : (tb : Table) → Fin (tcTables nBuf tb) → BufTy
  | .hbm, ⟨0, _⟩ => ⟨S4096x80, .i32⟩
  | .hbm, ⟨1, _⟩ => ⟨S20480x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S80, .i32⟩
  | .hbm, ⟨6, _⟩ => ⟨S1x80, .i32⟩
  | .hbm, ⟨7, _⟩ => ⟨S_, .i32⟩
  | .hbm, ⟨8, _⟩ => ⟨S1x80, .i32⟩
  | .hbm, ⟨9, _⟩ => ⟨S1x80, .i32⟩
  | .hbm, ⟨10, _⟩ => ⟨S4096x80, .i32⟩
  | .hbm, ⟨11, _⟩ => ⟨S4096x80, .i32⟩
  | .hbm, ⟨12, _⟩ => ⟨S_, .i32⟩
  | .hbm, ⟨13, _⟩ => ⟨S4096x80, .i32⟩
  | .hbm, ⟨14, _⟩ => ⟨S4096x80, .i1⟩
  | .hbm, ⟨15, _⟩ => ⟨S_, .i32⟩
  | .hbm, ⟨16, _⟩ => ⟨S4096x80, .i32⟩
  | .hbm, ⟨17, _⟩ => ⟨S4096x80, .i32⟩
  | .hbm, ⟨18, _⟩ => ⟨S4096x80, .i32⟩
  | .hbm, ⟨19, _⟩ => ⟨S4096x80x1, .i32⟩
  | .hbm, ⟨20, _⟩ => ⟨S1, .i32⟩
  | .hbm, ⟨21, _⟩ => ⟨S_, .i32⟩
  | .hbm, ⟨22, _⟩ => ⟨S4096x80x1, .i32⟩
  | .hbm, ⟨23, _⟩ => ⟨S4096x80x1, .i1⟩
  | .hbm, ⟨24, _⟩ => ⟨S1x1x1, .i32⟩
  | .hbm, ⟨25, _⟩ => ⟨S4096x80x1, .i32⟩
  | .hbm, ⟨26, _⟩ => ⟨S4096x80x1, .i1⟩
  | .hbm, ⟨27, _⟩ => ⟨S4096x80x1, .i1⟩
  | .hbm, ⟨28, _⟩ => ⟨S_, .i1⟩
  | .hbm, ⟨29, _⟩ => ⟨S4096x80, .i1⟩
  | .hbm, ⟨30, _⟩ => ⟨S4096x80x512, .f32⟩
  | .hbm, ⟨31, _⟩ => ⟨S4096x80x512, .i1⟩
  | .hbm, ⟨32, _⟩ => ⟨S_, .f32⟩
  | .hbm, ⟨33, _⟩ => ⟨S4096x80x512, .f32⟩
  | .hbm, ⟨34, _⟩ => ⟨S4096x80x512, .f32⟩
  | .hbm, ⟨35, _⟩ => ⟨S_, .f32⟩
  | .hbm, ⟨36, _⟩ => ⟨S4096x512, .f32⟩
  | .hbm, ⟨37, _⟩ => ⟨S1x512, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S1x512, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S4096x512, .f32⟩
  | .hbm, ⟨49, _⟩ => ⟨S4096x512, .f32⟩
  | _, _ => ⟨S4096x80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_call1_cst : Ref sig .tc := ⟨.hbm, 40, rfl⟩
abbrev main_call1_v0 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_call2_cst : Ref sig .tc := ⟨.hbm, 47, rfl⟩
abbrev main_call2_v0 : Ref sig .tc := ⟨.hbm, 48, rfl⟩
abbrev main_v16 : Ref sig .tc := ⟨.hbm, 49, rfl⟩

abbrev nD : Nat := 1
abbrev τ : Topo := Topo.v7x

variable {F : FTy → Type} [FloatOps F]

class Facts₀ : Prop where
  bcast_S80_S1x80_1 : S80.BroadcastsInDim S1x80 (![1] : Fin 1 → Fin S1x80.rank)
  bcast_S_S1x80 : S_.BroadcastsInDim S1x80 (![] : Fin 0 → Fin S1x80.rank)
  bcast_S1x80_S4096x80_0_1 : S1x80.BroadcastsInDim S4096x80 (![0, 1] : Fin 2 → Fin S4096x80.rank)
  bcast_S_S4096x80 : S_.BroadcastsInDim S4096x80 (![] : Fin 0 → Fin S4096x80.rank)
  bcast_S4096x80_S4096x80x1_0_1 : S4096x80.BroadcastsInDim S4096x80x1 (![0, 1] : Fin 2 → Fin S4096x80x1.rank)
  bcast_S_S4096x80x1 : S_.BroadcastsInDim S4096x80x1 (![] : Fin 0 → Fin S4096x80x1.rank)
  bcast_S1_S1x1x1_2 : S1.BroadcastsInDim S1x1x1 (![2] : Fin 1 → Fin S1x1x1.rank)
  bcast_S1x1x1_S4096x80x1_0_1_2 : S1x1x1.BroadcastsInDim S4096x80x1 (![0, 1, 2] : Fin 3 → Fin S4096x80x1.rank)
  reducesTo_S4096x80x1_S4096x80_d2 : S4096x80x1.ReducesTo [2] S4096x80
  h_S_ : 0 < S_.numel
  bcast_S4096x80_S4096x80x512_0_1 : S4096x80.BroadcastsInDim S4096x80x512 (![0, 1] : Fin 2 → Fin S4096x80x512.rank)
  bcast_S_S4096x80x512 : S_.BroadcastsInDim S4096x80x512 (![] : Fin 0 → Fin S4096x80x512.rank)
  reducesTo_S4096x80x512_S4096x512_d1 : S4096x80x512.ReducesTo [1] S4096x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  gather_S20480x512_S4096x80x1_S4096x80x512_2_0_n_n_0_2_1512_wf : GatherDims.WF S20480x512 S4096x80x1 S4096x80x512 [2] [0] [] [0] [] 2 ![1, 512]
  dot_S4096x512_S512x512_S4096x512_1_0_0_1_n_n_wf : DotDims.WF S4096x512 S512x512 S4096x512 [1] [0] [0] [1] [] []

variable [Facts₀]

def gather_S20480x512_S4096x80x1_S4096x80x512_2_0_n_n_0_2_1512 : GatherDims S20480x512 S4096x80x1 S4096x80x512 where
  offsetDims := [2]
  collapsedSliceDims := [0]
  operandBatchingDims := []
  startIndicesBatchingDims := []
  startIndexMap := [0]
  indexVectorDim := 2
  sliceSizes := ![1, 512]
  wf := gather_S20480x512_S4096x80x1_S4096x80x512_2_0_n_n_0_2_1512_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.BitsBodyTiles.lean ====
/-
  The kernel's body, group by group, as plain functions of what it is given: the slab of the stacked table a group
  multiplies by, the one-hot slab it builds for the group, the accumulator after each group, and the block the body stores.
-/
import proofs.«430982_j30846455119979_3_alg».proof.Proof.Gen.Kernel.Skeleton
import Idealize.ShloMosaic.Lib.ValueIdx

noncomputable section

namespace Cert.Kernel.GenP

open Cert.Kernel Cert.Kernel.Gen
open Idealize.ShloMosaic Idealize.ShloMosaic.ValueIdx

variable {F : FTy → Type} [FloatOps F]

/-- Column `l` of the message block can be cut out as a block of one column. -/
theorem slices_col (l : Fin 80) : S1024x80.Slices ![0, l.val] S1024x1 := by
  refine ⟨rfl, fun a => ?_⟩
  have := l.isLt
  match a with
  | ⟨0, _⟩ => show 0 + 1024 ≤ 1024; omega
  | ⟨1, _⟩ => show l.val + 1 ≤ 80; omega

/-- The one-hot piece of position `l`: row `r`, column `c` is one when the message's character at position `l` of row `r`
    is `c`, else zero — the comparison with the column numbers, widened, converted and narrowed as the kernel does it. -/
def ohPiece (l : Fin 80) (v1 : IVec S1024x80 32) : FVec F S1x1024x256 .bf16 :=
  shapeCast S1x1024x256
    (truncf .bf16
      (sitofp .f32
        (extui 32
          (cmpi .eq
            (broadcastTo S1024x256 (extractStridedSlice S1024x1 ![0, l.val] v1 (slices_col l)) Facts₀.broadcasts_S1024x1_S1024x256)
            (broadcastTo S1024x256 (iota .tc S1x256 32 [1] Facts₀.iota_S1x256_d1_w32) Facts₀.broadcasts_S1x256_S1024x256))
          Facts₀.natLt_1_32))
      Facts₀.bitsLt_bf16_f32)
    Facts₀.shapeCasts_S1024x256_S1x1024x256

/-- The one-hot slab of group `k` (positions `8k … 8k+7`): eight pieces side by side, piece `q` in columns `256 q … 256 q + 255`. -/
def ohTile (k : Fin 10) (v1 : IVec S1024x80 32) : Vec F S1x1024x2048 .bf16 :=
  fun j => ohPiece (F := F) ⟨8 * k.val + (j 2).val / 256, by
      have h2 : (j 2).val < 2048 := (j 2).isLt
      have := k.isLt; omega⟩ v1
    (ix3 (0 : Fin 1) ⟨(j 1).val, (j 1).isLt⟩ ⟨(j 2).val % 256, Nat.mod_lt _ (by decide)⟩)

/-- The slab of the stacked table group `k` multiplies by: its rows `2048 k … 2048 k + 2047`. -/
def w1Tile (k : Fin 10) (W : FVec F S20480x512 .f32) : Vec F S1x2048x512 .f32 :=
  fun j => W (ix2 ⟨2048 * k.val + (j 1).val, by
      have h1 : (j 1).val < 2048 := (j 1).isLt
      have := k.isLt; omega⟩ ⟨(j 2).val, (j 2).isLt⟩)

/-- One group's update of the accumulator: the accumulator plus the product of the one-hot slab with the table's slab. -/
def accStep (w : Vec F S1x2048x512 .f32) (acc : Vec F S1024x512 .f32) (oh : Vec F S1x1024x2048 .bf16) : FVec F S1024x512 .f32 :=
  k0_pay14 (k0_pay13 w acc oh)

/-- The accumulator after the first `n` groups (zero before the first). -/
def accAfter (v1 : IVec S1024x80 32) (W : FVec F S20480x512 .f32) : ℕ → FVec F S1024x512 .f32
  | 0 => k0_pay3
  | n + 1 => if h : n < 10 then accStep (w1Tile ⟨n, h⟩ W) (accAfter v1 W n) (ohTile ⟨n, h⟩ v1) else accAfter v1 W n

/-- The block the body stores: the second layer applied to the rectified first layer's sum. -/
def kblock (x0 : Vec F S1024x80 .i32) (x1 : Vec F S512x512 .bf16) (x2 x3 : Vec F S1x512 .f32) (W : FVec F S20480x512 .f32) :
    FVec F S1024x512 .f32 :=
  k0_pay1 (k0_pay113 (accAfter (k0_pay2 x0) W 10) x2) x1 x3

end Cert.Kernel.GenP

end
-- ==== Proof.BitsBodyTableReads.lean ====
/-
  What the body reads of the table's slab after each of its own transfers has landed: whatever the scratch buffer held
  before, the slot read for group `k` holds rows `2048 k … 2048 k + 2047` of the table as the kernel was given it.
-/
import proofs.«430982_j30846455119979_3_alg».proof.Proof.BitsBodyRun
import proofs.«430982_j30846455119979_3_alg».proof.Proof.BitsBodyTiles
import Idealize.ShloMosaic.Lib.Writes
import Idealize.ShloMosaic.Lib.ValueLayout

set_option maxRecDepth 16384

noncomputable section

namespace Cert.Kernel.GenP

open Cert.Kernel Cert.Kernel.Gen
open Idealize.ShloMosaic Idealize.ShloMosaic.ValueIdx

section General
variable {sig' : RefSig} {κ : Kind} {sp : Space} {s : Shape} {e : EltTy} {Val : EltTy → Type}

/-- Reading a rectangle after an unmasked write through a re-indexed view of that same rectangle gives the payload,
    re-indexed. -/
private theorem readAt_write_reshape_same (v : View sig' κ sp s e) (r : Rect s) (s' : Shape) (h : s'.numel = r.shape.numel)
    (g : v.ty.Contents Val) (w : s'.Idx → Val e) :
    View.readAt Val v r.toLoadRect (View.write Val ((v.slice r).reshape s' h) g w Finset.univ)
      = fun x => w ((Shape.reshapeEquiv h).symm x) := by
  rw [View.write_reshape_univ]
  funext x
  exact View.read_slice_write_emb r g _ (Finset.mem_univ x)

/-- Reading a rectangle after an unmasked write through a re-indexed view of a rectangle that shares no element with it
    reads what was there before. -/
private theorem readAt_write_reshape_other (v : View sig' κ sp s e) (r r' : Rect s) (hd : ∀ x x', r.emb x ≠ r'.emb x')
    (s' : Shape) (h : s'.numel = r'.shape.numel) (g : v.ty.Contents Val) (w : s'.Idx → Val e) :
    View.readAt Val v r.toLoadRect (View.write Val ((v.slice r').reshape s' h) g w Finset.univ)
      = View.readAt Val v r.toLoadRect g := by
  rw [View.write_reshape_univ]
  funext x
  exact View.read_slice_write_of_not_mem r' g _ Finset.univ (fun hm => by
    obtain ⟨x', -, hx'⟩ := Finset.mem_map.mp hm
    exact hd x x' hx'.symm)

end General

/-- Two slots of the double buffer with different numbers share no element: their first coordinates differ. -/
private theorem slot_ne {a b : ℕ} (hab : a ≠ b)
    (inb : ∀ i, (![a, 0, 0] : Fin 3 → ℕ) i + S1x2048x512.size i ≤ S2x2048x512.size i)
    (inb' : ∀ i, (![b, 0, 0] : Fin 3 → ℕ) i + S1x2048x512.size i ≤ S2x2048x512.size i)
    (x : (Rect.unit (s := S2x2048x512) ![a, 0, 0] S1x2048x512.size inb).shape.Idx)
    (x' : (Rect.unit (s := S2x2048x512) ![b, 0, 0] S1x2048x512.size inb').shape.Idx) :
    (Rect.unit (s := S2x2048x512) ![a, 0, 0] S1x2048x512.size inb).emb x ≠ (Rect.unit (s := S2x2048x512) ![b, 0, 0] S1x2048x512.size inb').emb x' := by
  intro h
  have h0 := congrArg (fun i : S2x2048x512.Idx => (i 0 : ℕ)) h
  have hx : ((x 0 : Fin 1) : ℕ) < 1 := (x 0 : Fin 1).isLt
  have hx' : ((x' 0 : Fin 1) : ℕ) < 1 := (x' 0 : Fin 1).isLt
  change a + 1 * ((x 0 : Fin 1) : ℕ) = b + 1 * ((x' 0 : Fin 1) : ℕ) at h0
  omega

variable {F : FTy → Type} [FloatOps F]

/-- An index of the squeezed slab matched with the slot's shape: the two trailing coordinates. -/
private theorem squeeze_symm (h : S2048x512.numel = S1x2048x512.numel) (x : S1x2048x512.Idx) :
    (Shape.reshapeEquiv h).symm x = ix2 (n0 := 2048) (n1 := 512) (x 1) (x 2) := by
  apply (Equiv.symm_apply_eq _).mpr
  have h0 : (x 0 : Fin 1) = ⟨0, Nat.one_pos⟩ := Subsingleton.elim (α := Fin 1) _ _
  have e := reshapeEquiv_ix2_1ab (a := 2048) (b := 512) h (x 1) (x 2)
  refine Eq.trans ?_ e.symm
  funext a
  match a with
  | ⟨0, _⟩ => exact h0
  | ⟨1, _⟩ => rfl
  | ⟨2, _⟩ => rfl

/-- The table's rows from `o = 2048 k` on, as a slab laid out in a slot, is the slab group `k` multiplies by. -/
private theorem slab_read (k : Fin 10) (o : ℕ) (ho : o = 2048 * k.val) (c : Dev nD) (fh0 : HbBuf0 (F := F) c hbM0_0)
    (inb : ∀ a, (![o, 0] : Fin 2 → ℕ) a + S2048x512.size a ≤ S20480x512.size a)
    (hst : ∀ a, (Rect.unit (s := S20480x512) ![o, 0] S2048x512.size inb).stride a = 1)
    (h : S2048x512.numel = S1x2048x512.numel) :
    (fun x : S1x2048x512.Idx => ReadAs.same.apply (View.read (Elt F)
        ((Memref.whole main_arg1).slice (Rect.unit (s := S20480x512) ![o, 0] S2048x512.size inb) hst).view fh0) ((Shape.reshapeEquiv h).symm x))
      = w1Tile k (View.read (Elt F) hbM0_0.view fh0) := by
  funext x
  rw [squeeze_symm]
  subst ho
  show View.read (Elt F) (Memref.whole main_arg1).view fh0 ((Rect.unit (s := S20480x512) ![2048 * k.val, 0] S2048x512.size inb).emb (ix2 (n0 := 2048) (n1 := 512) (x 1) (x 2))) = _
  unfold w1Tile
  congr 1
  funext a
  match a with
  | ⟨0, _⟩ => exact Fin.ext (by show 2048 * k.val + 1 * (x 1).val = 2048 * k.val + (x 1).val; omega)
  | ⟨1, _⟩ => exact Fin.ext (by show 0 + 1 * (x 2).val = (x 2).val; omega)

/-- The slot read for group 0 holds the table's slab 0, whatever the scratch buffer held on entry. -/
theorem table_read0 (c : Dev nD) (arg7 : Memref sig .tc .vmem S2x2048x512 .f32) (fh0 : HbBuf0 (F := F) c hbM0_0)
    (fs : BufTy.Contents (Elt F) arg7.view.ty) :
    kernelRunRaw.sl.v102 c arg7 fh0 fs = w1Tile (0 : Fin 10) (View.read (Elt F) hbM0_0.view fh0) := by
  unfold kernelRunRaw.sl.v102 kernelRunRaw.sl.dma3
  rw [readAt_write_reshape_other _ _ _ (slot_ne (by decide) _ _), readAt_write_reshape_same]
  exact slab_read 0 0 rfl c fh0 _ _ _

/-- The slot read for group 1 holds the table's slab 1, whatever the scratch buffer held on entry. -/
theorem table_read1 (c : Dev nD) (arg7 : Memref sig .tc .vmem S2x2048x512 .f32) (fh0 : HbBuf0 (F := F) c hbM0_0)
    (fs : BufTy.Contents (Elt F) arg7.view.ty) :
    kernelRunRaw.sl.v203 c arg7 fh0 fs = w1Tile (1 : Fin 10) (View.read (Elt F) hbM0_0.view fh0) := by
  unfold kernelRunRaw.sl.v203 kernelRunRaw.sl.dma3_1
  rw [readAt_write_reshape_other _ _ _ (slot_ne (by decide) _ _), readAt_write_reshape_same]
  exact slab_read 1 2048 rfl c fh0 _ _ _

/-- The slot read for group 2 holds the table's slab 2, whatever the scratch buffer held on entry. -/
theorem table_read2 (c : Dev nD) (arg7 : Memref sig .tc .vmem S2x2048x512 .f32) (fh0 : HbBuf0 (F := F) c hbM0_0)
    (fs : BufTy.Contents (Elt F) arg7.view.ty) :
    kernelRunRaw.sl.v304 c arg7 fh0 fs = w1Tile (2 : Fin 10) (View.read (Elt F) hbM0_0.view fh0) := by
  unfold kernelRunRaw.sl.v304 kernelRunRaw.sl.dma24
  rw [readAt_write_reshape_other _ _ _ (slot_ne (by decide) _ _), readAt_write_reshape_same]
  exact slab_read 2 4096 rfl c fh0 _ _ _

/-- The slot read for group 3 holds the table's slab 3, whatever the scratch buffer held on entry. -/
theorem table_read3 (c : Dev nD) (arg7 : Memref sig .tc .vmem S2x2048x512 .f32) (fh0 : HbBuf0 (F := F) c hbM0_0)
    (fs : BufTy.Contents (Elt F) arg7.view.ty) :
    kernelRunRaw.sl.v405 c arg7 fh0 fs = w1Tile (3 : Fin 10) (View.read (Elt F) hbM0_0.view fh0) := by
  unfold kernelRunRaw.sl.v405 kernelRunRaw.sl.dma45
  rw [readAt_write_reshape_other _ _ _ (slot_ne (by decide) _ _), readAt_write_reshape_same]
  exact slab_read 3 6144 rfl c fh0 _ _ _

/-- The slot read for group 4 holds the table's slab 4, whatever the scratch buffer held on entry. -/
theorem table_read4 (c : Dev nD) (arg7 : Memref sig .tc .vmem S2x2048x512 .f32) (fh0 : HbBuf0 (F := F) c hbM0_0)
    (fs : BufTy.Contents (Elt F) arg7.view.ty) :
    kernelRunRaw.sl.v506 c arg7 fh0 fs = w1Tile (4 : Fin 10) (View.read (Elt F) hbM0_0.view fh0) := by
  unfold kernelRunRaw.sl.v506 kernelRunRaw.sl.dma66
  rw [readAt_write_reshape_other _ _ _ (slot_ne (by decide) _ _), readAt_write_reshape_same]
  exact slab_read 4 8192 rfl c fh0 _ _ _

/-- The slot read for group 5 holds the table's slab 5, whatever the scratch buffer held on entry. -/
theorem table_read5 (c : Dev nD) (arg7 : Memref sig .tc .vmem S2x2048x512 .f32) (fh0 : HbBuf0 (F := F) c hbM0_0)
    (fs : BufTy.Contents (Elt F) arg7.view.ty) :
    kernelRunRaw.sl.v607 c arg7 fh0 fs = w1Tile (5 : Fin 10) (View.read (Elt F) hbM0_0.view fh0) := by
  unfold kernelRunRaw.sl.v607 kernelRunRaw.sl.dma87
  rw [readAt_write_reshape_other _ _ _ (slot_ne (by decide) _ _), readAt_write_reshape_same]
  exact slab_read 5 10240 rfl c fh0 _ _ _

/-- The slot read for group 6 holds the table's slab 6, whatever the scratch buffer held on entry. -/
theorem table_read6 (c : Dev nD) (arg7 : Memref sig .tc .vmem S2x2048x512 .f32) (fh0 : HbBuf0 (F := F) c hbM0_0)
    (fs : BufTy.Contents (Elt F) arg7.view.ty) :
    kernelRunRaw.sl.v708 c arg7 fh0 fs = w1Tile (6 : Fin 10) (View.read (Elt F) hbM0_0.view fh0) := by
  unfold kernelRunRaw.sl.v708 kernelRunRaw.sl.dma108
  rw [readAt_write_reshape_other _ _ _ (slot_ne (by decide) _ _), readAt_write_reshape_same]
  exact slab_read 6 12288 rfl c fh0 _ _ _

/-- The slot read for group 7 holds the table's slab 7, whatever the scratch buffer held on entry. -/
theorem table_read7 (c : Dev nD) (arg7 : Memref sig .tc .vmem S2x2048x512 .f32) (fh0 : HbBuf0 (F := F) c hbM0_0)
    (fs : BufTy.Contents (Elt F) arg7.view.ty) :
    kernelRunRaw.sl.v809 c arg7 fh0 fs = w1Tile (7 : Fin 10) (View.read (Elt F) hbM0_0.view fh0) := by
  unfold kernelRunRaw.sl.v809 kernelRunRaw.sl.dma129
  rw [readAt_write_reshape_other _ _ _ (slot_ne (by decide) _ _), readAt_write_reshape_same]
  exact slab_read 7 14336 rfl c fh0 _ _ _

/-- The slot read for group 8 holds the table's slab 8, whatever the scratch buffer held on entry. -/
theorem table_read8 (c : Dev nD) (arg7 : Memref sig .tc .vmem S2x2048x512 .f32) (fh0 : HbBuf0 (F := F) c hbM0_0)
    (fs : BufTy.Contents (Elt F) arg7.view.ty) :
    kernelRunRaw.sl.v910 c arg7 fh0 fs = w1Tile (8 : Fin 10) (View.read (Elt F) hbM0_0.view fh0) := by
  unfold kernelRunRaw.sl.v910 kernelRunRaw.sl.dma150
  rw [readAt_write_reshape_other _ _ _ (slot_ne (by decide) _ _), readAt_write_reshape_same]
  exact slab_read 8 16384 rfl c fh0 _ _ _

/-- The slot read for group 9 holds the table's slab 9, whatever the scratch buffer held on entry. -/
theorem table_read9 (c : Dev nD) (arg7 : Memref sig .tc .vmem S2x2048x512 .f32) (fh0 : HbBuf0 (F := F) c hbM0_0)
    (fs : BufTy.Contents (Elt F) arg7.view.ty) :
    kernelRunRaw.sl.v1006 c arg7 fh0 fs = w1Tile (9 : Fin 10) (View.read (Elt F) hbM0_0.view fh0) := by
  unfold kernelRunRaw.sl.v1006 kernelRunRaw.sl.dma171
  rw [readAt_write_reshape_same]
  exact slab_read 9 18432 rfl c fh0 _ _ _

end Cert.Kernel.GenP

end
-- ==== Proof.BitsBodyOneHotReads.lean ====
/-
  What the body reads of the one-hot scratch for each group: the eight pieces stored last cover the slot read, so the
  read is the group's one-hot slab, whatever pieces earlier groups left under them.
-/
import proofs.«430982_j30846455119979_3_alg».proof.Proof.BitsBodyRun
import proofs.«430982_j30846455119979_3_alg».proof.Proof.BitsBodyTiles
import Idealize.ShloMosaic.Lib.Pipeline.FrameBody
import Idealize.ShloMosaic.Lib.Pipeline.CanonAppend
import Idealize.ShloMosaic.Lib.Pipeline.Value

set_option maxRecDepth 16384

noncomputable section

namespace Cert.Kernel.GenP

open Cert.Kernel Cert.Kernel.Gen
open Idealize.ShloMosaic Idealize.ShloMosaic.ValueIdx

variable {F : FTy → Type} [FloatOps F]

/-- A one-hot piece depends on its position and on the row and column of the index only. -/
private theorem ohPiece_eq {l l' : Fin 80} (v1 : IVec S1024x80 32) (x x' : S1x1024x256.Idx) (hl : l.val = l'.val)
    (h1 : (x 1).val = (x' 1).val) (h2 : (x 2).val = (x' 2).val) :
    ohPiece (F := F) l v1 x = ohPiece l' v1 x' := by
  have e : l = l' := Fin.ext hl
  subst e
  have ex : x = x' := by
    funext a
    match a with
    | ⟨0, h0⟩ =>
      have h : (x ⟨0, h0⟩).val < 1 := (x ⟨0, h0⟩).isLt
      have h' : (x' ⟨0, h0⟩).val < 1 := (x' ⟨0, h0⟩).isLt
      exact Fin.ext (by omega)
    | ⟨1, _⟩ => exact Fin.ext h1
    | ⟨2, _⟩ => exact Fin.ext h2
  rw [ex]

/-- The function of the scratch's index the eight pieces of group `k` are blocks of: at row `r`, column `c` (of either
    slot) the one-hot of position `8k + c / 256` at row `r`, column `c % 256`. -/
private def slotFn (k : Fin 10) (v1 : IVec S1024x80 32) : S2x1024x2048.Idx → Elt F .bf16 :=
  fun y => ohPiece (F := F) ⟨8 * k.val + (y 2).val / 256, by
      have h2 : (y 2).val < 2048 := (y 2).isLt
      have := k.isLt; omega⟩ v1
    (ix3 (0 : Fin 1) ⟨(y 1).val, (y 1).isLt⟩ ⟨(y 2).val % 256, Nat.mod_lt _ (by decide)⟩)

/-- Piece `q` of group `k`, stored at columns `256 q …` of slot `s`, is the block of `slotFn` at its rectangle. -/
private theorem piece_block (s : Nat) (k : Fin 10) (v1 : IVec S1024x80 32) (q : Fin 8) (off2 : Nat) (hoff : off2 = 256 * q.val)
    (i : ∀ a, ![s, 0, off2] a + S1x1024x256.size a ≤ S2x1024x2048.size a)
    (w : FVec F S1x1024x256 .bf16) (hw : w = ohPiece ⟨8 * k.val + q.val, by have := k.isLt; have := q.isLt; omega⟩ v1)
    (x : (Rect.unit (s := S2x1024x2048) ![s, 0, off2] S1x1024x256.size i).shape.Idx) :
    w x = slotFn (F := F) k v1 ((Rect.unit (s := S2x1024x2048) ![s, 0, off2] S1x1024x256.size i).emb x) := by
  subst hw
  have hx2 : (x 2).val < 256 := (x 2).isLt
  have hq := q.isLt
  have e1 : ((Rect.unit (s := S2x1024x2048) ![s, 0, off2] S1x1024x256.size i).emb x 1).val = 0 + 1 * (x 1).val := rfl
  have e2 : ((Rect.unit (s := S2x1024x2048) ![s, 0, off2] S1x1024x256.size i).emb x 2).val = off2 + 1 * (x 2).val := rfl
  unfold slotFn
  refine ohPiece_eq v1 _ _ ?_ ?_ ?_
  · show 8 * k.val + q.val = 8 * k.val + ((Rect.unit (s := S2x1024x2048) ![s, 0, off2] S1x1024x256.size i).emb x 2).val / 256
    rw [e2]; omega
  · show (x 1).val = ((Rect.unit (s := S2x1024x2048) ![s, 0, off2] S1x1024x256.size i).emb x 1).val
    rw [e1]; omega
  · show (x 2).val = ((Rect.unit (s := S2x1024x2048) ![s, 0, off2] S1x1024x256.size i).emb x 2).val % 256
    rw [e2]; omega

/-- An index of the slot's load whose column lies in `off2 … off2 + 255` lies in the piece stored at those columns. -/
private theorem mem_piece (s off2 : Nat) (i : ∀ a, ![s, 0, off2] a + S1x1024x256.size a ≤ S2x1024x2048.size a)
    (iB : ∀ a, ![s, 0, 0] a + S1x1024x2048.size a ≤ S2x1024x2048.size a)
    (j : (Rect.unit (s := S2x1024x2048) ![s, 0, 0] S1x1024x2048.size iB).toLoadRect.shape.Idx)
    (h : off2 ≤ (j 2).val ∧ (j 2).val < off2 + 256) :
    (Rect.unit (s := S2x1024x2048) ![s, 0, 0] S1x1024x2048.size iB).toLoadRect.idx j
      ∈ (Rect.unit (s := S2x1024x2048) ![s, 0, off2] S1x1024x256.size i).set := by
  rw [Rect.mem_set_unit]
  intro a
  match a with
  | ⟨0, _⟩ =>
    have h0 : (j 0).val < 1 := (j 0).isLt
    show s ≤ s + 1 * (j 0).val ∧ s + 1 * (j 0).val < s + 1
    omega
  | ⟨1, _⟩ =>
    have h1 : (j 1).val < 1024 := (j 1).isLt
    show 0 ≤ 0 + 1 * (j 1).val ∧ 0 + 1 * (j 1).val < 0 + 1024
    omega
  | ⟨2, _⟩ =>
    show off2 ≤ 0 + 1 * (j 2).val ∧ 0 + 1 * (j 2).val < off2 + 256
    omega

/-- A load of slot `s` of the one-hot scratch after the eight pieces of group `k` were stored there last, over any
    earlier stores: the group's one-hot slab. -/
private theorem slot_read (s : Nat) (k : Fin 10) (v1 : IVec S1024x80 32)
    (arg8 : Memref sig .tc .vmem S2x1024x2048 .bf16)
    (i0 : ∀ a, ![s, 0, 0] a + S1x1024x256.size a ≤ S2x1024x2048.size a)
    (i1 : ∀ a, ![s, 0, 256] a + S1x1024x256.size a ≤ S2x1024x2048.size a)
    (i2 : ∀ a, ![s, 0, 512] a + S1x1024x256.size a ≤ S2x1024x2048.size a)
    (i3 : ∀ a, ![s, 0, 768] a + S1x1024x256.size a ≤ S2x1024x2048.size a)
    (i4 : ∀ a, ![s, 0, 1024] a + S1x1024x256.size a ≤ S2x1024x2048.size a)
    (i5 : ∀ a, ![s, 0, 1280] a + S1x1024x256.size a ≤ S2x1024x2048.size a)
    (i6 : ∀ a, ![s, 0, 1536] a + S1x1024x256.size a ≤ S2x1024x2048.size a)
    (i7 : ∀ a, ![s, 0, 1792] a + S1x1024x256.size a ≤ S2x1024x2048.size a)
    (iB : ∀ a, ![s, 0, 0] a + S1x1024x2048.size a ≤ S2x1024x2048.size a)
    (w0 w1 w2 w3 w4 w5 w6 w7 : FVec F S1x1024x256 .bf16)
    (h0 : w0 = ohPiece ⟨8 * k.val + 0, by have := k.isLt; omega⟩ v1)
    (h1 : w1 = ohPiece ⟨8 * k.val + 1, by have := k.isLt; omega⟩ v1)
    (h2 : w2 = ohPiece ⟨8 * k.val + 2, by have := k.isLt; omega⟩ v1)
    (h3 : w3 = ohPiece ⟨8 * k.val + 3, by have := k.isLt; omega⟩ v1)
    (h4 : w4 = ohPiece ⟨8 * k.val + 4, by have := k.isLt; omega⟩ v1)
    (h5 : w5 = ohPiece ⟨8 * k.val + 5, by have := k.isLt; omega⟩ v1)
    (h6 : w6 = ohPiece ⟨8 * k.val + 6, by have := k.isLt; omega⟩ v1)
    (h7 : w7 = ohPiece ⟨8 * k.val + 7, by have := k.isLt; omega⟩ v1)
    (L' : List (View.Piece (Elt F) S2x1024x2048 .bf16)) :
    arg8.view.readCov
      (⟨Rect.unit (s := S2x1024x2048) ![s, 0, 1792] S1x1024x256.size i7, w7⟩ ::
        ⟨Rect.unit (s := S2x1024x2048) ![s, 0, 1536] S1x1024x256.size i6, w6⟩ ::
        ⟨Rect.unit (s := S2x1024x2048) ![s, 0, 1280] S1x1024x256.size i5, w5⟩ ::
        ⟨Rect.unit (s := S2x1024x2048) ![s, 0, 1024] S1x1024x256.size i4, w4⟩ ::
        ⟨Rect.unit (s := S2x1024x2048) ![s, 0, 768] S1x1024x256.size i3, w3⟩ ::
        ⟨Rect.unit (s := S2x1024x2048) ![s, 0, 512] S1x1024x256.size i2, w2⟩ ::
        ⟨Rect.unit (s := S2x1024x2048) ![s, 0, 256] S1x1024x256.size i1, w1⟩ ::
        ⟨Rect.unit (s := S2x1024x2048) ![s, 0, 0] S1x1024x256.size i0, w0⟩ ::
        L')
      (Rect.unit (s := S2x1024x2048) ![s, 0, 0] S1x1024x2048.size iB).toLoadRect = ohTile k v1 := by
  rw [View.readCov_eq_canon']
  funext j
  have hj2 : (j 2).val < 2048 := (j 2).isLt
  refine (View.canon_append_of_pieces (slotFn (F := F) k v1) L'
    [⟨Rect.unit (s := S2x1024x2048) ![s, 0, 1792] S1x1024x256.size i7, w7⟩,
     ⟨Rect.unit (s := S2x1024x2048) ![s, 0, 1536] S1x1024x256.size i6, w6⟩,
     ⟨Rect.unit (s := S2x1024x2048) ![s, 0, 1280] S1x1024x256.size i5, w5⟩,
     ⟨Rect.unit (s := S2x1024x2048) ![s, 0, 1024] S1x1024x256.size i4, w4⟩,
     ⟨Rect.unit (s := S2x1024x2048) ![s, 0, 768] S1x1024x256.size i3, w3⟩,
     ⟨Rect.unit (s := S2x1024x2048) ![s, 0, 512] S1x1024x256.size i2, w2⟩,
     ⟨Rect.unit (s := S2x1024x2048) ![s, 0, 256] S1x1024x256.size i1, w1⟩,
     ⟨Rect.unit (s := S2x1024x2048) ![s, 0, 0] S1x1024x256.size i0, w0⟩] ?_ _ ?_).trans ?_
  · intro p hp
    simp only [List.mem_cons, List.not_mem_nil, or_false] at hp
    rcases hp with rfl | rfl | rfl | rfl | rfl | rfl | rfl | rfl
    · exact piece_block s k v1 (7 : Fin 8) 1792 rfl i7 w7 h7
    · exact piece_block s k v1 (6 : Fin 8) 1536 rfl i6 w6 h6
    · exact piece_block s k v1 (5 : Fin 8) 1280 rfl i5 w5 h5
    · exact piece_block s k v1 (4 : Fin 8) 1024 rfl i4 w4 h4
    · exact piece_block s k v1 (3 : Fin 8) 768 rfl i3 w3 h3
    · exact piece_block s k v1 (2 : Fin 8) 512 rfl i2 w2 h2
    · exact piece_block s k v1 (1 : Fin 8) 256 rfl i1 w1 h1
    · exact piece_block s k v1 (0 : Fin 8) 0 rfl i0 w0 h0
  · have hc : (j 2).val < 256 ∨ (256 ≤ (j 2).val ∧ (j 2).val < 512) ∨ (512 ≤ (j 2).val ∧ (j 2).val < 768)
        ∨ (768 ≤ (j 2).val ∧ (j 2).val < 1024) ∨ (1024 ≤ (j 2).val ∧ (j 2).val < 1280)
        ∨ (1280 ≤ (j 2).val ∧ (j 2).val < 1536) ∨ (1536 ≤ (j 2).val ∧ (j 2).val < 1792) ∨ 1792 ≤ (j 2).val := by omega
    rcases hc with hc | hc | hc | hc | hc | hc | hc | hc
    · exact ⟨⟨Rect.unit (s := S2x1024x2048) ![s, 0, 0] S1x1024x256.size i0, w0⟩, by simp, mem_piece s 0 i0 iB j (by omega)⟩
    · exact ⟨⟨Rect.unit (s := S2x1024x2048) ![s, 0, 256] S1x1024x256.size i1, w1⟩, by simp, mem_piece s 256 i1 iB j (by omega)⟩
    · exact ⟨⟨Rect.unit (s := S2x1024x2048) ![s, 0, 512] S1x1024x256.size i2, w2⟩, by simp, mem_piece s 512 i2 iB j (by omega)⟩
    · exact ⟨⟨Rect.unit (s := S2x1024x2048) ![s, 0, 768] S1x1024x256.size i3, w3⟩, by simp, mem_piece s 768 i3 iB j (by omega)⟩
    · exact ⟨⟨Rect.unit (s := S2x1024x2048) ![s, 0, 1024] S1x1024x256.size i4, w4⟩, by simp, mem_piece s 1024 i4 iB j (by omega)⟩
    · exact ⟨⟨Rect.unit (s := S2x1024x2048) ![s, 0, 1280] S1x1024x256.size i5, w5⟩, by simp, mem_piece s 1280 i5 iB j (by omega)⟩
    · exact ⟨⟨Rect.unit (s := S2x1024x2048) ![s, 0, 1536] S1x1024x256.size i6, w6⟩, by simp, mem_piece s 1536 i6 iB j (by omega)⟩
    · exact ⟨⟨Rect.unit (s := S2x1024x2048) ![s, 0, 1792] S1x1024x256.size i7, w7⟩, by simp, mem_piece s 1792 i7 iB j (by omega)⟩
  · have e1 : (((Rect.unit (s := S2x1024x2048) ![s, 0, 0] S1x1024x2048.size iB).toLoadRect.idx j) 1).val = 0 + 1 * (j 1).val := rfl
    have e2 : (((Rect.unit (s := S2x1024x2048) ![s, 0, 0] S1x1024x2048.size iB).toLoadRect.idx j) 2).val = 0 + 1 * (j 2).val := rfl
    unfold slotFn ohTile
    refine ohPiece_eq v1 _ _ ?_ ?_ ?_
    · show 8 * k.val + (((Rect.unit (s := S2x1024x2048) ![s, 0, 0] S1x1024x2048.size iB).toLoadRect.idx j) 2).val / 256
        = 8 * k.val + (j 2).val / 256
      rw [e2]; omega
    · show (((Rect.unit (s := S2x1024x2048) ![s, 0, 0] S1x1024x2048.size iB).toLoadRect.idx j) 1).val = (j 1).val
      rw [e1]; omega
    · show (((Rect.unit (s := S2x1024x2048) ![s, 0, 0] S1x1024x2048.size iB).toLoadRect.idx j) 2).val % 256 = (j 2).val % 256
      rw [e2]; omega

/-- The window the message block is read through, held at the contents that read `x0`, reads `x0`. -/
private theorem msg_raw (arg1 : Memref sig .tc .vmem S1024x80 .i32) (harg1 : arg1.IsWhole) (x0 : Vec F S1024x80 .i32) :
    View.readAt (Elt F) arg1.view (Rect.unit (s := S1024x80) ![0, 0] S1024x80.size inb_S1024x80_S1024x80_0_0).toLoadRect
      (harg1.unread x0) = x0 := by
  rw [View.readAt_eq_ld, harg1.read_unread, View.ld_unit_zero (S := S1024x80) (by funext a; fin_cases a <;> rfl)]

/-- The message block as the body first reads it. -/
private theorem msg_read (c : Dev nD) (arg1 : Memref sig .tc .vmem S1024x80 .i32) (harg1 : arg1.IsWhole)
    (x0 : Vec F S1024x80 .i32) : kernelRunRaw.sl.r c arg1 harg1 x0 = k0_pay2 x0 := by
  unfold kernelRunRaw.sl.r
  rw [msg_raw]

/-- The first piece's rows, computed from the same read. -/
private theorem msg_read1 (c : Dev nD) (arg1 : Memref sig .tc .vmem S1024x80 .i32) (harg1 : arg1.IsWhole)
    (x0 : Vec F S1024x80 .i32) : kernelRunRaw.sl.r_1 c arg1 harg1 x0 = k0_pay4 x0 := by
  unfold kernelRunRaw.sl.r_1
  rw [msg_raw]

/-- Closes `payload = ohPiece l (k0_pay2 x0)`: the payload's names open to the comparison of column `l` of the message
    block with the column numbers, which is the piece. -/
local macro "oh_pay" : tactic =>
  `(tactic| (simp only [msg_read, msg_read1, kernelRunRaw.sl.r_3, kernelRunRaw.sl.r_4, kernelRunRaw.sl.r_5, kernelRunRaw.sl.r_6, kernelRunRaw.sl.r_7, kernelRunRaw.sl.r_9, kernelRunRaw.sl.r_10, kernelRunRaw.sl.r_11, kernelRunRaw.sl.r_12, kernelRunRaw.sl.r_13, kernelRunRaw.sl.r_14, kernelRunRaw.sl.r_15, kernelRunRaw.sl.r_16, kernelRunRaw.sl.r_18, kernelRunRaw.sl.r_19]; rfl))

/-- The slot read for group 0 is the one-hot slab of positions 0 … 7. -/
theorem onehot_read0 (c : Dev nD) (arg1 : Memref sig .tc .vmem S1024x80 .i32) (harg1 : arg1.IsWhole)
    (arg8 : Memref sig .tc .vmem S2x1024x2048 .bf16) (x0 : Vec F S1024x80 .i32) :
    kernelRunRaw.sl.v106 c arg1 harg1 arg8 x0 = ohTile (0 : Fin 10) (k0_pay2 x0) := by
  unfold kernelRunRaw.sl.v106 kernelRunRaw.sl.HS1_8
  refine slot_read 0 (0 : Fin 10) (k0_pay2 x0) arg8 _ _ _ _ _ _ _ _ _ _ _ _ _ _ _ _ _
    ?_ ?_ ?_ ?_ ?_ ?_ ?_ ?_ _ <;> oh_pay

/-- The slot read for group 1 is the one-hot slab of positions 8 … 15. -/
theorem onehot_read1 (c : Dev nD) (arg1 : Memref sig .tc .vmem S1024x80 .i32) (harg1 : arg1.IsWhole)
    (arg8 : Memref sig .tc .vmem S2x1024x2048 .bf16) (x0 : Vec F S1024x80 .i32) :
    kernelRunRaw.sl.v207 c arg1 harg1 arg8 x0 = ohTile (1 : Fin 10) (k0_pay2 x0) := by
  unfold kernelRunRaw.sl.v207 kernelRunRaw.sl.HS1_16
  refine slot_read 1 (1 : Fin 10) (k0_pay2 x0) arg8 _ _ _ _ _ _ _ _ _ _ _ _ _ _ _ _ _
    ?_ ?_ ?_ ?_ ?_ ?_ ?_ ?_ _ <;> oh_pay

/-- The slot read for group 2 is the one-hot slab of positions 16 … 23. -/
theorem onehot_read2 (c : Dev nD) (arg1 : Memref sig .tc .vmem S1024x80 .i32) (harg1 : arg1.IsWhole)
    (arg8 : Memref sig .tc .vmem S2x1024x2048 .bf16) (x0 : Vec F S1024x80 .i32) :
    kernelRunRaw.sl.v308 c arg1 harg1 arg8 x0 = ohTile (2 : Fin 10) (k0_pay2 x0) := by
  unfold kernelRunRaw.sl.v308 kernelRunRaw.sl.HS1_24
  refine slot_read 0 (2 : Fin 10) (k0_pay2 x0) arg8 _ _ _ _ _ _ _ _ _ _ _ _ _ _ _ _ _
    ?_ ?_ ?_ ?_ ?_ ?_ ?_ ?_ _ <;> oh_pay

/-- The slot read for group 3 is the one-hot slab of positions 24 … 31. -/
theorem onehot_read3 (c : Dev nD) (arg1 : Memref sig .tc .vmem S1024x80 .i32) (harg1 : arg1.IsWhole)
    (arg8 : Memref sig .tc .vmem S2x1024x2048 .bf16) (x0 : Vec F S1024x80 .i32) :
    kernelRunRaw.sl.v409 c arg1 harg1 arg8 x0 = ohTile (3 : Fin 10) (k0_pay2 x0) := by
  unfold kernelRunRaw.sl.v409 kernelRunRaw.sl.HS1_32
  refine slot_read 1 (3 : Fin 10) (k0_pay2 x0) arg8 _ _ _ _ _ _ _ _ _ _ _ _ _ _ _ _ _
    ?_ ?_ ?_ ?_ ?_ ?_ ?_ ?_ _ <;> oh_pay

/-- The slot read for group 4 is the one-hot slab of positions 32 … 39. -/
theorem onehot_read4 (c : Dev nD) (arg1 : Memref sig .tc .vmem S1024x80 .i32) (harg1 : arg1.IsWhole)
    (arg8 : Memref sig .tc .vmem S2x1024x2048 .bf16) (x0 : Vec F S1024x80 .i32) :
    kernelRunRaw.sl.v510 c arg1 harg1 arg8 x0 = ohTile (4 : Fin 10) (k0_pay2 x0) := by
  unfold kernelRunRaw.sl.v510 kernelRunRaw.sl.HS1_40
  refine slot_read 0 (4 : Fin 10) (k0_pay2 x0) arg8 _ _ _ _ _ _ _ _ _ _ _ _ _ _ _ _ _
    ?_ ?_ ?_ ?_ ?_ ?_ ?_ ?_ _ <;> oh_pay

/-- The slot read for group 5 is the one-hot slab of positions 40 … 47. -/
theorem onehot_read5 (c : Dev nD) (arg1 : Memref sig .tc .vmem S1024x80 .i32) (harg1 : arg1.IsWhole)
    (arg8 : Memref sig .tc .vmem S2x1024x2048 .bf16) (x0 : Vec F S1024x80 .i32) :
    kernelRunRaw.sl.v611 c arg1 harg1 arg8 x0 = ohTile (5 : Fin 10) (k0_pay2 x0) := by
  unfold kernelRunRaw.sl.v611 kernelRunRaw.sl.HS1_48
  refine slot_read 1 (5 : Fin 10) (k0_pay2 x0) arg8 _ _ _ _ _ _ _ _ _ _ _ _ _ _ _ _ _
    ?_ ?_ ?_ ?_ ?_ ?_ ?_ ?_ _ <;> oh_pay

/-- The slot read for group 6 is the one-hot slab of positions 48 … 55. -/
theorem onehot_read6 (c : Dev nD) (arg1 : Memref sig .tc .vmem S1024x80 .i32) (harg1 : arg1.IsWhole)
    (arg8 : Memref sig .tc .vmem S2x1024x2048 .bf16) (x0 : Vec F S1024x80 .i32) :
    kernelRunRaw.sl.v712 c arg1 harg1 arg8 x0 = ohTile (6 : Fin 10) (k0_pay2 x0) := by
  unfold kernelRunRaw.sl.v712 kernelRunRaw.sl.HS1_56
  refine slot_read 0 (6 : Fin 10) (k0_pay2 x0) arg8 _ _ _ _ _ _ _ _ _ _ _ _ _ _ _ _ _
    ?_ ?_ ?_ ?_ ?_ ?_ ?_ ?_ _ <;> oh_pay

/-- The slot read for group 7 is the one-hot slab of positions 56 … 63. -/
theorem onehot_read7 (c : Dev nD) (arg1 : Memref sig .tc .vmem S1024x80 .i32) (harg1 : arg1.IsWhole)
    (arg8 : Memref sig .tc .vmem S2x1024x2048 .bf16) (x0 : Vec F S1024x80 .i32) :
    kernelRunRaw.sl.v813 c arg1 harg1 arg8 x0 = ohTile (7 : Fin 10) (k0_pay2 x0) := by
  unfold kernelRunRaw.sl.v813 kernelRunRaw.sl.HS1_64
  refine slot_read 1 (7 : Fin 10) (k0_pay2 x0) arg8 _ _ _ _ _ _ _ _ _ _ _ _ _ _ _ _ _
    ?_ ?_ ?_ ?_ ?_ ?_ ?_ ?_ _ <;> oh_pay

/-- The slot read for group 8 is the one-hot slab of positions 64 … 71. -/
theorem onehot_read8 (c : Dev nD) (arg1 : Memref sig .tc .vmem S1024x80 .i32) (harg1 : arg1.IsWhole)
    (arg8 : Memref sig .tc .vmem S2x1024x2048 .bf16) (x0 : Vec F S1024x80 .i32) :
    kernelRunRaw.sl.v914 c arg1 harg1 arg8 x0 = ohTile (8 : Fin 10) (k0_pay2 x0) := by
  unfold kernelRunRaw.sl.v914 kernelRunRaw.sl.HS1_72
  refine slot_read 0 (8 : Fin 10) (k0_pay2 x0) arg8 _ _ _ _ _ _ _ _ _ _ _ _ _ _ _ _ _
    ?_ ?_ ?_ ?_ ?_ ?_ ?_ ?_ _ <;> oh_pay

/-- The slot read for group 9 is the one-hot slab of positions 72 … 79. -/
theorem onehot_read9 (c : Dev nD) (arg1 : Memref sig .tc .vmem S1024x80 .i32) (harg1 : arg1.IsWhole)
    (arg8 : Memref sig .tc .vmem S2x1024x2048 .bf16) (x0 : Vec F S1024x80 .i32) :
    kernelRunRaw.sl.v1010 c arg1 harg1 arg8 x0 = ohTile (9 : Fin 10) (k0_pay2 x0) := by
  unfold kernelRunRaw.sl.v1010 kernelRunRaw.sl.HS1_80
  refine slot_read 1 (9 : Fin 10) (k0_pay2 x0) arg8 _ _ _ _ _ _ _ _ _ _ _ _ _ _ _ _ _
    ?_ ?_ ?_ ?_ ?_ ?_ ?_ ?_ _ <;> oh_pay

end Cert.Kernel.GenP

end
-- ==== Proof.BitsBodyClosed.lean ====
/-
  The accumulator read back after each group, and with it the one piece the body leaves in the output's staging buffer,
  in closed form: no mention of what any scratch buffer held on entry.
-/
import proofs.«430982_j30846455119979_3_alg».proof.Proof.BitsBodyRun
import proofs.«430982_j30846455119979_3_alg».proof.Proof.BitsBodyTiles
import proofs.«430982_j30846455119979_3_alg».proof.Proof.BitsBodyTableReads
import proofs.«430982_j30846455119979_3_alg».proof.Proof.BitsBodyOneHotReads
import Idealize.ShloMosaic.Lib.Pipeline.Value
import Idealize.ShloMosaic.Lib.Pipeline.FrameBody

set_option maxRecDepth 16384

noncomputable section

namespace Cert.Kernel.GenP

open Cert.Kernel Cert.Kernel.Gen
open Idealize.ShloMosaic Idealize.ShloMosaic.ValueIdx

variable {F : FTy → Type} [FloatOps F]

private theorem zeros2 : (![0, 0] : Fin 2 → ℕ) = fun _ => 0 := by
  funext a; match a with | ⟨0, _⟩ => rfl | ⟨1, _⟩ => rfl

/-- One more group: the accumulator after `n + 1` groups is the group's update of the accumulator after `n`. -/
theorem accAfter_succ (v1 : IVec S1024x80 32) (W : FVec F S20480x512 .f32) (n : ℕ) (h : n < 10) :
    accAfter v1 W (n + 1) = accStep (w1Tile ⟨n, h⟩ W) (accAfter v1 W n) (ohTile ⟨n, h⟩ v1) := by
  rw [accAfter, dif_pos h]

/-- The accumulator read back after the zeroing store is the zero block. -/
theorem acc_read0 (c : Dev nD) (arg9 : Memref sig .tc .vmem S1024x512 .f32) :
    kernelRunRaw.sl.v105 (F := F) c arg9 = k0_pay3 := by
  unfold kernelRunRaw.sl.v105 kernelRunRaw.sl.HS2_1
  exact View.readCov_unit_zero _ zeros2 _ _

/-- The accumulator read back after 1 group: the store's own piece, which is the group's update of what was read before it. -/
theorem acc_read1 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v206 c arg1 harg1 arg7 arg8 arg9 x0 fh0 fs
      = accAfter (k0_pay2 x0) (View.read (Elt F) hbM0_0.view fh0) 1 := by
  unfold kernelRunRaw.sl.v206 kernelRunRaw.sl.HS2_2
  rw [View.readCov_cons_toLoadRect]
  unfold kernelRunRaw.sl.r_2
  rw [table_read0, acc_read0, onehot_read0, accAfter_succ _ _ 0 (by decide)]
  rfl

/-- The accumulator read back after 2 groups: the store's own piece, which is the group's update of what was read before it. -/
theorem acc_read2 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v307 c arg1 harg1 arg7 arg8 arg9 x0 fh0 fs
      = accAfter (k0_pay2 x0) (View.read (Elt F) hbM0_0.view fh0) 2 := by
  unfold kernelRunRaw.sl.v307 kernelRunRaw.sl.HS2_3
  rw [View.readCov_cons_toLoadRect]
  rw [table_read1, acc_read1 c arg1 harg1 arg7 arg8 arg9 x0 fh0 fs, onehot_read1, accAfter_succ _ _ 1 (by decide)]
  rfl

/-- The accumulator read back after 3 groups: the store's own piece, which is the group's update of what was read before it. -/
theorem acc_read3 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v408 c arg1 harg1 arg7 arg8 arg9 x0 fh0 fs
      = accAfter (k0_pay2 x0) (View.read (Elt F) hbM0_0.view fh0) 3 := by
  unfold kernelRunRaw.sl.v408 kernelRunRaw.sl.HS2_4
  rw [View.readCov_cons_toLoadRect]
  rw [table_read2, acc_read2 c arg1 harg1 arg7 arg8 arg9 x0 fh0 fs, onehot_read2, accAfter_succ _ _ 2 (by decide)]
  rfl

/-- The accumulator read back after 4 groups: the store's own piece, which is the group's update of what was read before it. -/
theorem acc_read4 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v509 c arg1 harg1 arg7 arg8 arg9 x0 fh0 fs
      = accAfter (k0_pay2 x0) (View.read (Elt F) hbM0_0.view fh0) 4 := by
  unfold kernelRunRaw.sl.v509 kernelRunRaw.sl.HS2_5
  rw [View.readCov_cons_toLoadRect]
  unfold kernelRunRaw.sl.r_8
  rw [table_read3, acc_read3 c arg1 harg1 arg7 arg8 arg9 x0 fh0 fs, onehot_read3, accAfter_succ _ _ 3 (by decide)]
  rfl

/-- The accumulator read back after 5 groups: the store's own piece, which is the group's update of what was read before it. -/
theorem acc_read5 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v610 c arg1 harg1 arg7 arg8 arg9 x0 fh0 fs
      = accAfter (k0_pay2 x0) (View.read (Elt F) hbM0_0.view fh0) 5 := by
  unfold kernelRunRaw.sl.v610 kernelRunRaw.sl.HS2_6
  rw [View.readCov_cons_toLoadRect]
  rw [table_read4, acc_read4 c arg1 harg1 arg7 arg8 arg9 x0 fh0 fs, onehot_read4, accAfter_succ _ _ 4 (by decide)]
  rfl

/-- The accumulator read back after 6 groups: the store's own piece, which is the group's update of what was read before it. -/
theorem acc_read6 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v711 c arg1 harg1 arg7 arg8 arg9 x0 fh0 fs
      = accAfter (k0_pay2 x0) (View.read (Elt F) hbM0_0.view fh0) 6 := by
  unfold kernelRunRaw.sl.v711 kernelRunRaw.sl.HS2_7
  rw [View.readCov_cons_toLoadRect]
  rw [table_read5, acc_read5 c arg1 harg1 arg7 arg8 arg9 x0 fh0 fs, onehot_read5, accAfter_succ _ _ 5 (by decide)]
  rfl

/-- The accumulator read back after 7 groups: the store's own piece, which is the group's update of what was read before it. -/
theorem acc_read7 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v812 c arg1 harg1 arg7 arg8 arg9 x0 fh0 fs
      = accAfter (k0_pay2 x0) (View.read (Elt F) hbM0_0.view fh0) 7 := by
  unfold kernelRunRaw.sl.v812 kernelRunRaw.sl.HS2_8
  rw [View.readCov_cons_toLoadRect]
  rw [table_read6, acc_read6 c arg1 harg1 arg7 arg8 arg9 x0 fh0 fs, onehot_read6, accAfter_succ _ _ 6 (by decide)]
  rfl

/-- The accumulator read back after 8 groups: the store's own piece, which is the group's update of what was read before it. -/
theorem acc_read8 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v913 c arg1 harg1 arg7 arg8 arg9 x0 fh0 fs
      = accAfter (k0_pay2 x0) (View.read (Elt F) hbM0_0.view fh0) 8 := by
  unfold kernelRunRaw.sl.v913 kernelRunRaw.sl.HS2_9
  rw [View.readCov_cons_toLoadRect]
  rw [table_read7, acc_read7 c arg1 harg1 arg7 arg8 arg9 x0 fh0 fs, onehot_read7, accAfter_succ _ _ 7 (by decide)]
  rfl

/-- The accumulator read back after 9 groups: the store's own piece, which is the group's update of what was read before it. -/
theorem acc_read9 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v1009 c arg1 harg1 arg7 arg8 arg9 x0 fh0 fs
      = accAfter (k0_pay2 x0) (View.read (Elt F) hbM0_0.view fh0) 9 := by
  unfold kernelRunRaw.sl.v1009 kernelRunRaw.sl.HS2_10
  rw [View.readCov_cons_toLoadRect]
  unfold kernelRunRaw.sl.r_17
  rw [table_read8, acc_read8 c arg1 harg1 arg7 arg8 arg9 x0 fh0 fs, onehot_read8, accAfter_succ _ _ 8 (by decide)]
  rfl

/-- The accumulator read back after 10 groups: the store's own piece, which is the group's update of what was read before it. -/
theorem acc_read10 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v1017 c arg1 harg1 arg7 arg8 arg9 x0 fh0 fs
      = accAfter (k0_pay2 x0) (View.read (Elt F) hbM0_0.view fh0) 10 := by
  unfold kernelRunRaw.sl.v1017 kernelRunRaw.sl.HS2_11
  rw [View.readCov_cons_toLoadRect]
  rw [table_read9, acc_read9 c arg1 harg1 arg7 arg8 arg9 x0 fh0 fs, onehot_read9, accAfter_succ _ _ 9 (by decide)]
  rfl

/-- THE BODY'S PIECE IN CLOSED FORM: whatever the first scratch buffer held on entry, the body leaves in the output's staging
    buffer one whole-block piece, the block `kblock` of the blocks it was given and of the table. -/
theorem raw_pieces (c : Dev nD) (i : grid0.Coords) (arg1 : Memref sig .tc .vmem S1024x80 .i32) (harg1 : arg1.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S2x2048x512 .f32) (harg7 : arg7.IsWhole) (arg8 : Memref sig .tc .vmem S2x1024x2048 .bf16) (harg8 : arg8.IsWhole) (arg9 : Memref sig .tc .vmem S1024x512 .f32) (harg9 : arg9.IsWhole)
    (x0 : Vec F S1024x80 .i32) (x1 : Vec F S512x512 .bf16) (x2 : Vec F S1x512 .f32) (x3 : Vec F S1x512 .f32) (fh0 : HbBuf0 (F := F) c hbM0_0)
    (fs : BufTy.Contents (Elt F) arg7.view.ty) :
    (kernelRunRaw c i arg1 harg1 arg3 harg3 arg4 harg4 arg5 harg5 arg6 harg6 arg7 harg7 arg8 harg8 arg9 harg9 x0 x1 x2 x3 fh0).1 fs
      = [⟨Rect.unit (s := S1024x512) ![0, 0] S1024x512.size Facts₀.inb_S1024x512_S1024x512_0_0,
          kblock x0 x1 x2 x3 (View.read (Elt F) hbM0_0.view fh0)⟩] := by
  unfold kernelRunRaw
  dsimp only
  unfold kernelRunRaw.sl.r_20 kernelRunRaw.sl.r_21
  rw [acc_read10 c arg1 harg1 arg7 arg8 arg9 x0 fh0 fs]
  simp only [View.readAt_eq_ld, harg3.read_unread, harg4.read_unread, harg5.read_unread,
    View.ld_unit_zero (S := S1x512) zeros2, View.ld_unit_zero (S := S512x512) zeros2]
  rfl

end Cert.Kernel.GenP

end
-- ==== Proof.BodyTiles.lean ====
/-
  The kernel's body, group by group, as plain functions of what it is given: the slab of the stacked table a group
  multiplies by, the one-hot slab it builds for the group, the accumulator after each group, and the block the body stores.
-/
import proofs.«430982_j30846455119979_3_alg».proof.Proof.Gen.KernelIdeal.Skeleton
import Idealize.ShloMosaic.Lib.ValueIdx

noncomputable section

namespace Cert.KernelIdeal.GenP

open Cert.KernelIdeal Cert.KernelIdeal.Gen
open Idealize.ShloMosaic Idealize.ShloMosaic.ValueIdx

variable {F : FTy → Type} [FloatOps F]

/-- Column `l` of the message block can be cut out as a block of one column. -/
theorem slices_col (l : Fin 80) : S1024x80.Slices ![0, l.val] S1024x1 := by
  refine ⟨rfl, fun a => ?_⟩
  have := l.isLt
  match a with
  | ⟨0, _⟩ => show 0 + 1024 ≤ 1024; omega
  | ⟨1, _⟩ => show l.val + 1 ≤ 80; omega

/-- The one-hot piece of position `l`: row `r`, column `c` is one when the message's character at position `l` of row `r`
    is `c`, else zero — the comparison with the column numbers, widened, converted and narrowed as the kernel does it. -/
def ohPiece (l : Fin 80) (v1 : IVec S1024x80 32) : FVec F S1x1024x256 .bf16 :=
  shapeCast S1x1024x256
    (truncf .bf16
      (sitofp .f32
        (extui 32
          (cmpi .eq
            (broadcastTo S1024x256 (extractStridedSlice S1024x1 ![0, l.val] v1 (slices_col l)) Facts₀.broadcasts_S1024x1_S1024x256)
            (broadcastTo S1024x256 (iota .tc S1x256 32 [1] Facts₀.iota_S1x256_d1_w32) Facts₀.broadcasts_S1x256_S1024x256))
          Facts₀.natLt_1_32))
      Facts₀.bitsLt_bf16_f32)
    Facts₀.shapeCasts_S1024x256_S1x1024x256

/-- The one-hot slab of group `k` (positions `8k … 8k+7`): eight pieces side by side, piece `q` in columns `256 q … 256 q + 255`. -/
def ohTile (k : Fin 10) (v1 : IVec S1024x80 32) : Vec F S1x1024x2048 .bf16 :=
  fun j => ohPiece (F := F) ⟨8 * k.val + (j 2).val / 256, by
      have h2 : (j 2).val < 2048 := (j 2).isLt
      have := k.isLt; omega⟩ v1
    (ix3 (0 : Fin 1) ⟨(j 1).val, (j 1).isLt⟩ ⟨(j 2).val % 256, Nat.mod_lt _ (by decide)⟩)

/-- The slab of the stacked table group `k` multiplies by: its rows `2048 k … 2048 k + 2047`. -/
def w1Tile (k : Fin 10) (W : FVec F S20480x512 .f32) : Vec F S1x2048x512 .f32 :=
  fun j => W (ix2 ⟨2048 * k.val + (j 1).val, by
      have h1 : (j 1).val < 2048 := (j 1).isLt
      have := k.isLt; omega⟩ ⟨(j 2).val, (j 2).isLt⟩)

/-- One group's update of the accumulator: the accumulator plus the product of the one-hot slab with the table's slab. -/
def accStep (w : Vec F S1x2048x512 .f32) (acc : Vec F S1024x512 .f32) (oh : Vec F S1x1024x2048 .bf16) : FVec F S1024x512 .f32 :=
  k0_pay14 (k0_pay13 w acc oh)

/-- The accumulator after the first `n` groups (zero before the first). -/
def accAfter (v1 : IVec S1024x80 32) (W : FVec F S20480x512 .f32) : ℕ → FVec F S1024x512 .f32
  | 0 => k0_pay3
  | n + 1 => if h : n < 10 then accStep (w1Tile ⟨n, h⟩ W) (accAfter v1 W n) (ohTile ⟨n, h⟩ v1) else accAfter v1 W n

/-- The block the body stores: the second layer applied to the rectified first layer's sum. -/
def kblock (x0 : Vec F S1024x80 .i32) (x1 : Vec F S512x512 .bf16) (x2 x3 : Vec F S1x512 .f32) (W : FVec F S20480x512 .f32) :
    FVec F S1024x512 .f32 :=
  k0_pay1 (k0_pay113 (accAfter (k0_pay2 x0) W 10) x2) x1 x3

end Cert.KernelIdeal.GenP

end
-- ==== Proof.BodyTableReads.lean ====
/-
  What the body reads of the table's slab after each of its own transfers has landed: whatever the scratch buffer held
  before, the slot read for group `k` holds rows `2048 k … 2048 k + 2047` of the table as the kernel was given it.
-/
import proofs.«430982_j30846455119979_3_alg».proof.Proof.BodyRun
import proofs.«430982_j30846455119979_3_alg».proof.Proof.BodyTiles
import Idealize.ShloMosaic.Lib.Writes
import Idealize.ShloMosaic.Lib.ValueLayout

set_option maxRecDepth 16384

noncomputable section

namespace Cert.KernelIdeal.GenP

open Cert.KernelIdeal Cert.KernelIdeal.Gen
open Idealize.ShloMosaic Idealize.ShloMosaic.ValueIdx

section General
variable {sig' : RefSig} {κ : Kind} {sp : Space} {s : Shape} {e : EltTy} {Val : EltTy → Type}

/-- Reading a rectangle after an unmasked write through a re-indexed view of that same rectangle gives the payload,
    re-indexed. -/
private theorem readAt_write_reshape_same (v : View sig' κ sp s e) (r : Rect s) (s' : Shape) (h : s'.numel = r.shape.numel)
    (g : v.ty.Contents Val) (w : s'.Idx → Val e) :
    View.readAt Val v r.toLoadRect (View.write Val ((v.slice r).reshape s' h) g w Finset.univ)
      = fun x => w ((Shape.reshapeEquiv h).symm x) := by
  rw [View.write_reshape_univ]
  funext x
  exact View.read_slice_write_emb r g _ (Finset.mem_univ x)

/-- Reading a rectangle after an unmasked write through a re-indexed view of a rectangle that shares no element with it
    reads what was there before. -/
private theorem readAt_write_reshape_other (v : View sig' κ sp s e) (r r' : Rect s) (hd : ∀ x x', r.emb x ≠ r'.emb x')
    (s' : Shape) (h : s'.numel = r'.shape.numel) (g : v.ty.Contents Val) (w : s'.Idx → Val e) :
    View.readAt Val v r.toLoadRect (View.write Val ((v.slice r').reshape s' h) g w Finset.univ)
      = View.readAt Val v r.toLoadRect g := by
  rw [View.write_reshape_univ]
  funext x
  exact View.read_slice_write_of_not_mem r' g _ Finset.univ (fun hm => by
    obtain ⟨x', -, hx'⟩ := Finset.mem_map.mp hm
    exact hd x x' hx'.symm)

end General

/-- Two slots of the double buffer with different numbers share no element: their first coordinates differ. -/
private theorem slot_ne {a b : ℕ} (hab : a ≠ b)
    (inb : ∀ i, (![a, 0, 0] : Fin 3 → ℕ) i + S1x2048x512.size i ≤ S2x2048x512.size i)
    (inb' : ∀ i, (![b, 0, 0] : Fin 3 → ℕ) i + S1x2048x512.size i ≤ S2x2048x512.size i)
    (x : (Rect.unit (s := S2x2048x512) ![a, 0, 0] S1x2048x512.size inb).shape.Idx)
    (x' : (Rect.unit (s := S2x2048x512) ![b, 0, 0] S1x2048x512.size inb').shape.Idx) :
    (Rect.unit (s := S2x2048x512) ![a, 0, 0] S1x2048x512.size inb).emb x ≠ (Rect.unit (s := S2x2048x512) ![b, 0, 0] S1x2048x512.size inb').emb x' := by
  intro h
  have h0 := congrArg (fun i : S2x2048x512.Idx => (i 0 : ℕ)) h
  have hx : ((x 0 : Fin 1) : ℕ) < 1 := (x 0 : Fin 1).isLt
  have hx' : ((x' 0 : Fin 1) : ℕ) < 1 := (x' 0 : Fin 1).isLt
  change a + 1 * ((x 0 : Fin 1) : ℕ) = b + 1 * ((x' 0 : Fin 1) : ℕ) at h0
  omega

variable {F : FTy → Type} [FloatOps F]

/-- An index of the squeezed slab matched with the slot's shape: the two trailing coordinates. -/
private theorem squeeze_symm (h : S2048x512.numel = S1x2048x512.numel) (x : S1x2048x512.Idx) :
    (Shape.reshapeEquiv h).symm x = ix2 (n0 := 2048) (n1 := 512) (x 1) (x 2) := by
  apply (Equiv.symm_apply_eq _).mpr
  have h0 : (x 0 : Fin 1) = ⟨0, Nat.one_pos⟩ := Subsingleton.elim (α := Fin 1) _ _
  have e := reshapeEquiv_ix2_1ab (a := 2048) (b := 512) h (x 1) (x 2)
  refine Eq.trans ?_ e.symm
  funext a
  match a with
  | ⟨0, _⟩ => exact h0
  | ⟨1, _⟩ => rfl
  | ⟨2, _⟩ => rfl

/-- The table's rows from `o = 2048 k` on, as a slab laid out in a slot, is the slab group `k` multiplies by. -/
private theorem slab_read (k : Fin 10) (o : ℕ) (ho : o = 2048 * k.val) (c : Dev nD) (fh0 : HbBuf0 (F := F) c hbM0_0)
    (inb : ∀ a, (![o, 0] : Fin 2 → ℕ) a + S2048x512.size a ≤ S20480x512.size a)
    (hst : ∀ a, (Rect.unit (s := S20480x512) ![o, 0] S2048x512.size inb).stride a = 1)
    (h : S2048x512.numel = S1x2048x512.numel) :
    (fun x : S1x2048x512.Idx => ReadAs.same.apply (View.read (Elt F)
        ((Memref.whole main_arg1).slice (Rect.unit (s := S20480x512) ![o, 0] S2048x512.size inb) hst).view fh0) ((Shape.reshapeEquiv h).symm x))
      = w1Tile k (View.read (Elt F) hbM0_0.view fh0) := by
  funext x
  rw [squeeze_symm]
  subst ho
  show View.read (Elt F) (Memref.whole main_arg1).view fh0 ((Rect.unit (s := S20480x512) ![2048 * k.val, 0] S2048x512.size inb).emb (ix2 (n0 := 2048) (n1 := 512) (x 1) (x 2))) = _
  unfold w1Tile
  congr 1
  funext a
  match a with
  | ⟨0, _⟩ => exact Fin.ext (by show 2048 * k.val + 1 * (x 1).val = 2048 * k.val + (x 1).val; omega)
  | ⟨1, _⟩ => exact Fin.ext (by show 0 + 1 * (x 2).val = (x 2).val; omega)

/-- The slot read for group 0 holds the table's slab 0, whatever the scratch buffer held on entry. -/
theorem table_read0 (c : Dev nD) (arg7 : Memref sig .tc .vmem S2x2048x512 .f32) (fh0 : HbBuf0 (F := F) c hbM0_0)
    (fs : BufTy.Contents (Elt F) arg7.view.ty) :
    kernelRunRaw.sl.v102 c arg7 fh0 fs = w1Tile (0 : Fin 10) (View.read (Elt F) hbM0_0.view fh0) := by
  unfold kernelRunRaw.sl.v102 kernelRunRaw.sl.dma3
  rw [readAt_write_reshape_other _ _ _ (slot_ne (by decide) _ _), readAt_write_reshape_same]
  exact slab_read 0 0 rfl c fh0 _ _ _

/-- The slot read for group 1 holds the table's slab 1, whatever the scratch buffer held on entry. -/
theorem table_read1 (c : Dev nD) (arg7 : Memref sig .tc .vmem S2x2048x512 .f32) (fh0 : HbBuf0 (F := F) c hbM0_0)
    (fs : BufTy.Contents (Elt F) arg7.view.ty) :
    kernelRunRaw.sl.v203 c arg7 fh0 fs = w1Tile (1 : Fin 10) (View.read (Elt F) hbM0_0.view fh0) := by
  unfold kernelRunRaw.sl.v203 kernelRunRaw.sl.dma3_1
  rw [readAt_write_reshape_other _ _ _ (slot_ne (by decide) _ _), readAt_write_reshape_same]
  exact slab_read 1 2048 rfl c fh0 _ _ _

/-- The slot read for group 2 holds the table's slab 2, whatever the scratch buffer held on entry. -/
theorem table_read2 (c : Dev nD) (arg7 : Memref sig .tc .vmem S2x2048x512 .f32) (fh0 : HbBuf0 (F := F) c hbM0_0)
    (fs : BufTy.Contents (Elt F) arg7.view.ty) :
    kernelRunRaw.sl.v304 c arg7 fh0 fs = w1Tile (2 : Fin 10) (View.read (Elt F) hbM0_0.view fh0) := by
  unfold kernelRunRaw.sl.v304 kernelRunRaw.sl.dma24
  rw [readAt_write_reshape_other _ _ _ (slot_ne (by decide) _ _), readAt_write_reshape_same]
  exact slab_read 2 4096 rfl c fh0 _ _ _

/-- The slot read for group 3 holds the table's slab 3, whatever the scratch buffer held on entry. -/
theorem table_read3 (c : Dev nD) (arg7 : Memref sig .tc .vmem S2x2048x512 .f32) (fh0 : HbBuf0 (F := F) c hbM0_0)
    (fs : BufTy.Contents (Elt F) arg7.view.ty) :
    kernelRunRaw.sl.v405 c arg7 fh0 fs = w1Tile (3 : Fin 10) (View.read (Elt F) hbM0_0.view fh0) := by
  unfold kernelRunRaw.sl.v405 kernelRunRaw.sl.dma45
  rw [readAt_write_reshape_other _ _ _ (slot_ne (by decide) _ _), readAt_write_reshape_same]
  exact slab_read 3 6144 rfl c fh0 _ _ _

/-- The slot read for group 4 holds the table's slab 4, whatever the scratch buffer held on entry. -/
theorem table_read4 (c : Dev nD) (arg7 : Memref sig .tc .vmem S2x2048x512 .f32) (fh0 : HbBuf0 (F := F) c hbM0_0)
    (fs : BufTy.Contents (Elt F) arg7.view.ty) :
    kernelRunRaw.sl.v506 c arg7 fh0 fs = w1Tile (4 : Fin 10) (View.read (Elt F) hbM0_0.view fh0) := by
  unfold kernelRunRaw.sl.v506 kernelRunRaw.sl.dma66
  rw [readAt_write_reshape_other _ _ _ (slot_ne (by decide) _ _), readAt_write_reshape_same]
  exact slab_read 4 8192 rfl c fh0 _ _ _

/-- The slot read for group 5 holds the table's slab 5, whatever the scratch buffer held on entry. -/
theorem table_read5 (c : Dev nD) (arg7 : Memref sig .tc .vmem S2x2048x512 .f32) (fh0 : HbBuf0 (F := F) c hbM0_0)
    (fs : BufTy.Contents (Elt F) arg7.view.ty) :
    kernelRunRaw.sl.v607 c arg7 fh0 fs = w1Tile (5 : Fin 10) (View.read (Elt F) hbM0_0.view fh0) := by
  unfold kernelRunRaw.sl.v607 kernelRunRaw.sl.dma87
  rw [readAt_write_reshape_other _ _ _ (slot_ne (by decide) _ _), readAt_write_reshape_same]
  exact slab_read 5 10240 rfl c fh0 _ _ _

/-- The slot read for group 6 holds the table's slab 6, whatever the scratch buffer held on entry. -/
theorem table_read6 (c : Dev nD) (arg7 : Memref sig .tc .vmem S2x2048x512 .f32) (fh0 : HbBuf0 (F := F) c hbM0_0)
    (fs : BufTy.Contents (Elt F) arg7.view.ty) :
    kernelRunRaw.sl.v708 c arg7 fh0 fs = w1Tile (6 : Fin 10) (View.read (Elt F) hbM0_0.view fh0) := by
  unfold kernelRunRaw.sl.v708 kernelRunRaw.sl.dma108
  rw [readAt_write_reshape_other _ _ _ (slot_ne (by decide) _ _), readAt_write_reshape_same]
  exact slab_read 6 12288 rfl c fh0 _ _ _

/-- The slot read for group 7 holds the table's slab 7, whatever the scratch buffer held on entry. -/
theorem table_read7 (c : Dev nD) (arg7 : Memref sig .tc .vmem S2x2048x512 .f32) (fh0 : HbBuf0 (F := F) c hbM0_0)
    (fs : BufTy.Contents (Elt F) arg7.view.ty) :
    kernelRunRaw.sl.v809 c arg7 fh0 fs = w1Tile (7 : Fin 10) (View.read (Elt F) hbM0_0.view fh0) := by
  unfold kernelRunRaw.sl.v809 kernelRunRaw.sl.dma129
  rw [readAt_write_reshape_other _ _ _ (slot_ne (by decide) _ _), readAt_write_reshape_same]
  exact slab_read 7 14336 rfl c fh0 _ _ _

/-- The slot read for group 8 holds the table's slab 8, whatever the scratch buffer held on entry. -/
theorem table_read8 (c : Dev nD) (arg7 : Memref sig .tc .vmem S2x2048x512 .f32) (fh0 : HbBuf0 (F := F) c hbM0_0)
    (fs : BufTy.Contents (Elt F) arg7.view.ty) :
    kernelRunRaw.sl.v910 c arg7 fh0 fs = w1Tile (8 : Fin 10) (View.read (Elt F) hbM0_0.view fh0) := by
  unfold kernelRunRaw.sl.v910 kernelRunRaw.sl.dma150
  rw [readAt_write_reshape_other _ _ _ (slot_ne (by decide) _ _), readAt_write_reshape_same]
  exact slab_read 8 16384 rfl c fh0 _ _ _

/-- The slot read for group 9 holds the table's slab 9, whatever the scratch buffer held on entry. -/
theorem table_read9 (c : Dev nD) (arg7 : Memref sig .tc .vmem S2x2048x512 .f32) (fh0 : HbBuf0 (F := F) c hbM0_0)
    (fs : BufTy.Contents (Elt F) arg7.view.ty) :
    kernelRunRaw.sl.v1006 c arg7 fh0 fs = w1Tile (9 : Fin 10) (View.read (Elt F) hbM0_0.view fh0) := by
  unfold kernelRunRaw.sl.v1006 kernelRunRaw.sl.dma171
  rw [readAt_write_reshape_same]
  exact slab_read 9 18432 rfl c fh0 _ _ _

end Cert.KernelIdeal.GenP

end
-- ==== Proof.BodyOneHotReads.lean ====
/-
  What the body reads of the one-hot scratch for each group: the eight pieces stored last cover the slot read, so the
  read is the group's one-hot slab, whatever pieces earlier groups left under them.
-/
import proofs.«430982_j30846455119979_3_alg».proof.Proof.BodyRun
import proofs.«430982_j30846455119979_3_alg».proof.Proof.BodyTiles
import Idealize.ShloMosaic.Lib.Pipeline.FrameBody
import Idealize.ShloMosaic.Lib.Pipeline.CanonAppend
import Idealize.ShloMosaic.Lib.Pipeline.Value

set_option maxRecDepth 16384

noncomputable section

namespace Cert.KernelIdeal.GenP

open Cert.KernelIdeal Cert.KernelIdeal.Gen
open Idealize.ShloMosaic Idealize.ShloMosaic.ValueIdx

variable {F : FTy → Type} [FloatOps F]

/-- A one-hot piece depends on its position and on the row and column of the index only. -/
private theorem ohPiece_eq {l l' : Fin 80} (v1 : IVec S1024x80 32) (x x' : S1x1024x256.Idx) (hl : l.val = l'.val)
    (h1 : (x 1).val = (x' 1).val) (h2 : (x 2).val = (x' 2).val) :
    ohPiece (F := F) l v1 x = ohPiece l' v1 x' := by
  have e : l = l' := Fin.ext hl
  subst e
  have ex : x = x' := by
    funext a
    match a with
    | ⟨0, h0⟩ =>
      have h : (x ⟨0, h0⟩).val < 1 := (x ⟨0, h0⟩).isLt
      have h' : (x' ⟨0, h0⟩).val < 1 := (x' ⟨0, h0⟩).isLt
      exact Fin.ext (by omega)
    | ⟨1, _⟩ => exact Fin.ext h1
    | ⟨2, _⟩ => exact Fin.ext h2
  rw [ex]

/-- The function of the scratch's index the eight pieces of group `k` are blocks of: at row `r`, column `c` (of either
    slot) the one-hot of position `8k + c / 256` at row `r`, column `c % 256`. -/
private def slotFn (k : Fin 10) (v1 : IVec S1024x80 32) : S2x1024x2048.Idx → Elt F .bf16 :=
  fun y => ohPiece (F := F) ⟨8 * k.val + (y 2).val / 256, by
      have h2 : (y 2).val < 2048 := (y 2).isLt
      have := k.isLt; omega⟩ v1
    (ix3 (0 : Fin 1) ⟨(y 1).val, (y 1).isLt⟩ ⟨(y 2).val % 256, Nat.mod_lt _ (by decide)⟩)

/-- Piece `q` of group `k`, stored at columns `256 q …` of slot `s`, is the block of `slotFn` at its rectangle. -/
private theorem piece_block (s : Nat) (k : Fin 10) (v1 : IVec S1024x80 32) (q : Fin 8) (off2 : Nat) (hoff : off2 = 256 * q.val)
    (i : ∀ a, ![s, 0, off2] a + S1x1024x256.size a ≤ S2x1024x2048.size a)
    (w : FVec F S1x1024x256 .bf16) (hw : w = ohPiece ⟨8 * k.val + q.val, by have := k.isLt; have := q.isLt; omega⟩ v1)
    (x : (Rect.unit (s := S2x1024x2048) ![s, 0, off2] S1x1024x256.size i).shape.Idx) :
    w x = slotFn (F := F) k v1 ((Rect.unit (s := S2x1024x2048) ![s, 0, off2] S1x1024x256.size i).emb x) := by
  subst hw
  have hx2 : (x 2).val < 256 := (x 2).isLt
  have hq := q.isLt
  have e1 : ((Rect.unit (s := S2x1024x2048) ![s, 0, off2] S1x1024x256.size i).emb x 1).val = 0 + 1 * (x 1).val := rfl
  have e2 : ((Rect.unit (s := S2x1024x2048) ![s, 0, off2] S1x1024x256.size i).emb x 2).val = off2 + 1 * (x 2).val := rfl
  unfold slotFn
  refine ohPiece_eq v1 _ _ ?_ ?_ ?_
  · show 8 * k.val + q.val = 8 * k.val + ((Rect.unit (s := S2x1024x2048) ![s, 0, off2] S1x1024x256.size i).emb x 2).val / 256
    rw [e2]; omega
  · show (x 1).val = ((Rect.unit (s := S2x1024x2048) ![s, 0, off2] S1x1024x256.size i).emb x 1).val
    rw [e1]; omega
  · show (x 2).val = ((Rect.unit (s := S2x1024x2048) ![s, 0, off2] S1x1024x256.size i).emb x 2).val % 256
    rw [e2]; omega

/-- An index of the slot's load whose column lies in `off2 … off2 + 255` lies in the piece stored at those columns. -/
private theorem mem_piece (s off2 : Nat) (i : ∀ a, ![s, 0, off2] a + S1x1024x256.size a ≤ S2x1024x2048.size a)
    (iB : ∀ a, ![s, 0, 0] a + S1x1024x2048.size a ≤ S2x1024x2048.size a)
    (j : (Rect.unit (s := S2x1024x2048) ![s, 0, 0] S1x1024x2048.size iB).toLoadRect.shape.Idx)
    (h : off2 ≤ (j 2).val ∧ (j 2).val < off2 + 256) :
    (Rect.unit (s := S2x1024x2048) ![s, 0, 0] S1x1024x2048.size iB).toLoadRect.idx j
      ∈ (Rect.unit (s := S2x1024x2048) ![s, 0, off2] S1x1024x256.size i).set := by
  rw [Rect.mem_set_unit]
  intro a
  match a with
  | ⟨0, _⟩ =>
    have h0 : (j 0).val < 1 := (j 0).isLt
    show s ≤ s + 1 * (j 0).val ∧ s + 1 * (j 0).val < s + 1
    omega
  | ⟨1, _⟩ =>
    have h1 : (j 1).val < 1024 := (j 1).isLt
    show 0 ≤ 0 + 1 * (j 1).val ∧ 0 + 1 * (j 1).val < 0 + 1024
    omega
  | ⟨2, _⟩ =>
    show off2 ≤ 0 + 1 * (j 2).val ∧ 0 + 1 * (j 2).val < off2 + 256
    omega

/-- A load of slot `s` of the one-hot scratch after the eight pieces of group `k` were stored there last, over any
    earlier stores: the group's one-hot slab. -/
private theorem slot_read (s : Nat) (k : Fin 10) (v1 : IVec S1024x80 32)
    (arg8 : Memref sig .tc .vmem S2x1024x2048 .bf16)
    (i0 : ∀ a, ![s, 0, 0] a + S1x1024x256.size a ≤ S2x1024x2048.size a)
    (i1 : ∀ a, ![s, 0, 256] a + S1x1024x256.size a ≤ S2x1024x2048.size a)
    (i2 : ∀ a, ![s, 0, 512] a + S1x1024x256.size a ≤ S2x1024x2048.size a)
    (i3 : ∀ a, ![s, 0, 768] a + S1x1024x256.size a ≤ S2x1024x2048.size a)
    (i4 : ∀ a, ![s, 0, 1024] a + S1x1024x256.size a ≤ S2x1024x2048.size a)
    (i5 : ∀ a, ![s, 0, 1280] a + S1x1024x256.size a ≤ S2x1024x2048.size a)
    (i6 : ∀ a, ![s, 0, 1536] a + S1x1024x256.size a ≤ S2x1024x2048.size a)
    (i7 : ∀ a, ![s, 0, 1792] a + S1x1024x256.size a ≤ S2x1024x2048.size a)
    (iB : ∀ a, ![s, 0, 0] a + S1x1024x2048.size a ≤ S2x1024x2048.size a)
    (w0 w1 w2 w3 w4 w5 w6 w7 : FVec F S1x1024x256 .bf16)
    (h0 : w0 = ohPiece ⟨8 * k.val + 0, by have := k.isLt; omega⟩ v1)
    (h1 : w1 = ohPiece ⟨8 * k.val + 1, by have := k.isLt; omega⟩ v1)
    (h2 : w2 = ohPiece ⟨8 * k.val + 2, by have := k.isLt; omega⟩ v1)
    (h3 : w3 = ohPiece ⟨8 * k.val + 3, by have := k.isLt; omega⟩ v1)
    (h4 : w4 = ohPiece ⟨8 * k.val + 4, by have := k.isLt; omega⟩ v1)
    (h5 : w5 = ohPiece ⟨8 * k.val + 5, by have := k.isLt; omega⟩ v1)
    (h6 : w6 = ohPiece ⟨8 * k.val + 6, by have := k.isLt; omega⟩ v1)
    (h7 : w7 = ohPiece ⟨8 * k.val + 7, by have := k.isLt; omega⟩ v1)
    (L' : List (View.Piece (Elt F) S2x1024x2048 .bf16)) :
    arg8.view.readCov
      (⟨Rect.unit (s := S2x1024x2048) ![s, 0, 1792] S1x1024x256.size i7, w7⟩ ::
        ⟨Rect.unit (s := S2x1024x2048) ![s, 0, 1536] S1x1024x256.size i6, w6⟩ ::
        ⟨Rect.unit (s := S2x1024x2048) ![s, 0, 1280] S1x1024x256.size i5, w5⟩ ::
        ⟨Rect.unit (s := S2x1024x2048) ![s, 0, 1024] S1x1024x256.size i4, w4⟩ ::
        ⟨Rect.unit (s := S2x1024x2048) ![s, 0, 768] S1x1024x256.size i3, w3⟩ ::
        ⟨Rect.unit (s := S2x1024x2048) ![s, 0, 512] S1x1024x256.size i2, w2⟩ ::
        ⟨Rect.unit (s := S2x1024x2048) ![s, 0, 256] S1x1024x256.size i1, w1⟩ ::
        ⟨Rect.unit (s := S2x1024x2048) ![s, 0, 0] S1x1024x256.size i0, w0⟩ ::
        L')
      (Rect.unit (s := S2x1024x2048) ![s, 0, 0] S1x1024x2048.size iB).toLoadRect = ohTile k v1 := by
  rw [View.readCov_eq_canon']
  funext j
  have hj2 : (j 2).val < 2048 := (j 2).isLt
  refine (View.canon_append_of_pieces (slotFn (F := F) k v1) L'
    [⟨Rect.unit (s := S2x1024x2048) ![s, 0, 1792] S1x1024x256.size i7, w7⟩,
     ⟨Rect.unit (s := S2x1024x2048) ![s, 0, 1536] S1x1024x256.size i6, w6⟩,
     ⟨Rect.unit (s := S2x1024x2048) ![s, 0, 1280] S1x1024x256.size i5, w5⟩,
     ⟨Rect.unit (s := S2x1024x2048) ![s, 0, 1024] S1x1024x256.size i4, w4⟩,
     ⟨Rect.unit (s := S2x1024x2048) ![s, 0, 768] S1x1024x256.size i3, w3⟩,
     ⟨Rect.unit (s := S2x1024x2048) ![s, 0, 512] S1x1024x256.size i2, w2⟩,
     ⟨Rect.unit (s := S2x1024x2048) ![s, 0, 256] S1x1024x256.size i1, w1⟩,
     ⟨Rect.unit (s := S2x1024x2048) ![s, 0, 0] S1x1024x256.size i0, w0⟩] ?_ _ ?_).trans ?_
  · intro p hp
    simp only [List.mem_cons, List.not_mem_nil, or_false] at hp
    rcases hp with rfl | rfl | rfl | rfl | rfl | rfl | rfl | rfl
    · exact piece_block s k v1 (7 : Fin 8) 1792 rfl i7 w7 h7
    · exact piece_block s k v1 (6 : Fin 8) 1536 rfl i6 w6 h6
    · exact piece_block s k v1 (5 : Fin 8) 1280 rfl i5 w5 h5
    · exact piece_block s k v1 (4 : Fin 8) 1024 rfl i4 w4 h4
    · exact piece_block s k v1 (3 : Fin 8) 768 rfl i3 w3 h3
    · exact piece_block s k v1 (2 : Fin 8) 512 rfl i2 w2 h2
    · exact piece_block s k v1 (1 : Fin 8) 256 rfl i1 w1 h1
    · exact piece_block s k v1 (0 : Fin 8) 0 rfl i0 w0 h0
  · have hc : (j 2).val < 256 ∨ (256 ≤ (j 2).val ∧ (j 2).val < 512) ∨ (512 ≤ (j 2).val ∧ (j 2).val < 768)
        ∨ (768 ≤ (j 2).val ∧ (j 2).val < 1024) ∨ (1024 ≤ (j 2).val ∧ (j 2).val < 1280)
        ∨ (1280 ≤ (j 2).val ∧ (j 2).val < 1536) ∨ (1536 ≤ (j 2).val ∧ (j 2).val < 1792) ∨ 1792 ≤ (j 2).val := by omega
    rcases hc with hc | hc | hc | hc | hc | hc | hc | hc
    · exact ⟨⟨Rect.unit (s := S2x1024x2048) ![s, 0, 0] S1x1024x256.size i0, w0⟩, by simp, mem_piece s 0 i0 iB j (by omega)⟩
    · exact ⟨⟨Rect.unit (s := S2x1024x2048) ![s, 0, 256] S1x1024x256.size i1, w1⟩, by simp, mem_piece s 256 i1 iB j (by omega)⟩
    · exact ⟨⟨Rect.unit (s := S2x1024x2048) ![s, 0, 512] S1x1024x256.size i2, w2⟩, by simp, mem_piece s 512 i2 iB j (by omega)⟩
    · exact ⟨⟨Rect.unit (s := S2x1024x2048) ![s, 0, 768] S1x1024x256.size i3, w3⟩, by simp, mem_piece s 768 i3 iB j (by omega)⟩
    · exact ⟨⟨Rect.unit (s := S2x1024x2048) ![s, 0, 1024] S1x1024x256.size i4, w4⟩, by simp, mem_piece s 1024 i4 iB j (by omega)⟩
    · exact ⟨⟨Rect.unit (s := S2x1024x2048) ![s, 0, 1280] S1x1024x256.size i5, w5⟩, by simp, mem_piece s 1280 i5 iB j (by omega)⟩
    · exact ⟨⟨Rect.unit (s := S2x1024x2048) ![s, 0, 1536] S1x1024x256.size i6, w6⟩, by simp, mem_piece s 1536 i6 iB j (by omega)⟩
    · exact ⟨⟨Rect.unit (s := S2x1024x2048) ![s, 0, 1792] S1x1024x256.size i7, w7⟩, by simp, mem_piece s 1792 i7 iB j (by omega)⟩
  · have e1 : (((Rect.unit (s := S2x1024x2048) ![s, 0, 0] S1x1024x2048.size iB).toLoadRect.idx j) 1).val = 0 + 1 * (j 1).val := rfl
    have e2 : (((Rect.unit (s := S2x1024x2048) ![s, 0, 0] S1x1024x2048.size iB).toLoadRect.idx j) 2).val = 0 + 1 * (j 2).val := rfl
    unfold slotFn ohTile
    refine ohPiece_eq v1 _ _ ?_ ?_ ?_
    · show 8 * k.val + (((Rect.unit (s := S2x1024x2048) ![s, 0, 0] S1x1024x2048.size iB).toLoadRect.idx j) 2).val / 256
        = 8 * k.val + (j 2).val / 256
      rw [e2]; omega
    · show (((Rect.unit (s := S2x1024x2048) ![s, 0, 0] S1x1024x2048.size iB).toLoadRect.idx j) 1).val = (j 1).val
      rw [e1]; omega
    · show (((Rect.unit (s := S2x1024x2048) ![s, 0, 0] S1x1024x2048.size iB).toLoadRect.idx j) 2).val % 256 = (j 2).val % 256
      rw [e2]; omega

/-- The window the message block is read through, held at the contents that read `x0`, reads `x0`. -/
private theorem msg_raw (arg1 : Memref sig .tc .vmem S1024x80 .i32) (harg1 : arg1.IsWhole) (x0 : Vec F S1024x80 .i32) :
    View.readAt (Elt F) arg1.view (Rect.unit (s := S1024x80) ![0, 0] S1024x80.size inb_S1024x80_S1024x80_0_0).toLoadRect
      (harg1.unread x0) = x0 := by
  rw [View.readAt_eq_ld, harg1.read_unread, View.ld_unit_zero (S := S1024x80) (by funext a; fin_cases a <;> rfl)]

/-- The message block as the body first reads it. -/
private theorem msg_read (c : Dev nD) (arg1 : Memref sig .tc .vmem S1024x80 .i32) (harg1 : arg1.IsWhole)
    (x0 : Vec F S1024x80 .i32) : kernelRunRaw.sl.r c arg1 harg1 x0 = k0_pay2 x0 := by
  unfold kernelRunRaw.sl.r
  rw [msg_raw]

/-- The first piece's rows, computed from the same read. -/
private theorem msg_read1 (c : Dev nD) (arg1 : Memref sig .tc .vmem S1024x80 .i32) (harg1 : arg1.IsWhole)
    (x0 : Vec F S1024x80 .i32) : kernelRunRaw.sl.r_1 c arg1 harg1 x0 = k0_pay4 x0 := by
  unfold kernelRunRaw.sl.r_1
  rw [msg_raw]

/-- Closes `payload = ohPiece l (k0_pay2 x0)`: the payload's names open to the comparison of column `l` of the message
    block with the column numbers, which is the piece. -/
local macro "oh_pay" : tactic =>
  `(tactic| (simp only [msg_read, msg_read1, kernelRunRaw.sl.r_3, kernelRunRaw.sl.r_4, kernelRunRaw.sl.r_5, kernelRunRaw.sl.r_6, kernelRunRaw.sl.r_7, kernelRunRaw.sl.r_9, kernelRunRaw.sl.r_10, kernelRunRaw.sl.r_11, kernelRunRaw.sl.r_12, kernelRunRaw.sl.r_13, kernelRunRaw.sl.r_14, kernelRunRaw.sl.r_15, kernelRunRaw.sl.r_16, kernelRunRaw.sl.r_18, kernelRunRaw.sl.r_19]; rfl))

/-- The slot read for group 0 is the one-hot slab of positions 0 … 7. -/
theorem onehot_read0 (c : Dev nD) (arg1 : Memref sig .tc .vmem S1024x80 .i32) (harg1 : arg1.IsWhole)
    (arg8 : Memref sig .tc .vmem S2x1024x2048 .bf16) (x0 : Vec F S1024x80 .i32) :
    kernelRunRaw.sl.v106 c arg1 harg1 arg8 x0 = ohTile (0 : Fin 10) (k0_pay2 x0) := by
  unfold kernelRunRaw.sl.v106 kernelRunRaw.sl.HS1_8
  refine slot_read 0 (0 : Fin 10) (k0_pay2 x0) arg8 _ _ _ _ _ _ _ _ _ _ _ _ _ _ _ _ _
    ?_ ?_ ?_ ?_ ?_ ?_ ?_ ?_ _ <;> oh_pay

/-- The slot read for group 1 is the one-hot slab of positions 8 … 15. -/
theorem onehot_read1 (c : Dev nD) (arg1 : Memref sig .tc .vmem S1024x80 .i32) (harg1 : arg1.IsWhole)
    (arg8 : Memref sig .tc .vmem S2x1024x2048 .bf16) (x0 : Vec F S1024x80 .i32) :
    kernelRunRaw.sl.v207 c arg1 harg1 arg8 x0 = ohTile (1 : Fin 10) (k0_pay2 x0) := by
  unfold kernelRunRaw.sl.v207 kernelRunRaw.sl.HS1_16
  refine slot_read 1 (1 : Fin 10) (k0_pay2 x0) arg8 _ _ _ _ _ _ _ _ _ _ _ _ _ _ _ _ _
    ?_ ?_ ?_ ?_ ?_ ?_ ?_ ?_ _ <;> oh_pay

/-- The slot read for group 2 is the one-hot slab of positions 16 … 23. -/
theorem onehot_read2 (c : Dev nD) (arg1 : Memref sig .tc .vmem S1024x80 .i32) (harg1 : arg1.IsWhole)
    (arg8 : Memref sig .tc .vmem S2x1024x2048 .bf16) (x0 : Vec F S1024x80 .i32) :
    kernelRunRaw.sl.v308 c arg1 harg1 arg8 x0 = ohTile (2 : Fin 10) (k0_pay2 x0) := by
  unfold kernelRunRaw.sl.v308 kernelRunRaw.sl.HS1_24
  refine slot_read 0 (2 : Fin 10) (k0_pay2 x0) arg8 _ _ _ _ _ _ _ _ _ _ _ _ _ _ _ _ _
    ?_ ?_ ?_ ?_ ?_ ?_ ?_ ?_ _ <;> oh_pay

/-- The slot read for group 3 is the one-hot slab of positions 24 … 31. -/
theorem onehot_read3 (c : Dev nD) (arg1 : Memref sig .tc .vmem S1024x80 .i32) (harg1 : arg1.IsWhole)
    (arg8 : Memref sig .tc .vmem S2x1024x2048 .bf16) (x0 : Vec F S1024x80 .i32) :
    kernelRunRaw.sl.v409 c arg1 harg1 arg8 x0 = ohTile (3 : Fin 10) (k0_pay2 x0) := by
  unfold kernelRunRaw.sl.v409 kernelRunRaw.sl.HS1_32
  refine slot_read 1 (3 : Fin 10) (k0_pay2 x0) arg8 _ _ _ _ _ _ _ _ _ _ _ _ _ _ _ _ _
    ?_ ?_ ?_ ?_ ?_ ?_ ?_ ?_ _ <;> oh_pay

/-- The slot read for group 4 is the one-hot slab of positions 32 … 39. -/
theorem onehot_read4 (c : Dev nD) (arg1 : Memref sig .tc .vmem S1024x80 .i32) (harg1 : arg1.IsWhole)
    (arg8 : Memref sig .tc .vmem S2x1024x2048 .bf16) (x0 : Vec F S1024x80 .i32) :
    kernelRunRaw.sl.v510 c arg1 harg1 arg8 x0 = ohTile (4 : Fin 10) (k0_pay2 x0) := by
  unfold kernelRunRaw.sl.v510 kernelRunRaw.sl.HS1_40
  refine slot_read 0 (4 : Fin 10) (k0_pay2 x0) arg8 _ _ _ _ _ _ _ _ _ _ _ _ _ _ _ _ _
    ?_ ?_ ?_ ?_ ?_ ?_ ?_ ?_ _ <;> oh_pay

/-- The slot read for group 5 is the one-hot slab of positions 40 … 47. -/
theorem onehot_read5 (c : Dev nD) (arg1 : Memref sig .tc .vmem S1024x80 .i32) (harg1 : arg1.IsWhole)
    (arg8 : Memref sig .tc .vmem S2x1024x2048 .bf16) (x0 : Vec F S1024x80 .i32) :
    kernelRunRaw.sl.v611 c arg1 harg1 arg8 x0 = ohTile (5 : Fin 10) (k0_pay2 x0) := by
  unfold kernelRunRaw.sl.v611 kernelRunRaw.sl.HS1_48
  refine slot_read 1 (5 : Fin 10) (k0_pay2 x0) arg8 _ _ _ _ _ _ _ _ _ _ _ _ _ _ _ _ _
    ?_ ?_ ?_ ?_ ?_ ?_ ?_ ?_ _ <;> oh_pay

/-- The slot read for group 6 is the one-hot slab of positions 48 … 55. -/
theorem onehot_read6 (c : Dev nD) (arg1 : Memref sig .tc .vmem S1024x80 .i32) (harg1 : arg1.IsWhole)
    (arg8 : Memref sig .tc .vmem S2x1024x2048 .bf16) (x0 : Vec F S1024x80 .i32) :
    kernelRunRaw.sl.v712 c arg1 harg1 arg8 x0 = ohTile (6 : Fin 10) (k0_pay2 x0) := by
  unfold kernelRunRaw.sl.v712 kernelRunRaw.sl.HS1_56
  refine slot_read 0 (6 : Fin 10) (k0_pay2 x0) arg8 _ _ _ _ _ _ _ _ _ _ _ _ _ _ _ _ _
    ?_ ?_ ?_ ?_ ?_ ?_ ?_ ?_ _ <;> oh_pay

/-- The slot read for group 7 is the one-hot slab of positions 56 … 63. -/
theorem onehot_read7 (c : Dev nD) (arg1 : Memref sig .tc .vmem S1024x80 .i32) (harg1 : arg1.IsWhole)
    (arg8 : Memref sig .tc .vmem S2x1024x2048 .bf16) (x0 : Vec F S1024x80 .i32) :
    kernelRunRaw.sl.v813 c arg1 harg1 arg8 x0 = ohTile (7 : Fin 10) (k0_pay2 x0) := by
  unfold kernelRunRaw.sl.v813 kernelRunRaw.sl.HS1_64
  refine slot_read 1 (7 : Fin 10) (k0_pay2 x0) arg8 _ _ _ _ _ _ _ _ _ _ _ _ _ _ _ _ _
    ?_ ?_ ?_ ?_ ?_ ?_ ?_ ?_ _ <;> oh_pay

/-- The slot read for group 8 is the one-hot slab of positions 64 … 71. -/
theorem onehot_read8 (c : Dev nD) (arg1 : Memref sig .tc .vmem S1024x80 .i32) (harg1 : arg1.IsWhole)
    (arg8 : Memref sig .tc .vmem S2x1024x2048 .bf16) (x0 : Vec F S1024x80 .i32) :
    kernelRunRaw.sl.v914 c arg1 harg1 arg8 x0 = ohTile (8 : Fin 10) (k0_pay2 x0) := by
  unfold kernelRunRaw.sl.v914 kernelRunRaw.sl.HS1_72
  refine slot_read 0 (8 : Fin 10) (k0_pay2 x0) arg8 _ _ _ _ _ _ _ _ _ _ _ _ _ _ _ _ _
    ?_ ?_ ?_ ?_ ?_ ?_ ?_ ?_ _ <;> oh_pay

/-- The slot read for group 9 is the one-hot slab of positions 72 … 79. -/
theorem onehot_read9 (c : Dev nD) (arg1 : Memref sig .tc .vmem S1024x80 .i32) (harg1 : arg1.IsWhole)
    (arg8 : Memref sig .tc .vmem S2x1024x2048 .bf16) (x0 : Vec F S1024x80 .i32) :
    kernelRunRaw.sl.v1010 c arg1 harg1 arg8 x0 = ohTile (9 : Fin 10) (k0_pay2 x0) := by
  unfold kernelRunRaw.sl.v1010 kernelRunRaw.sl.HS1_80
  refine slot_read 1 (9 : Fin 10) (k0_pay2 x0) arg8 _ _ _ _ _ _ _ _ _ _ _ _ _ _ _ _ _
    ?_ ?_ ?_ ?_ ?_ ?_ ?_ ?_ _ <;> oh_pay

end Cert.KernelIdeal.GenP

end
-- ==== Proof.BodyClosed.lean ====
/-
  The accumulator read back after each group, and with it the one piece the body leaves in the output's staging buffer,
  in closed form: no mention of what any scratch buffer held on entry.
-/
import proofs.«430982_j30846455119979_3_alg».proof.Proof.BodyRun
import proofs.«430982_j30846455119979_3_alg».proof.Proof.BodyTiles
import proofs.«430982_j30846455119979_3_alg».proof.Proof.BodyTableReads
import proofs.«430982_j30846455119979_3_alg».proof.Proof.BodyOneHotReads
import Idealize.ShloMosaic.Lib.Pipeline.Value
import Idealize.ShloMosaic.Lib.Pipeline.FrameBody

set_option maxRecDepth 16384

noncomputable section

namespace Cert.KernelIdeal.GenP

open Cert.KernelIdeal Cert.KernelIdeal.Gen
open Idealize.ShloMosaic Idealize.ShloMosaic.ValueIdx

variable {F : FTy → Type} [FloatOps F]

private theorem zeros2 : (![0, 0] : Fin 2 → ℕ) = fun _ => 0 := by
  funext a; match a with | ⟨0, _⟩ => rfl | ⟨1, _⟩ => rfl

/-- One more group: the accumulator after `n + 1` groups is the group's update of the accumulator after `n`. -/
theorem accAfter_succ (v1 : IVec S1024x80 32) (W : FVec F S20480x512 .f32) (n : ℕ) (h : n < 10) :
    accAfter v1 W (n + 1) = accStep (w1Tile ⟨n, h⟩ W) (accAfter v1 W n) (ohTile ⟨n, h⟩ v1) := by
  rw [accAfter, dif_pos h]

/-- The accumulator read back after the zeroing store is the zero block. -/
theorem acc_read0 (c : Dev nD) (arg9 : Memref sig .tc .vmem S1024x512 .f32) :
    kernelRunRaw.sl.v105 (F := F) c arg9 = k0_pay3 := by
  unfold kernelRunRaw.sl.v105 kernelRunRaw.sl.HS2_1
  exact View.readCov_unit_zero _ zeros2 _ _

/-- The accumulator read back after 1 group: the store's own piece, which is the group's update of what was read before it. -/
theorem acc_read1 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v206 c arg1 harg1 arg7 arg8 arg9 x0 fh0 fs
      = accAfter (k0_pay2 x0) (View.read (Elt F) hbM0_0.view fh0) 1 := by
  unfold kernelRunRaw.sl.v206 kernelRunRaw.sl.HS2_2
  rw [View.readCov_cons_toLoadRect]
  unfold kernelRunRaw.sl.r_2
  rw [table_read0, acc_read0, onehot_read0, accAfter_succ _ _ 0 (by decide)]
  rfl

/-- The accumulator read back after 2 groups: the store's own piece, which is the group's update of what was read before it. -/
theorem acc_read2 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v307 c arg1 harg1 arg7 arg8 arg9 x0 fh0 fs
      = accAfter (k0_pay2 x0) (View.read (Elt F) hbM0_0.view fh0) 2 := by
  unfold kernelRunRaw.sl.v307 kernelRunRaw.sl.HS2_3
  rw [View.readCov_cons_toLoadRect]
  rw [table_read1, acc_read1 c arg1 harg1 arg7 arg8 arg9 x0 fh0 fs, onehot_read1, accAfter_succ _ _ 1 (by decide)]
  rfl

/-- The accumulator read back after 3 groups: the store's own piece, which is the group's update of what was read before it. -/
theorem acc_read3 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v408 c arg1 harg1 arg7 arg8 arg9 x0 fh0 fs
      = accAfter (k0_pay2 x0) (View.read (Elt F) hbM0_0.view fh0) 3 := by
  unfold kernelRunRaw.sl.v408 kernelRunRaw.sl.HS2_4
  rw [View.readCov_cons_toLoadRect]
  rw [table_read2, acc_read2 c arg1 harg1 arg7 arg8 arg9 x0 fh0 fs, onehot_read2, accAfter_succ _ _ 2 (by decide)]
  rfl

/-- The accumulator read back after 4 groups: the store's own piece, which is the group's update of what was read before it. -/
theorem acc_read4 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v509 c arg1 harg1 arg7 arg8 arg9 x0 fh0 fs
      = accAfter (k0_pay2 x0) (View.read (Elt F) hbM0_0.view fh0) 4 := by
  unfold kernelRunRaw.sl.v509 kernelRunRaw.sl.HS2_5
  rw [View.readCov_cons_toLoadRect]
  unfold kernelRunRaw.sl.r_8
  rw [table_read3, acc_read3 c arg1 harg1 arg7 arg8 arg9 x0 fh0 fs, onehot_read3, accAfter_succ _ _ 3 (by decide)]
  rfl

/-- The accumulator read back after 5 groups: the store's own piece, which is the group's update of what was read before it. -/
theorem acc_read5 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v610 c arg1 harg1 arg7 arg8 arg9 x0 fh0 fs
      = accAfter (k0_pay2 x0) (View.read (Elt F) hbM0_0.view fh0) 5 := by
  unfold kernelRunRaw.sl.v610 kernelRunRaw.sl.HS2_6
  rw [View.readCov_cons_toLoadRect]
  rw [table_read4, acc_read4 c arg1 harg1 arg7 arg8 arg9 x0 fh0 fs, onehot_read4, accAfter_succ _ _ 4 (by decide)]
  rfl

/-- The accumulator read back after 6 groups: the store's own piece, which is the group's update of what was read before it. -/
theorem acc_read6 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v711 c arg1 harg1 arg7 arg8 arg9 x0 fh0 fs
      = accAfter (k0_pay2 x0) (View.read (Elt F) hbM0_0.view fh0) 6 := by
  unfold kernelRunRaw.sl.v711 kernelRunRaw.sl.HS2_7
  rw [View.readCov_cons_toLoadRect]
  rw [table_read5, acc_read5 c arg1 harg1 arg7 arg8 arg9 x0 fh0 fs, onehot_read5, accAfter_succ _ _ 5 (by decide)]
  rfl

/-- The accumulator read back after 7 groups: the store's own piece, which is the group's update of what was read before it. -/
theorem acc_read7 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v812 c arg1 harg1 arg7 arg8 arg9 x0 fh0 fs
      = accAfter (k0_pay2 x0) (View.read (Elt F) hbM0_0.view fh0) 7 := by
  unfold kernelRunRaw.sl.v812 kernelRunRaw.sl.HS2_8
  rw [View.readCov_cons_toLoadRect]
  rw [table_read6, acc_read6 c arg1 harg1 arg7 arg8 arg9 x0 fh0 fs, onehot_read6, accAfter_succ _ _ 6 (by decide)]
  rfl

/-- The accumulator read back after 8 groups: the store's own piece, which is the group's update of what was read before it. -/
theorem acc_read8 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v913 c arg1 harg1 arg7 arg8 arg9 x0 fh0 fs
      = accAfter (k0_pay2 x0) (View.read (Elt F) hbM0_0.view fh0) 8 := by
  unfold kernelRunRaw.sl.v913 kernelRunRaw.sl.HS2_9
  rw [View.readCov_cons_toLoadRect]
  rw [table_read7, acc_read7 c arg1 harg1 arg7 arg8 arg9 x0 fh0 fs, onehot_read7, accAfter_succ _ _ 7 (by decide)]
  rfl

/-- The accumulator read back after 9 groups: the store's own piece, which is the group's update of what was read before it. -/
theorem acc_read9 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v1009 c arg1 harg1 arg7 arg8 arg9 x0 fh0 fs
      = accAfter (k0_pay2 x0) (View.read (Elt F) hbM0_0.view fh0) 9 := by
  unfold kernelRunRaw.sl.v1009 kernelRunRaw.sl.HS2_10
  rw [View.readCov_cons_toLoadRect]
  unfold kernelRunRaw.sl.r_17
  rw [table_read8, acc_read8 c arg1 harg1 arg7 arg8 arg9 x0 fh0 fs, onehot_read8, accAfter_succ _ _ 8 (by decide)]
  rfl

/-- The accumulator read back after 10 groups: the store's own piece, which is the group's update of what was read before it. -/
theorem acc_read10 (c : Dev nD) (arg1 : Memref sig .tc .vmem S1024x80 .i32) (harg1 : arg1.IsWhole)
    (arg7 : Memref sig .tc .vmem S2x2048x512 .f32) (arg8 : Memref sig .tc .vmem S2x1024x2048 .bf16)
    (arg9 : Memref sig .tc .vmem S1024x512 .f32) (x0 : Vec F S1024x80 .i32) (fh0 : HbBuf0 (F := F) c hbM0_0)
    (fs : BufTy.Contents (Elt F) arg7.view.ty) :
    kernelRunRaw.sl.v1017 c arg1 harg1 arg7 arg8 arg9 x0 fh0 fs
      = accAfter (k0_pay2 x0) (View.read (Elt F) hbM0_0.view fh0) 10 := by
  unfold kernelRunRaw.sl.v1017 kernelRunRaw.sl.HS2_11
  rw [View.readCov_cons_toLoadRect]
  rw [table_read9, acc_read9 c arg1 harg1 arg7 arg8 arg9 x0 fh0 fs, onehot_read9, accAfter_succ _ _ 9 (by decide)]
  rfl

/-- THE BODY'S PIECE IN CLOSED FORM: whatever the first scratch buffer held on entry, the body leaves in the output's staging
    buffer one whole-block piece, the block `kblock` of the blocks it was given and of the table. -/
theorem raw_pieces (c : Dev nD) (i : grid0.Coords) (arg1 : Memref sig .tc .vmem S1024x80 .i32) (harg1 : arg1.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S2x2048x512 .f32) (harg7 : arg7.IsWhole) (arg8 : Memref sig .tc .vmem S2x1024x2048 .bf16) (harg8 : arg8.IsWhole) (arg9 : Memref sig .tc .vmem S1024x512 .f32) (harg9 : arg9.IsWhole)
    (x0 : Vec F S1024x80 .i32) (x1 : Vec F S512x512 .bf16) (x2 : Vec F S1x512 .f32) (x3 : Vec F S1x512 .f32) (fh0 : HbBuf0 (F := F) c hbM0_0)
    (fs : BufTy.Contents (Elt F) arg7.view.ty) :
    (kernelRunRaw c i arg1 harg1 arg3 harg3 arg4 harg4 arg5 harg5 arg6 harg6 arg7 harg7 arg8 harg8 arg9 harg9 x0 x1 x2 x3 fh0).1 fs
      = [⟨Rect.unit (s := S1024x512) ![0, 0] S1024x512.size Facts₀.inb_S1024x512_S1024x512_0_0,
          kblock x0 x1 x2 x3 (View.read (Elt F) hbM0_0.view fh0)⟩] := by
  unfold kernelRunRaw
  dsimp only
  unfold kernelRunRaw.sl.r_20 kernelRunRaw.sl.r_21
  rw [acc_read10 c arg1 harg1 arg7 arg8 arg9 x0 fh0 fs]
  simp only [View.readAt_eq_ld, harg3.read_unread, harg4.read_unread, harg5.read_unread,
    View.ld_unit_zero (S := S1x512) zeros2, View.ld_unit_zero (S := S512x512) zeros2]
  rfl

end Cert.KernelIdeal.GenP

end
-- ==== Proof.Spec.lean ====
/-
  WHAT BOTH PROGRAMS COMPUTE, as one function of the argument arrays over the extended reals.
  A message is 80 characters of a 256-character set per row; the first layer's table stacks one 256-row segment per
  position, and a row's embedding is the sum over the positions `l` of the table's row `256 l + message[b, l]` — the row a
  one-hot encoding of the character would pick out of segment `l`. Then two affine layers with a rectifier after each:
  `out = max (max (emb + b1) 0 · W2 + b2) 0`.
-/
import Idealize.ShloMosaic.PureOps.Ideal
import Idealize.ShloMosaic.Lib.ValueIdx

noncomputable section

open scoped BigOperators

namespace Cert.EmbedMlp

open Idealize.ShloMosaic Idealize.ShloMosaic.ValueIdx

/-- Every character of the message is one of the 256 of the character set. -/
def InCharset (msg : IVec ⟨2, ![4096, 80]⟩ 32) : Prop := ∀ i, (msg i).toNat < 256

/-- The table row that character `ch` picks at position `l`: row `ch` of segment `l`. (Read modulo the size of the character
    set, so that it names a row for every word; for a character of the set it is `256 l + ch`.) -/
def row (l : Fin 80) (ch : BitVec 32) : Fin 20480 := ⟨256 * l.val + ch.toNat % 256, by have := l.isLt; omega⟩

/-- Row `b`'s embedding, column `k`: the sum over the positions of the picked rows' entries. -/
def emb (msg : IVec ⟨2, ![4096, 80]⟩ 32) (W1 : FVec Ideal ⟨2, ![20480, 512]⟩ .f32) (b : Fin 4096) (k : Fin 512) : EReal :=
  ∑ l : Fin 80, W1 (ix2 (row l (msg (ix2 b l))) k)

/-- The rectified first layer. -/
def hidden (msg : IVec ⟨2, ![4096, 80]⟩ 32) (W1 : FVec Ideal ⟨2, ![20480, 512]⟩ .f32) (b1 : FVec Ideal ⟨1, ![512]⟩ .f32)
    (b : Fin 4096) (k : Fin 512) : EReal :=
  max (emb msg W1 b k + b1 (ix1 k)) 0

/-- The result at row `b`, column `j`. -/
def outAt (msg : IVec ⟨2, ![4096, 80]⟩ 32) (W1 : FVec Ideal ⟨2, ![20480, 512]⟩ .f32) (b1 : FVec Ideal ⟨1, ![512]⟩ .f32)
    (W2 : FVec Ideal ⟨2, ![512, 512]⟩ .f32) (b2 : FVec Ideal ⟨1, ![512]⟩ .f32) (b : Fin 4096) (j : Fin 512) : EReal :=
  max ((∑ k : Fin 512, hidden msg W1 b1 b k * W2 (ix2 k j)) + b2 (ix1 j)) 0

/-- The result array. -/
def out (msg : IVec ⟨2, ![4096, 80]⟩ 32) (W1 : FVec Ideal ⟨2, ![20480, 512]⟩ .f32) (b1 : FVec Ideal ⟨1, ![512]⟩ .f32)
    (W2 : FVec Ideal ⟨2, ![512, 512]⟩ .f32) (b2 : FVec Ideal ⟨1, ![512]⟩ .f32) : FVec Ideal ⟨2, ![4096, 512]⟩ .f32 :=
  fun i => outAt msg W1 b1 W2 b2 ⟨(i 0).val, idx2_lt0 i⟩ ⟨(i 1).val, idx2_lt1 i⟩

end Cert.EmbedMlp

end
-- ==== Proof.OneHotSum.lean ====
/-
  The law that joins the two programs' first layers: a row of the one-hot slab times the table's slab picks out, for
  each of the group's eight positions, the table row of that position's character; and the ten groups' sums, added up
  one after the other from zero, are the sum over the eighty positions.
-/
import Mathlib.Data.EReal.Operations
import Mathlib.Algebra.BigOperators.Fin

open scoped BigOperators

namespace Cert.OneHotSum

/-- Index `256 q + c` of the two thousand and forty-eight, as a pair (position, character). -/
private def slabEquiv : Fin 8 × Fin 256 ≃ Fin 2048 where
  toFun p := ⟨256 * p.1.val + p.2.val, by have := p.1.isLt; have := p.2.isLt; omega⟩
  invFun k := (⟨k.val / 256, by have := k.isLt; omega⟩, ⟨k.val % 256, by omega⟩)
  left_inv := by
    rintro ⟨⟨a, ha⟩, ⟨b, hb⟩⟩
    refine Prod.ext (Fin.ext ?_) (Fin.ext ?_)
    · show (256 * a + b) / 256 = a
      omega
    · show (256 * a + b) % 256 = b
      omega
  right_inv := by
    rintro ⟨k, hk⟩
    refine Fin.ext ?_
    show 256 * (k / 256) + k % 256 = k
    omega

/-- Index `8 k + q` of the eighty, as a pair (group, position). -/
private def groupEquiv : Fin 10 × Fin 8 ≃ Fin 80 where
  toFun p := ⟨8 * p.1.val + p.2.val, by have := p.1.isLt; have := p.2.isLt; omega⟩
  invFun l := (⟨l.val / 8, by have := l.isLt; omega⟩, ⟨l.val % 8, by omega⟩)
  left_inv := by
    rintro ⟨⟨a, ha⟩, ⟨b, hb⟩⟩
    refine Prod.ext (Fin.ext ?_) (Fin.ext ?_)
    · show (8 * a + b) / 8 = a
      omega
    · show (8 * a + b) % 8 = b
      omega
  right_inv := by
    rintro ⟨l, hl⟩
    refine Fin.ext ?_
    show 8 * (l / 8) + l % 8 = l
    omega

/-- One row of a group's one-hot slab against one column of the table's slab: column `256 q + c` of the row is one when
    the character at the group's position `q` is `c`, else zero, so the product's sum picks row `256 q + ch q` per position. -/
theorem sum_onehot_mul (w : Fin 2048 → EReal) (ch : Fin 8 → ℕ) (hch : ∀ q, ch q < 256) :
    ∑ kk : Fin 2048, (if ch ⟨kk.val / 256, by have := kk.isLt; omega⟩ = kk.val % 256 then (1 : EReal) else 0) * w kk
      = ∑ q : Fin 8, w ⟨256 * q.val + ch q, by have := hch q; have := q.isLt; omega⟩ := by
  rw [← Equiv.sum_comp slabEquiv, Fintype.sum_prod_type]
  refine Finset.sum_congr rfl (fun q _ => ?_)
  have hdiv : ∀ c : Fin 256, ∀ h, (⟨(slabEquiv (q, c)).val / 256, h⟩ : Fin 8) = q := by
    intro c h
    refine Fin.ext ?_
    show (256 * q.val + c.val) / 256 = q.val
    have := c.isLt
    omega
  have hmod : ∀ c : Fin 256, (slabEquiv (q, c)).val % 256 = c.val := by
    intro c
    show (256 * q.val + c.val) % 256 = c.val
    have := c.isLt
    omega
  rw [Finset.sum_eq_single (⟨ch q, hch q⟩ : Fin 256)]
  · rw [hdiv, hmod, if_pos rfl, one_mul]
    rfl
  · intro c _ hc
    rw [hdiv, hmod, if_neg, zero_mul]
    intro h
    exact hc (Fin.ext h.symm)
  · intro h
    exact absurd (Finset.mem_univ _) h

/-- Eighty terms summed as ten groups of eight. -/
theorem sum_groups (f : Fin 80 → EReal) :
    ∑ k : Fin 10, ∑ q : Fin 8, f ⟨8 * k.val + q.val, by have := k.isLt; have := q.isLt; omega⟩ = ∑ l : Fin 80, f l := by
  rw [← Equiv.sum_comp groupEquiv, Fintype.sum_prod_type]
  rfl

/-- Adding ten terms one after the other onto zero is their sum. -/
theorem acc_ten (s : Fin 10 → EReal) :
    ((((((((((0 : EReal) + s 0) + s 1) + s 2) + s 3) + s 4) + s 5) + s 6) + s 7) + s 8) + s 9 = ∑ k : Fin 10, s k := by
  rw [zero_add]
  simp only [Fin.sum_univ_succ, Fin.sum_univ_zero, add_zero, add_assoc]
  rfl

end Cert.OneHotSum
-- ==== Proof.BlockValue.lean ====
/-
  The block the kernel's body stores, read at an index over the extended reals: where the message block's characters are
  of the character set, entry `(r, j)` is the second layer applied to the rectified sum, over the eighty positions, of the
  table rows the row's characters pick.
-/
import proofs.«430982_j30846455119979_3_alg».proof.Proof.BodyTiles
import proofs.«430982_j30846455119979_3_alg».proof.Proof.Spec
import proofs.«430982_j30846455119979_3_alg».proof.Proof.OneHotSum
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.GenP

open Cert.KernelIdeal Cert.KernelIdeal.Gen
open Idealize.ShloMosaic Idealize.ShloMosaic.ValueIdx

/-! ## The two products read at an index

A product of a matrix with `K` columns by one with `K` rows, into zero, is at `(r, c)` the sum over `kk < K` of the left
factor's `(r, kk)` times the right factor's `(kk, c)`: the operand indices' coordinates first, then the sum re-indexed by the
contracted coordinate. -/

private theorem lhs1_0 (j : S1024x512.Idx) (k : dot_S1024x2048_S2048x512_S1024x512_1_0_0_1_n_n.contr.Idx) :
    (dot_S1024x2048_S2048x512_S1024x512_1_0_0_1_n_n.lhsIdx j k 0).val = (j 0).val := rfl
private theorem lhs1_1 (j : S1024x512.Idx) (k : dot_S1024x2048_S2048x512_S1024x512_1_0_0_1_n_n.contr.Idx) :
    (dot_S1024x2048_S2048x512_S1024x512_1_0_0_1_n_n.lhsIdx j k 1).val = (k ⟨0, by decide⟩).val := rfl
private theorem rhs1_0 (j : S1024x512.Idx) (k : dot_S1024x2048_S2048x512_S1024x512_1_0_0_1_n_n.contr.Idx) :
    (dot_S1024x2048_S2048x512_S1024x512_1_0_0_1_n_n.rhsIdx j k 0).val = (k ⟨0, by decide⟩).val := rfl
private theorem rhs1_1 (j : S1024x512.Idx) (k : dot_S1024x2048_S2048x512_S1024x512_1_0_0_1_n_n.contr.Idx) :
    (dot_S1024x2048_S2048x512_S1024x512_1_0_0_1_n_n.rhsIdx j k 1).val = (j 1).val := rfl

private theorem mm1_apply (lhs : FVec Ideal S1024x2048 .bf16) (rhs : FVec Ideal S2048x512 .bf16) (r : Fin 1024) (k : Fin 512) :
    matmul dot_S1024x2048_S2048x512_S1024x512_1_0_0_1_n_n none lhs rhs (constant S1024x512 .f32 0x00000000#32) (ix2 r k)
      = ∑ kk : Fin 2048, lhs (ix2 r kk) * rhs (ix2 kk k) := by
  simp only [matmul]
  rw [Ideal.matmul_constant_zero_apply,
    ← Equiv.sum_comp (contrEquiv1 dot_S1024x2048_S2048x512_S1024x512_1_0_0_1_n_n 2048 rfl rfl).symm]
  refine Finset.sum_congr rfl fun kk _ => ?_
  have hk := contrEquiv1_symm_val dot_S1024x2048_S2048x512_S1024x512_1_0_0_1_n_n 2048 rfl rfl kk
  congr 2
  · funext a; refine Fin.ext ?_
    match a with
    | ⟨0, _⟩ => exact lhs1_0 _ _
    | ⟨1, _⟩ => exact (lhs1_1 _ _).trans hk
  · funext a; refine Fin.ext ?_
    match a with
    | ⟨0, _⟩ => exact (rhs1_0 _ _).trans hk
    | ⟨1, _⟩ => exact rhs1_1 _ _

private theorem lhs2_0 (j : S1024x512.Idx) (k : dot_S1024x512_S512x512_S1024x512_1_0_0_1_n_n.contr.Idx) :
    (dot_S1024x512_S512x512_S1024x512_1_0_0_1_n_n.lhsIdx j k 0).val = (j 0).val := rfl
private theorem lhs2_1 (j : S1024x512.Idx) (k : dot_S1024x512_S512x512_S1024x512_1_0_0_1_n_n.contr.Idx) :
    (dot_S1024x512_S512x512_S1024x512_1_0_0_1_n_n.lhsIdx j k 1).val = (k ⟨0, by decide⟩).val := rfl
private theorem rhs2_0 (j : S1024x512.Idx) (k : dot_S1024x512_S512x512_S1024x512_1_0_0_1_n_n.contr.Idx) :
    (dot_S1024x512_S512x512_S1024x512_1_0_0_1_n_n.rhsIdx j k 0).val = (k ⟨0, by decide⟩).val := rfl
private theorem rhs2_1 (j : S1024x512.Idx) (k : dot_S1024x512_S512x512_S1024x512_1_0_0_1_n_n.contr.Idx) :
    (dot_S1024x512_S512x512_S1024x512_1_0_0_1_n_n.rhsIdx j k 1).val = (j 1).val := rfl

private theorem mm2_apply (lhs : FVec Ideal S1024x512 .bf16) (rhs : FVec Ideal S512x512 .bf16) (r : Fin 1024) (j : Fin 512) :
    matmul dot_S1024x512_S512x512_S1024x512_1_0_0_1_n_n none lhs rhs (constant S1024x512 .f32 0x00000000#32) (ix2 r j)
      = ∑ k : Fin 512, lhs (ix2 r k) * rhs (ix2 k j) := by
  simp only [matmul]
  rw [Ideal.matmul_constant_zero_apply,
    ← Equiv.sum_comp (contrEquiv1 dot_S1024x512_S512x512_S1024x512_1_0_0_1_n_n 512 rfl rfl).symm]
  refine Finset.sum_congr rfl fun kk _ => ?_
  have hk := contrEquiv1_symm_val dot_S1024x512_S512x512_S1024x512_1_0_0_1_n_n 512 rfl rfl kk
  congr 2
  · funext a; refine Fin.ext ?_
    match a with
    | ⟨0, _⟩ => exact lhs2_0 _ _
    | ⟨1, _⟩ => exact (lhs2_1 _ _).trans hk
  · funext a; refine Fin.ext ?_
    match a with
    | ⟨0, _⟩ => exact (rhs2_0 _ _).trans hk
    | ⟨1, _⟩ => exact rhs2_1 _ _

/-! ## One group's update read at an index

The accumulator there plus the group's one-hot row times the column of the table's slab. -/

private theorem accStep_apply (w : Vec Ideal S1x2048x512 .f32) (acc : Vec Ideal S1024x512 .f32) (oh : Vec Ideal S1x1024x2048 .bf16)
    (r : Fin 1024) (k : Fin 512) :
    accStep (F := Ideal) w acc oh (ix2 r k)
      = acc (ix2 r k) + ∑ kk : Fin 2048, oh (ix3 (0 : Fin 1) r kk) * w (ix3 (0 : Fin 1) kk k) := by
  unfold accStep k0_pay14 k0_pay13
  dsimp only
  rw [shapeCast_self, addf_apply, mm1_apply]
  congr 1
  refine Finset.sum_congr rfl fun kk _ => ?_
  rw [truncf_apply, shapeCast_1ab_ab_apply, shapeCast_1ab_ab_apply]

/-! ## The one-hot slab read at an index

A column broadcast along the rows reads its row's one entry; the comparison's bit, widened and converted, is one or zero;
so the piece of position `l` at `(r, c)` is one exactly when the character at `(r, l)` is the word `c`. -/

private theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem onehot_word (x y : BitVec 32) :
    (FloatOps.sitofp (F := Ideal) .f32 ((IntOp.cmpi .eq x y).setWidth 32) : EReal) = if x = y then 1 else 0 := by
  by_cases h : x = y
  · subst h
    rw [if_pos rfl]
    show (((((IntOp.cmpi .eq x x).setWidth 32).toInt : ℤ) : ℝ) : EReal) = 1
    have : (IntOp.cmpi .eq x x).setWidth 32 = 1#32 := by
      simp [IntOp.cmpi]
    rw [this]; norm_num
  · rw [if_neg h]
    show (((((IntOp.cmpi .eq x y).setWidth 32).toInt : ℤ) : ℝ) : EReal) = 0
    have hb : (x == y) = false := by simpa using h
    have : (IntOp.cmpi .eq x y).setWidth 32 = 0#32 := by
      simp [IntOp.cmpi, hb]
    rw [this]; norm_num

private theorem ohPiece_apply (l : Fin 80) (v1 : IVec S1024x80 32) (r : Fin 1024) (c : Fin 256) :
    ohPiece (F := Ideal) l v1 (ix3 (0 : Fin 1) r c) = if v1 (ix2 r l) = BitVec.ofNat 32 c.val then 1 else 0 := by
  unfold ohPiece
  rw [shapeCast_ab_1ab_apply, truncf_apply, sitofp_apply, extui_apply]
  show FloatOps.sitofp (F := Ideal) .f32 ((IntOp.cmpi .eq _ _).setWidth 32) = _
  rw [onehot_word, bcast_col_apply, broadcastTo_1b_ab_apply, iota_single_apply,
    slice2_axis1_apply l.val v1 _ r (0 : Fin 1) l (by simp)]

private theorem ohTile_apply (g : Fin 10) (v1 : IVec S1024x80 32) (r : Fin 1024) (kk : Fin 2048) :
    ohTile (F := Ideal) g v1 (ix3 (0 : Fin 1) r kk)
      = if (v1 (ix2 r (⟨8 * g.val + kk.val / 256, by have := g.isLt; have := kk.isLt; omega⟩ : Fin 80))).toNat = kk.val % 256
          then 1 else 0 := by
  unfold ohTile
  show ohPiece (F := Ideal) ⟨8 * g.val + kk.val / 256, _⟩ v1 (ix3 (0 : Fin 1) ⟨r.val, _⟩ ⟨kk.val % 256, _⟩) = _
  rw [show (⟨r.val, r.isLt⟩ : Fin 1024) = r from rfl, ohPiece_apply]
  have hlt : kk.val % 256 < 256 := Nat.mod_lt _ (by decide)
  refine if_congr ⟨fun h => ?_, fun h => ?_⟩ rfl rfl
  · rw [h]; simp [BitVec.toNat_ofNat]; omega
  · apply BitVec.eq_of_toNat_eq; rw [h]; simp [BitVec.toNat_ofNat]; omega

private theorem w1Tile_apply (g : Fin 10) (W : FVec Ideal S20480x512 .f32) (kk : Fin 2048) (k : Fin 512) :
    w1Tile (F := Ideal) g W (ix3 (0 : Fin 1) kk k)
      = W (ix2 (⟨2048 * g.val + kk.val, by have := g.isLt; have := kk.isLt; omega⟩ : Fin 20480) k) := rfl

/-! ## The accumulator after the ten groups -/

private theorem zero_word : (Scalar.ofBits (F := Ideal) .f32 0x00000000#32 : EReal) = 0 :=
  Ideal.ofBits_zero_f32

private theorem accAfter_zero_apply (v1 : IVec S1024x80 32) (W : FVec Ideal S20480x512 .f32) (r : Fin 1024) (k : Fin 512) :
    accAfter (F := Ideal) v1 W 0 (ix2 r k) = 0 := by
  unfold accAfter k0_pay3
  rw [shapeCast_self, broadcast_apply]
  exact zero_word

private theorem accAfter_succ (v1 : IVec S1024x80 32) (W : FVec Ideal S20480x512 .f32) (n : ℕ) (h : n < 10) :
    accAfter (F := Ideal) v1 W (n + 1) = accStep (w1Tile ⟨n, h⟩ W) (accAfter v1 W n) (ohTile ⟨n, h⟩ v1) := by
  rw [accAfter, dif_pos h]

private theorem accAfter_ten (v1 : IVec S1024x80 32) (W : FVec Ideal S20480x512 .f32) (r : Fin 1024) (k : Fin 512) :
    accAfter (F := Ideal) v1 W 10 (ix2 r k)
      = ∑ g : Fin 10, ∑ kk : Fin 2048, ohTile (F := Ideal) g v1 (ix3 (0 : Fin 1) r kk) * w1Tile g W (ix3 (0 : Fin 1) kk k) := by
  rw [← Cert.OneHotSum.acc_ten]
  rw [accAfter_succ v1 W 9 (by decide), accStep_apply, accAfter_succ v1 W 8 (by decide), accStep_apply,
    accAfter_succ v1 W 7 (by decide), accStep_apply, accAfter_succ v1 W 6 (by decide), accStep_apply,
    accAfter_succ v1 W 5 (by decide), accStep_apply, accAfter_succ v1 W 4 (by decide), accStep_apply,
    accAfter_succ v1 W 3 (by decide), accStep_apply, accAfter_succ v1 W 2 (by decide), accStep_apply,
    accAfter_succ v1 W 1 (by decide), accStep_apply, accAfter_succ v1 W 0 (by decide), accStep_apply,
    accAfter_zero_apply]
  rfl

/-- One group's product: for each of the group's eight positions, the table row the position's character picks. -/
private theorem group_sum (g : Fin 10) (v1 : IVec S1024x80 32) (W : FVec Ideal S20480x512 .f32) (hx : ∀ i, (v1 i).toNat < 256)
    (r : Fin 1024) (k : Fin 512) :
    ∑ kk : Fin 2048, ohTile (F := Ideal) g v1 (ix3 (0 : Fin 1) r kk) * w1Tile g W (ix3 (0 : Fin 1) kk k)
      = ∑ q : Fin 8, (fun l : Fin 80 => W (ix2 (Cert.EmbedMlp.row l (v1 (ix2 r l))) k))
          ⟨8 * g.val + q.val, by have := g.isLt; have := q.isLt; omega⟩ := by
  have hg := g.isLt
  refine (Finset.sum_congr rfl (fun kk _ => by rw [ohTile_apply, w1Tile_apply])).trans
    ((Cert.OneHotSum.sum_onehot_mul
      (fun kk : Fin 2048 => W (ix2 (⟨2048 * g.val + kk.val, by have := kk.isLt; omega⟩ : Fin 20480) k))
      (fun q : Fin 8 => (v1 (ix2 r (⟨8 * g.val + q.val, by have := q.isLt; omega⟩ : Fin 80))).toNat)
      (fun q => hx _)).trans ?_)
  refine Finset.sum_congr rfl fun q _ => ?_
  dsimp only
  congr 2
  refine Fin.ext ?_
  show 2048 * g.val + (256 * q.val + (v1 (ix2 r ⟨8 * g.val + q.val, _⟩)).toNat)
    = 256 * (8 * g.val + q.val) + (v1 (ix2 r ⟨8 * g.val + q.val, _⟩)).toNat % 256
  have := hx (ix2 r ⟨8 * g.val + q.val, by have := q.isLt; omega⟩)
  omega

private theorem acc_value (v1 : IVec S1024x80 32) (W : FVec Ideal S20480x512 .f32) (hx : ∀ i, (v1 i).toNat < 256)
    (r : Fin 1024) (k : Fin 512) :
    accAfter (F := Ideal) v1 W 10 (ix2 r k) = ∑ l : Fin 80, W (ix2 (Cert.EmbedMlp.row l (v1 (ix2 r l))) k) := by
  rw [accAfter_ten, ← Cert.OneHotSum.sum_groups]
  exact Finset.sum_congr rfl fun g _ => group_sum g v1 W hx r k

/-! ## The two layers read at an index -/

private theorem pay113_apply (acc : Vec Ideal S1024x512 .f32) (b1 : Vec Ideal S1x512 .f32) (r : Fin 1024) (k : Fin 512) :
    k0_pay113 (F := Ideal) acc b1 (ix2 r k) = max (acc (ix2 r k) + b1 (ix2 (0 : Fin 1) k)) 0 := by
  unfold k0_pay113
  rw [truncf_apply, maximumf_apply, addf_apply, broadcast_apply, broadcastTo_1b_ab_apply, shapeCast_self, zero_word]

private theorem pay1_apply (h : FVec Ideal S1024x512 .bf16) (w2 : Vec Ideal S512x512 .bf16) (b2 : Vec Ideal S1x512 .f32)
    (r : Fin 1024) (j : Fin 512) :
    k0_pay1 (F := Ideal) h w2 b2 (ix2 r j)
      = max ((∑ k : Fin 512, h (ix2 r k) * w2 (ix2 k j)) + b2 (ix2 (0 : Fin 1) j)) 0 := by
  unfold k0_pay1
  rw [maximumf_apply, addf_apply, broadcast_apply, broadcastTo_1b_ab_apply, shapeCast_self, shapeCast_self, mm2_apply, zero_word]

/-- The stored block at row `r`, column `j`. -/
theorem kblock_apply (x0 : Vec Ideal S1024x80 .i32) (x1 : Vec Ideal S512x512 .bf16) (x2 x3 : Vec Ideal S1x512 .f32)
    (W : FVec Ideal S20480x512 .f32) (hx : ∀ i, (x0 i).toNat < 256) (r : Fin 1024) (j : Fin 512) :
    kblock (F := Ideal) x0 x1 x2 x3 W (ix2 r j)
      = max ((∑ k : Fin 512,
              max ((∑ l : Fin 80, W (ix2 (Cert.EmbedMlp.row l (x0 (ix2 r l))) k)) + x2 (ix2 (0 : Fin 1) k)) 0
                * x1 (ix2 k j))
            + x3 (ix2 (0 : Fin 1) j)) 0 := by
  have h2 : k0_pay2 (F := Ideal) x0 = x0 := by
    unfold k0_pay2
    exact shapeCast_self _ _
  unfold kblock
  rw [pay1_apply, h2]
  congr 2
  refine Finset.sum_congr rfl fun k _ => ?_
  rw [pay113_apply, acc_value x0 W hx]

end Cert.KernelIdeal.GenP

end
-- ==== Proof.ArrayValue.lean ====
/-
  From the blocks to the array. Grid point `t` writes back rows `1024 t … 1024 t + 1023` of the result; its block is the
  body's block `kblock` of the point's input blocks — the clipped message's rows (the clip is the identity on a message
  of the character set), the second layer's matrix (its change of format is the identity over the extended reals), the two
  biases as rows — and of the table. Read at an index that block is the specification there; the four blocks cover the array.
-/
import proofs.«430982_j30846455119979_3_alg».proof.Proof.FrameP
import proofs.«430982_j30846455119979_3_alg».proof.Proof.ValueP
import proofs.«430982_j30846455119979_3_alg».proof.Proof.BlockValue
import proofs.«430982_j30846455119979_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.ArrayValue

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)
open Idealize.ShloMosaic.StableHlo

variable (m : (ℓ : Loc nD τ sig) → Buf (Elt Ideal) ℓ)

/-! ## The arrays the region finds -/

/-- The clipped message: the smaller of 255 and the larger of 0 and the character, entry by entry. -/
theorem V_msg (c : Dev nD) :
    (V m c main_v0 : S4096x80.Idx → BitVec 32)
      = minsi (broadcastInDim S4096x80 ![] Facts₀.bcast_S_S4096x80 (constantI S_ 32 255#32))
          (maxsi (broadcastInDim S4096x80 ![] Facts₀.bcast_S_S4096x80 (constantI S_ 32 0#32))
            (m ((c : Thread nD τ).loc main_arg0))) := by
  dsimp only [Gen.V]
  simp only [Gen.hostOps0, Gen.hostOps0_1, Gen.hostOps0_2, List.flatten_cons, List.flatten_nil, List.append_nil, List.cons_append, List.nil_append]
  after_results
  rfl

/-- The second layer's matrix in the narrower format. -/
theorem V_w2 (c : Dev nD) :
    (V m c main_v1 : S512x512.Idx → EReal)
      = (truncf (F := Ideal) .bf16 (m ((c : Thread nD τ).loc main_arg3) : S512x512.Idx → EReal) Facts₀.bitsLt_bf16_f32 : S512x512.Idx → EReal) := by
  dsimp only [Gen.V]
  simp only [Gen.hostOps0, Gen.hostOps0_1, Gen.hostOps0_2, List.flatten_cons, List.flatten_nil, List.append_nil, List.cons_append, List.nil_append]
  after_results

/-- The first bias as a row. -/
theorem V_b1 (c : Dev nD) :
    (V m c main_v2 : S1x512.Idx → EReal) = shapeCast S1x512 (m ((c : Thread nD τ).loc main_arg2)) Facts₀.shapeCasts_S512_S1x512 := by
  dsimp only [Gen.V]
  simp only [Gen.hostOps0, Gen.hostOps0_1, Gen.hostOps0_2, List.flatten_cons, List.flatten_nil, List.append_nil, List.cons_append, List.nil_append]
  after_results
  rfl

/-- The second bias as a row. -/
theorem V_b2 (c : Dev nD) :
    (V m c main_v3 : S1x512.Idx → EReal) = shapeCast S1x512 (m ((c : Thread nD τ).loc main_arg4)) Facts₀.shapeCasts_S512_S1x512 := by
  dsimp only [Gen.V]
  simp only [Gen.hostOps0, Gen.hostOps0_1, Gen.hostOps0_2, List.flatten_cons, List.flatten_nil, List.append_nil, List.cons_append, List.nil_append]
  after_results
  rfl

/-- A character of the set is between 0 and 255 as a signed word: clipping leaves it. -/
theorem clip_char (a : BitVec 32) (ha : a.toNat < 256) :
    IntOp.minsi (255#32) (IntOp.maxsi (0#32) a) = a := by
  have h0 : (0#32 : BitVec 32).toInt = 0 := by decide
  have h255 : (255#32 : BitVec 32).toInt = 255 := by decide
  have hai : a.toInt = a.toNat := by
    rw [BitVec.toInt_eq_toNat_cond]; split <;> omega
  have hs1 : a.slt 0#32 = false := by
    unfold BitVec.slt
    rw [decide_eq_false_iff_not]; omega
  have hs2 : (255#32 : BitVec 32).slt a = false := by
    unfold BitVec.slt
    rw [decide_eq_false_iff_not]; omega
  have e1 : IntOp.maxsi (0#32) a = a := by
    unfold IntOp.maxsi
    simp only [hs1, Bool.false_eq_true, if_false]
  rw [e1]
  unfold IntOp.minsi
  simp only [hs2, Bool.false_eq_true, if_false]

/-- A message of the character set is its own clip. -/
theorem clip_msg (x : IVec S4096x80 32) (hx : ∀ i, (x i).toNat < 256) :
    minsi (broadcastInDim S4096x80 ![] Facts₀.bcast_S_S4096x80 (constantI S_ 32 255#32))
          (maxsi (broadcastInDim S4096x80 ![] Facts₀.bcast_S_S4096x80 (constantI S_ 32 0#32)) x) = x :=
  funext fun i => clip_char (x i) (hx i)

/-! ## The blocks -/

theorem hz : (![0, 0] : Fin 2 → Nat) = fun _ => 0 := funext fun a => by
  match a with
  | ⟨0, _⟩ => rfl
  | ⟨1, _⟩ => rfl

/-- What the body leaves in the output's staging buffer is its block. -/
theorem out_eq (c : Dev nD) (i : grid0.Coords) (arg1 : Memref sig .tc .vmem S1024x80 .i32) (harg1 : arg1.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S2x2048x512 .f32) (harg7 : arg7.IsWhole) (arg8 : Memref sig .tc .vmem S2x1024x2048 .bf16) (harg8 : arg8.IsWhole) (arg9 : Memref sig .tc .vmem S1024x512 .f32) (harg9 : arg9.IsWhole)
    (x0 : Vec Ideal S1024x80 .i32) (x1 : Vec Ideal S512x512 .bf16) (x2 : Vec Ideal S1x512 .f32) (x3 : Vec Ideal S1x512 .f32) (fh0 : HbBuf0 (F := Ideal) c hbM0_0) :
    out0_A_4 c i arg1 harg1 arg3 harg3 arg4 harg4 arg5 harg5 arg6 harg6 arg7 harg7 arg8 harg8 arg9 harg9 x0 x1 x2 x3 fh0
      = kblock x0 x1 x2 x3 (View.read (Elt Ideal) hbM0_0.view fh0) := by
  unfold out0_A_4
  rw [View.read_writes_junk_eq_canon]
  exact View.canon_unit_zero hz _ _

/-- The index maps, decided over the grid: the message's and the result's blocks move down with the point, the others stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The message's block at point `t` is rows `1024 t … 1024 t + 1023` of the clipped message. -/
theorem msgBlock_apply (c : Dev nD) (t : Fin cfg0.N) (x : S1024x80.Idx) (k : S4096x80.Idx)
    (hk0 : (k 0).val = 1024 * t.val + (x 0).val) (hk1 : (k 1).val = (x 1).val) :
    (iblk m c 0 t : Vec Ideal S1024x80 .i32) x = (V m c main_v0 : S4096x80.Idx → BitVec 32) k := by
  obtain ⟨e0, e1, -⟩ := idx_facts t
  unfold iblk
  rw [View.read_apply]
  show (V m c main_v0 : S4096x80.Idx → BitVec 32) _ = _
  refine congrArg (V m c main_v0 : S4096x80.Idx → BitVec 32) ?_
  funext a
  apply Fin.ext
  match a with
  | ⟨0, _⟩ => show win0_0.index t 0 * 1024 + 1 * (x 0).val = (k 0).val; rw [e0, hk0]; omega
  | ⟨1, _⟩ => show win0_0.index t 1 * 80 + 1 * (x 1).val = (k 1).val; rw [e1, hk1]; omega

/-- The second layer's matrix is one block, at every point. -/
theorem w2Block_apply (c : Dev nD) (t : Fin cfg0.N) (x : S512x512.Idx) :
    (iblk m c 1 t : Vec Ideal S512x512 .bf16) x = (V m c main_v1 : S512x512.Idx → EReal) x := by
  obtain ⟨-, -, e0, e1, -⟩ := idx_facts t
  unfold iblk
  rw [View.read_apply]
  show (V m c main_v1 : S512x512.Idx → EReal) _ = _
  refine congrArg (V m c main_v1 : S512x512.Idx → EReal) ?_
  funext a
  apply Fin.ext
  match a with
  | ⟨0, _⟩ => show win0_1.index t 0 * 512 + 1 * (x 0).val = (x 0).val; rw [e0]; omega
  | ⟨1, _⟩ => show win0_1.index t 1 * 512 + 1 * (x 1).val = (x 1).val; rw [e1]; omega

/-- The first bias's row is one block, at every point. -/
theorem b1Block_apply (c : Dev nD) (t : Fin cfg0.N) (x : S1x512.Idx) :
    (iblk m c 2 t : Vec Ideal S1x512 .f32) x = (V m c main_v2 : S1x512.Idx → EReal) x := by
  obtain ⟨-, -, -, -, e0, e1, -⟩ := idx_facts t
  unfold iblk
  rw [View.read_apply]
  show (V m c main_v2 : S1x512.Idx → EReal) _ = _
  refine congrArg (V m c main_v2 : S1x512.Idx → EReal) ?_
  funext a
  apply Fin.ext
  match a with
  | ⟨0, _⟩ => show win0_2.index t 0 * 1 + 1 * (x 0).val = (x 0).val; rw [e0]; omega
  | ⟨1, _⟩ => show win0_2.index t 1 * 512 + 1 * (x 1).val = (x 1).val; rw [e1]; omega

/-- The second bias's row is one block, at every point. -/
theorem b2Block_apply (c : Dev nD) (t : Fin cfg0.N) (x : S1x512.Idx) :
    (iblk m c 3 t : Vec Ideal S1x512 .f32) x = (V m c main_v3 : S1x512.Idx → EReal) x := by
  obtain ⟨-, -, -, -, -, -, e0, e1, -⟩ := idx_facts t
  unfold iblk
  rw [View.read_apply]
  show (V m c main_v3 : S1x512.Idx → EReal) _ = _
  refine congrArg (V m c main_v3 : S1x512.Idx → EReal) ?_
  funext a
  apply Fin.ext
  match a with
  | ⟨0, _⟩ => show win0_3.index t 0 * 1 + 1 * (x 0).val = (x 0).val; rw [e0]; omega
  | ⟨1, _⟩ => show win0_3.index t 1 * 512 + 1 * (x 1).val = (x 1).val; rw [e1]; omega

/-- A bias read as a row: entry `(0, k)` of the row is entry `k` of the bias. -/
theorem row_apply (b : FVec Ideal S512 .f32) (k : Fin 512) :
    shapeCast S1x512 b Facts₀.shapeCasts_S512_S1x512 (ix2 (0 : Fin 1) k) = b (ix1 k) := by
  refine shapeCast_apply _ _ _ _ ?_
  rw [Shape.rowMajor_val_one, Shape.rowMajor_val_two]
  show k.val = 0 * 512 + k.val
  omega

/-- The stored block read at an index, where its inputs are the specification's arrays entry by entry: the specification
    at row `1024 T + r`. -/
theorem kblock_spec (x0 : Vec Ideal S1024x80 .i32) (x1 : Vec Ideal S512x512 .bf16) (x2 x3 : Vec Ideal S1x512 .f32)
    (W : FVec Ideal S20480x512 .f32)
    (msg : IVec S4096x80 32) (b1 : FVec Ideal S512 .f32) (W2 : FVec Ideal S512x512 .f32) (b2 : FVec Ideal S512 .f32)
    (hmsg : Cert.EmbedMlp.InCharset msg) (T : ℕ) (hT : T < 4)
    (h0 : ∀ (r : Fin 1024) (l : Fin 80), x0 (ix2 r l) = msg (ix2 ⟨1024 * T + r.val, by have := r.isLt; omega⟩ l))
    (h1 : ∀ k j : Fin 512, x1 (ix2 k j) = W2 (ix2 k j))
    (h2 : ∀ k : Fin 512, x2 (ix2 (0 : Fin 1) k) = b1 (ix1 k))
    (h3 : ∀ k : Fin 512, x3 (ix2 (0 : Fin 1) k) = b2 (ix1 k))
    (r : Fin 1024) (j : Fin 512) :
    kblock (F := Ideal) x0 x1 x2 x3 W (ix2 r j)
      = Cert.EmbedMlp.outAt msg W b1 W2 b2 ⟨1024 * T + r.val, by have := r.isLt; omega⟩ j := by
  have hx : ∀ i, (x0 i).toNat < 256 := fun i => by
    obtain ⟨r', l', rfl⟩ : ∃ (r' : Fin 1024) (l' : Fin 80), i = ix2 r' l' := ⟨i 0, i 1, eq_ix2 i⟩
    rw [h0]; exact hmsg _
  rw [kblock_apply x0 x1 x2 x3 W hx r j]
  unfold Cert.EmbedMlp.outAt Cert.EmbedMlp.hidden Cert.EmbedMlp.emb
  simp only [h0, h1, h2, h3]

/-! ## From the blocks to the array -/

/-- The result the specification gives. -/
abbrev result (c : Dev nD) : FVec Ideal S4096x512 .f32 :=
  Cert.EmbedMlp.out (m ((c : Thread nD τ).loc main_arg0)) (m ((c : Thread nD τ).loc main_arg1))
    (m ((c : Thread nD τ).loc main_arg2)) (m ((c : Thread nD τ).loc main_arg3)) (m ((c : Thread nD τ).loc main_arg4))

/-- What point `t` leaves in the output's staging buffer, at row `r` and column `j`: the specification at row `1024 t + r`. -/
theorem block_spec (c : Dev nD) (h : Cert.EmbedMlp.InCharset (m ((c : Thread nD τ).loc main_arg0))) (t : Fin cfg0.N)
    (r : Fin 1024) (j : Fin 512) (hT : t.val < 4) :
    outsAt0 m c t (ix2 r j)
      = Cert.EmbedMlp.outAt (m ((c : Thread nD τ).loc main_arg0)) (m ((c : Thread nD τ).loc main_arg1))
          (m ((c : Thread nD τ).loc main_arg2)) (m ((c : Thread nD τ).loc main_arg3)) (m ((c : Thread nD τ).loc main_arg4))
          ⟨1024 * t.val + r.val, by have := r.isLt; omega⟩ j := by
  unfold outsAt0
  rw [out_eq]
  have hW : View.read (Elt Ideal) hbM0_0.view (V m c main_arg1) = m ((c : Thread nD τ).loc main_arg1) :=
    (V_main_arg1 m c)
  rw [hW]
  refine kblock_spec (iblk m c 0 t) (iblk m c 1 t) (iblk m c 2 t) (iblk m c 3 t) _ (m ((c : Thread nD τ).loc main_arg0))
    (m ((c : Thread nD τ).loc main_arg2)) (m ((c : Thread nD τ).loc main_arg3)) (m ((c : Thread nD τ).loc main_arg4))
    h t.val hT ?_ ?_ ?_ ?_ r j
  · intro r l
    refine (msgBlock_apply m c t (ix2 r l) (ix2 ⟨1024 * t.val + r.val, by have := r.isLt; omega⟩ l) rfl rfl).trans ?_
    rw [V_msg, clip_msg _ h]
  · intro k j
    refine (w2Block_apply m c t (ix2 k j)).trans ?_
    rw [V_w2]; rfl
  · intro k
    refine (b1Block_apply m c t (ix2 (0 : Fin 1) k)).trans ?_
    rw [V_b1]; exact row_apply _ k
  · intro k
    refine (b2Block_apply m c t (ix2 (0 : Fin 1) k)).trans ?_
    rw [V_b2]; exact row_apply _ k

/-- The same at an index of the block and the index of the array it is written to. -/
theorem block_result (c : Dev nD) (h : Cert.EmbedMlp.InCharset (m ((c : Thread nD τ).loc main_arg0))) (t : Fin cfg0.N)
    (y : S1024x512.Idx) (k : S4096x512.Idx)
    (hk0 : (k 0).val = 1024 * t.val + (y 0).val) (hk1 : (k 1).val = (y 1).val) :
    outsAt0 m c t y = result m c k := by
  have hT : t.val < 4 := lt_of_lt_of_eq t.isLt N_0
  obtain ⟨r, j, rfl⟩ : ∃ (r : Fin 1024) (j : Fin 512), y = ix2 r j := ⟨y 0, y 1, eq_ix2 y⟩
  rw [block_spec m c h t r j hT]
  show _ = Cert.EmbedMlp.outAt _ _ _ _ _ ⟨(k 0).val, idx2_lt0 k⟩ ⟨(k 1).val, idx2_lt1 k⟩
  have ek0 : (⟨(k 0).val, idx2_lt0 k⟩ : Fin 4096) = ⟨1024 * t.val + r.val, by have := r.isLt; omega⟩ := Fin.ext hk0
  have ek1 : (⟨(k 1).val, idx2_lt1 k⟩ : Fin 512) = j := Fin.ext hk1
  rw [ek0, ek1]

/-- WHAT POINT `t` WRITES BACK is block `t` of the specification's result. -/
theorem flushed_eq (c : Dev nD) (h : Cert.EmbedMlp.InCharset (m ((c : Thread nD τ).loc main_arg0))) (t : Fin cfg0.N) :
    (dats m 0 c).flushed 4 t = ((cfg0.win 4).blk t).view.read (Elt Ideal) (result m c) := by
  refine (ValueP.flushed4 m c t).trans ?_
  obtain ⟨-, -, -, -, -, -, -, -, e0, e1⟩ := idx_facts t
  funext y
  show outsAt0 m c t y = result m c (((cfg0.win 4).blk t).view.emb y)
  refine block_result m c h t y _ ?_ ?_
  · show win0_4.index t 0 * 1024 + 1 * (y 0).val = _
    rw [e0]; omega
  · show win0_4.index t 1 * 512 + 1 * (y 1).val = _
    rw [e1]; omega

/-- Row `b` of the array is in the block of point `b / 1024`. -/
theorem cover (i : S4096x512.Idx) :
    ∃ t : Fin cfg0.N, (cfg0.win 4).flush t = true ∧ i ∈ ((cfg0.win 4).blk t).view.set := by
  have h0 : (i 0).val < 4096 := idx2_lt0 i
  have h1 : (i 1).val < 512 := idx2_lt1 i
  have hN : cfg0.N = 4 := N_0
  let t : Fin cfg0.N := ⟨(i 0).val / 1024, by rw [hN]; omega⟩
  have ht : t.val = (i 0).val / 1024 := rfl
  obtain ⟨-, -, -, -, -, -, -, -, e0, e1⟩ := idx_facts t
  refine ⟨t, flush0_4 t, ?_⟩
  show i ∈ ((View.whole main_v4).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    rw [e0, ht]; omega
  | ⟨1, _⟩ =>
    show win0_4.index t 1 * 512 ≤ (i 1).val ∧ (i 1).val < win0_4.index t 1 * 512 + 512
    rw [e1]; omega

/-- After the run the result array is the specification of the argument arrays, where the message is of the character set. -/
theorem final4 (c : Dev nD) (h : Cert.EmbedMlp.InCharset (m ((c : Thread nD τ).loc main_arg0))) :
    (dats m 0 c).arrAt 4 cfg0.N
      = Cert.EmbedMlp.out (m ((c : Thread nD τ).loc main_arg0)) (m ((c : Thread nD τ).loc main_arg1))
          (m ((c : Thread nD τ).loc main_arg2)) (m ((c : Thread nD τ).loc main_arg3)) (m ((c : Thread nD τ).loc main_arg4)) :=
  (dats m 0 c).arrAt_eq_of_cover 4 (result m c) (fun t _ => flushed_eq m c h t) cover

end Cert.KernelIdeal.ArrayValue

end
-- ==== Proof.PreRange.lean ====
/-
  From the precondition to the message's range: the precondition's last two conjuncts say that every character is, read
  as a signed word, at least 0 and below 256; so as a natural number it is below 256.
-/
import proofs.«430982_j30846455119979_3_alg».proof.Pre_finite_inputs
import proofs.«430982_j30846455119979_3_alg».proof.Proof.Gen.Pre_finite_inputs
import proofs.«430982_j30846455119979_3_alg».proof.Proof.Spec
import Idealize.ShloMosaic.Lib.ReduceAll
import Idealize.ShloMosaic.Lib.StableHlo.Predicate

noncomputable section

namespace Cert.PreRange

open Idealize.ShloMosaic

variable {F : FTy → Type} [FloatOps F]

/-- Where the precondition holds, every character of the message is one of the 256 of the character set. -/
theorem inCharset_of_pre (a0 : IVec Cert.Pre_finite_inputs.S4096x80 32) (a1 : FVec F Cert.Pre_finite_inputs.S20480x512 .f32)
    (a2 : FVec F Cert.Pre_finite_inputs.S512 .f32) (a3 : FVec F Cert.Pre_finite_inputs.S512x512 .f32)
    (a4 : FVec F Cert.Pre_finite_inputs.S512 .f32)
    (h : Cert.Pre_finite_inputs.fn (F := F) a0 a1 a2 a3 a4 = fun _ => 1#1) : Cert.EmbedMlp.InCharset a0 := by
  intro i
  -- the precondition's one word is 1: a conjunction of one-bit words, so each conjunct is 1
  have h0 := congrFun h (fun d => d.elim0)
  simp only [Cert.Pre_finite_inputs.fn, Cert.Pre_finite_inputs.fn_part1, andi] at h0
  obtain ⟨h01, hlt⟩ := IntOp.andi_eq_one.1 h0
  obtain ⟨-, hge⟩ := IntOp.andi_eq_one.1 h01
  -- a conjunction over all the characters that is 1 is 1 at each character
  haveI : Subsingleton Cert.Pre_finite_inputs.S_.Idx := ⟨fun a b => funext fun d => d.elim0⟩
  have hge' := Host.reduce_andi_all _ _ _ _ _ hge i
  have hlt' := Host.reduce_andi_all _ _ _ _ _ hlt i
  -- at character i: read signed, 0 ≤ the word and the word < 256
  simp only [cmpi, broadcastInDim, constantI] at hge' hlt'
  rw [IntOp.cmpi_sge] at hge'
  rw [IntOp.cmpi_slt] at hlt'
  have e0 : (0#32 : BitVec 32).toInt = 0 := by decide
  have e256 : (256#32 : BitVec 32).toInt = 256 := by decide
  rw [e0] at hge'
  rw [e256] at hlt'
  -- a word that is non-negative read signed reads the same unsigned
  have hc := BitVec.toInt_eq_toNat_cond (a0 i)
  have hb := (a0 i).isLt
  split at hc <;> omega

end Cert.PreRange

end
-- ==== Proof.RefTerm.lean ====
/-
  The value the reference computes, as one pure term of its five argument arrays: the term each
  StableHLO operation of the reference contributes, composed in program order.
-/
import proofs.«430982_j30846455119979_3_alg».proof.Proof.Gen.ReferenceIdeal

noncomputable section

namespace Cert.ReferenceIdeal.RefValue

open Idealize.ShloMosaic Idealize.SL.Sem
open Cert.ReferenceIdeal Cert.ReferenceIdeal.Gen

variable {F : FTy → Type} [FloatOps F]

/-- The column offsets `256 * j`, repeated down the 4096 rows. -/
def offs : IVec S4096x80 32 :=
  broadcastInDim S4096x80 ![0, 1] Facts₀.bcast_S1x80_S4096x80_0_1
    (muli (broadcastInDim S1x80 ![1] Facts₀.bcast_S80_S1x80_1 (iotaInDim S80 32 0))
      (broadcastInDim S1x80 ![] Facts₀.bcast_S_S1x80 (constantI S_ 32 256#32)))

/-- The flat table row `msg[i, j] + 256 * j` (32-bit wrapping sum). -/
def flat (msg : IVec S4096x80 32) : IVec S4096x80 32 :=
  addi msg offs

/-- The flat row, a negative one moved up by the table's 20480 rows. -/
def wrapped (msg : IVec S4096x80 32) : IVec S4096x80 32 :=
  select
    (cmpi .slt (flat msg) (broadcastInDim S4096x80 ![] Facts₀.bcast_S_S4096x80 (constantI S_ 32 0#32)))
    (addi (flat msg) (broadcastInDim S4096x80 ![] Facts₀.bcast_S_S4096x80 (constantI S_ 32 20480#32)))
    (flat msg)

/-- The gather's index array: `wrapped` with a trailing axis of length one. -/
def idx (msg : IVec S4096x80 32) : IVec S4096x80x1 32 :=
  broadcastInDim S4096x80x1 ![0, 1] Facts₀.bcast_S4096x80_S4096x80x1_0_1 (wrapped msg)

/-- Whether the index lies in `[0, 20479]`, per `(i, j)`: the conjunction of the two signed tests,
    folded over the trailing axis. -/
def inRange (msg : IVec S4096x80 32) : IVec S4096x80 1 :=
  Host.reduce IntOp.andi
    (andi
      (cmpi .sge (idx msg) (broadcastInDim S4096x80x1 ![] Facts₀.bcast_S_S4096x80x1 (constantI S_ 32 0#32)))
      (cmpi .sle (idx msg)
        (broadcastInDim S4096x80x1 ![0, 1, 2] Facts₀.bcast_S1x1x1_S4096x80x1_0_1_2
          (broadcastInDim S1x1x1 ![2] Facts₀.bcast_S1_S1x1x1_2 (constantI S1 32 20479#32)))))
    (constantI S_ 1 1#1) Facts₀.reducesTo_S4096x80x1_S4096x80_d2 Facts₀.h_S_

/-- The gathered table rows `W1[idx[i, j], :]`, before masking. -/
def gathered (msg : IVec S4096x80 32) (W1 : FVec F S20480x512 .f32) : FVec F S4096x80x512 .f32 :=
  Host.gather gather_S20480x512_S4096x80x1_S4096x80x512_2_0_n_n_0_2_1512 W1 (idx msg)

/-- The masked gathered rows: the gathered row where the index is in range, the quiet NaN pattern elsewhere. -/
def rows (msg : IVec S4096x80 32) (W1 : FVec F S20480x512 .f32) : FVec F S4096x80x512 .f32 :=
  select
    (broadcastInDim S4096x80x512 ![0, 1] Facts₀.bcast_S4096x80_S4096x80x512_0_1 (inRange msg))
    (gathered msg W1)
    (broadcastInDim S4096x80x512 ![] Facts₀.bcast_S_S4096x80x512 (constant S_ .f32 0x7FC00000#32))

/-- `max(x, 0)` elementwise. -/
def relu (x : FVec F S4096x512 .f32) : FVec F S4096x512 .f32 :=
  maximumf x (broadcastInDim S4096x512 ![] Facts₀.bcast_S_S4096x512 (constant S_ .f32 0x00000000#32))

/-- A length-512 vector repeated down the 4096 rows. -/
def biasRows (b : FVec F S512 .f32) : FVec F S4096x512 .f32 :=
  broadcastInDim S4096x512 ![0, 1] Facts₀.bcast_S1x512_S4096x512_0_1
    (broadcastInDim S1x512 ![1] Facts₀.bcast_S512_S1x512_1 b)

/-- The sum over the 80 columns of the masked gathered rows, from zero. -/
def pooled (msg : IVec S4096x80 32) (W1 : FVec F S20480x512 .f32) : FVec F S4096x512 .f32 :=
  Host.reduceAdd (rows msg W1) (constant S_ .f32 0x00000000#32)
    Facts₀.reducesTo_S4096x80x512_S4096x512_d1 Facts₀.h_S_

/-- The first layer: `relu(pooled + b1)`. -/
def layer1 (msg : IVec S4096x80 32) (W1 : FVec F S20480x512 .f32) (b1 : FVec F S512 .f32) :
    FVec F S4096x512 .f32 :=
  relu (addf (pooled msg W1) (biasRows b1))

/-- The reference's result: `relu(layer1 · W2 + b2)`. -/
def refOut (msg : IVec S4096x80 32) (W1 : FVec F S20480x512 .f32) (b1 : FVec F S512 .f32)
    (W2 : FVec F S512x512 .f32) (b2 : FVec F S512 .f32) : FVec F S4096x512 .f32 :=
  relu (addf (Host.dotGeneral dot_S4096x512_S512x512_S4096x512_1_0_0_1_n_n none (layer1 msg W1 b1) W2)
    (biasRows b2))

end Cert.ReferenceIdeal.RefValue

end
-- ==== Proof.RefRun.lean ====
/-
  The reference's run. @main, with its three module-local functions substituted at their calls, is a
  straight line of forty-five StableHLO operations; every fair execution of it terminates, the result
  buffer ends at the operations' composed term `refOut` of the five argument arrays, and the arguments
  end unchanged.
-/
import proofs.«430982_j30846455119979_3_alg».proof.Proof.RefTerm
import proofs.«430982_j30846455119979_3_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem
  Idealize.ShloMosaic.StableHlo
open Cert.ReferenceIdeal.Facts₀

variable {F : FTy → Type} [FloatOps F]

/-- @main's operations in order, each call replaced by its callee's operations over the call's buffer
    record: seven of @main (the column offsets and the flat row), twenty-three of the row lookup (the
    wrap of a negative row, the range test folded over the unit axis, the gather, the mask), five of
    @main (the sum over the columns, the first bias), three of the first rectifier, four of @main (the
    contraction, the second bias), three of the second rectifier. -/
abbrev ops : List (HloOp τ sig (Elt F)) :=
  [ nullary main_v0 (iotaInDim S80 32 0),
    unary main_v0 main_v1 (broadcastInDim S1x80 ![1] bcast_S80_S1x80_1 : (⟨S80, .i32⟩ : BufTy).Contents (Elt F) → (⟨S1x80, .i32⟩ : BufTy).Contents (Elt F)),
    nullary main_c (constantI S_ 32 256#32),
    unary main_c main_v2 (broadcastInDim S1x80 ![] bcast_S_S1x80 : (⟨S_, .i32⟩ : BufTy).Contents (Elt F) → (⟨S1x80, .i32⟩ : BufTy).Contents (Elt F)),
    binary main_v1 main_v2 main_v3 (muli : (⟨S1x80, .i32⟩ : BufTy).Contents (Elt F) → (⟨S1x80, .i32⟩ : BufTy).Contents (Elt F) → (⟨S1x80, .i32⟩ : BufTy).Contents (Elt F)),
    unary main_v3 main_v4 (broadcastInDim S4096x80 ![0, 1] bcast_S1x80_S4096x80_0_1 : (⟨S1x80, .i32⟩ : BufTy).Contents (Elt F) → (⟨S4096x80, .i32⟩ : BufTy).Contents (Elt F)),
    binary main_arg0 main_v4 main_v5 (addi : (⟨S4096x80, .i32⟩ : BufTy).Contents (Elt F) → (⟨S4096x80, .i32⟩ : BufTy).Contents (Elt F) → (⟨S4096x80, .i32⟩ : BufTy).Contents (Elt F)),
    TRef.nullary main_call0.c (constantI S_ 32 0#32),
    TRef.unary main_call0.c main_call0.v0 (broadcastInDim S4096x80 ![] bcast_S_S4096x80),
    TRef.binary (.of main_v5) main_call0.v0 main_call0.v1 (cmpi .slt),
    TRef.nullary main_call0.c_0 (constantI S_ 32 20480#32),
    TRef.unary main_call0.c_0 main_call0.v2 (broadcastInDim S4096x80 ![] bcast_S_S4096x80),
    TRef.binary (.of main_v5) main_call0.v2 main_call0.v3 addi,
    TRef.ternary main_call0.v1 main_call0.v3 (.of main_v5) main_call0.call0.v0 select,
    TRef.unary main_call0.call0.v0 main_call0.v5 (broadcastInDim S4096x80x1 ![0, 1] bcast_S4096x80_S4096x80x1_0_1),
    TRef.nullary main_call0.c_1 (constantI S1 32 20479#32),
    TRef.nullary main_call0.c_2 (constantI S_ 32 0#32),
    TRef.unary main_call0.c_2 main_call0.v6 (broadcastInDim S4096x80x1 ![] bcast_S_S4096x80x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x80x1 ![0, 1, 2] bcast_S1x1x1_S4096x80x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x80x1_S4096x80_d2 h_S_),
    TRef.binary (.of main_arg1) main_call0.v5 main_call0.v13 (fun x i => Host.gather gather_S20480x512_S4096x80x1_S4096x80x512_2_0_n_n_0_2_1512 x i),
    TRef.unary main_call0.v12 main_call0.v14 (broadcastInDim S4096x80x512 ![0, 1] bcast_S4096x80_S4096x80x512_0_1),
    TRef.nullary main_call0.cst (constant S_ .f32 0x7FC00000#32),
    TRef.unary main_call0.cst main_call0.v15 (broadcastInDim S4096x80x512 ![] bcast_S_S4096x80x512),
    TRef.ternary main_call0.v14 main_call0.v13 main_call0.v15 main_call0.v16 select,
    nullary main_cst (constant S_ .f32 0x00000000#32),
    binary main_v6 main_cst main_v7 ((fun x v => Host.reduceAdd x v reducesTo_S4096x80x512_S4096x512_d1 h_S_) : (⟨S4096x80x512, .f32⟩ : BufTy).Contents (Elt F) → (⟨S_, .f32⟩ : BufTy).Contents (Elt F) → (⟨S4096x512, .f32⟩ : BufTy).Contents (Elt F)),
    unary main_arg2 main_v8 (broadcastInDim S1x512 ![1] bcast_S512_S1x512_1 : (⟨S512, .f32⟩ : BufTy).Contents (Elt F) → (⟨S1x512, .f32⟩ : BufTy).Contents (Elt F)),
    unary main_v8 main_v9 (broadcastInDim S4096x512 ![0, 1] bcast_S1x512_S4096x512_0_1 : (⟨S1x512, .f32⟩ : BufTy).Contents (Elt F) → (⟨S4096x512, .f32⟩ : BufTy).Contents (Elt F)),
    binary main_v7 main_v9 main_v10 (addf : (⟨S4096x512, .f32⟩ : BufTy).Contents (Elt F) → (⟨S4096x512, .f32⟩ : BufTy).Contents (Elt F) → (⟨S4096x512, .f32⟩ : BufTy).Contents (Elt F)),
    TRef.nullary main_call1.cst (constant S_ .f32 0x00000000#32),
    TRef.unary main_call1.cst main_call1.v0 (broadcastInDim S4096x512 ![] bcast_S_S4096x512),
    TRef.binary (.of main_v10) main_call1.v0 main_call1.v1 maximumf,
    binary main_v11 main_arg3 main_v12 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    unary main_arg4 main_v13 (broadcastInDim S1x512 ![1] bcast_S512_S1x512_1 : (⟨S512, .f32⟩ : BufTy).Contents (Elt F) → (⟨S1x512, .f32⟩ : BufTy).Contents (Elt F)),
    unary main_v13 main_v14 (broadcastInDim S4096x512 ![0, 1] bcast_S1x512_S4096x512_0_1 : (⟨S1x512, .f32⟩ : BufTy).Contents (Elt F) → (⟨S4096x512, .f32⟩ : BufTy).Contents (Elt F)),
    binary main_v12 main_v14 main_v15 (addf : (⟨S4096x512, .f32⟩ : BufTy).Contents (Elt F) → (⟨S4096x512, .f32⟩ : BufTy).Contents (Elt F) → (⟨S4096x512, .f32⟩ : BufTy).Contents (Elt F)),
    TRef.nullary main_call2.cst (constant S_ .f32 0x00000000#32),
    TRef.unary main_call2.cst main_call2.v0 (broadcastInDim S4096x512 ![] bcast_S_S4096x512),
    TRef.binary (.of main_v15) main_call2.v0 main_call2.v1 maximumf ]

-- forty-five binds re-associated: the rewrite under the chain recurses once per statement
set_option maxRecDepth 1024 in
/-- @main is that straight line: the three functions' definitions unfolded at their calls, both sides are
    one chain of steps once sequencing is re-associated. -/
theorem main_eq (c : Dev nD) : main (F := F) c = seq ops := by
  simp only [main, fn_take.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., nullary_bufs_sub .., unary_bufs_sub .., binary_bufs_sub .., unary_bufs_sub ..,
    binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., unary_bufs_sub .., unary_bufs_sub .., binary_bufs_sub ..,
    nullary_bufs_sub .., unary_bufs_sub .., binary_bufs_sub ..,
    binary_bufs_sub .., unary_bufs_sub .., unary_bufs_sub .., binary_bufs_sub ..,
    nullary_bufs_sub .., unary_bufs_sub .., binary_bufs_sub ..⟩

/-- From any memory with zero counters, every weakly fair execution of @main on the TensorCores terminates,
    and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather Host.reduceAdd in
set_option maxRecDepth 8192 in
/-- The fold at the result buffer is `refOut` of the argument buffers' contents: each operation's result is
    rewritten at the buffer it writes to its function's value and at any other buffer to what was there; the
    typed references' transports are the identity at these literal references; what is left is `refOut`
    unfolded. The reduction over the unit axis, the gather and the column sum stay folded meanwhile: the
    equation never looks inside them. -/
theorem out_eq (V : Valuation τ sig (Elt F)) :
    after ops V (main_v16 : DevRef τ sig)
      = refOut (V (main_arg0 : DevRef τ sig)) (V (main_arg1 : DevRef τ sig)) (V (main_arg2 : DevRef τ sig))
          (V (main_arg3 : DevRef τ sig)) (V (main_arg4 : DevRef τ sig)) := by
  after_results_simp
  simp only [TRef.ofBuf, TRef.toBuf, cast_eq]
  rfl

/-- No operation writes an argument buffer. -/
theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

/-- On every device, for any float values, from any memory with zero counters: every weakly fair execution
    of @main terminates with the result buffer at `refOut` of the argument arrays and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v16)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v16).trans (out_eq _), (h c main_arg0).trans (arg0_eq _),
      (h c main_arg1).trans (arg1_eq _), (h c main_arg2).trans (arg2_eq _), (h c main_arg3).trans (arg3_eq _),
      (h c main_arg4).trans (arg4_eq _)⟩)
    (run_main m ρ)

end Cert.ReferenceIdeal.RefValue

end
-- ==== Proof.RefValue.lean ====
/-
  The reference's value read at an index over the extended reals: where every character of the message is of the
  character set, the flat row `message[b, l] + 256 l` is in the table's range, so the gather's mask is all ones and its
  clamp is the identity, the sum over the positions is the embedding, and the two layers are the specification's.
-/
import proofs.«430982_j30846455119979_3_alg».proof.Proof.RefTerm
import proofs.«430982_j30846455119979_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.ReferenceIdeal.RefValue

open Idealize.ShloMosaic Idealize.ShloMosaic.ValueIdx
open Cert.ReferenceIdeal Cert.ReferenceIdeal.Gen

/-! ## The flat row: no wrap, not negative, in the table's range -/

/-- The column offset at `(b, l)` is the word `l` times the word `256`. -/
private theorem offs_apply (i : S4096x80.Idx) : offs i = BitVec.ofNat 32 (i 1).val * 256#32 := rfl

/-- The flat row is the character plus that offset, as 32-bit words. -/
private theorem flat_apply (msg : IVec S4096x80 32) (i : S4096x80.Idx) :
    flat msg i = msg i + BitVec.ofNat 32 (i 1).val * 256#32 := rfl

/-- For a character of the set the sum does not wrap: the flat row is `message[b, l] + 256 l` as a natural number. -/
private theorem flat_toNat (msg : IVec S4096x80 32) (h : Cert.EmbedMlp.InCharset msg) (i : S4096x80.Idx) :
    (flat msg i).toNat = (msg i).toNat + 256 * (i 1).val := by
  have h1 := h i
  have h2 : (i 1).val < 80 := idx2_lt1 i
  rw [flat_apply, BitVec.toNat_add, BitVec.toNat_mul, BitVec.toNat_ofNat]
  simp only [BitVec.toNat_ofNat]
  omega

/-- It is below `2^31`, so read as a signed word it is the same number. -/
private theorem flat_toInt (msg : IVec S4096x80 32) (h : Cert.EmbedMlp.InCharset msg) (i : S4096x80.Idx) :
    (flat msg i).toInt = ((msg i).toNat + 256 * (i 1).val : Nat) := by
  have h1 := h i
  have h2 : (i 1).val < 80 := idx2_lt1 i
  rw [BitVec.toInt_eq_toNat_cond, flat_toNat msg h i]
  split
  · rfl
  · omega

/-- The flat row is not negative, so the select keeps it. -/
private theorem wrapped_apply (msg : IVec S4096x80 32) (h : Cert.EmbedMlp.InCharset msg) (i : S4096x80.Idx) :
    wrapped msg i = flat msg i := by
  have hc : IntOp.cmpi .slt (flat msg i) 0#32 = 0#1 := by
    apply eq_zero_of_ne_one
    rw [IntOp.cmpi_slt, flat_toInt msg h i, show (0#32 : BitVec 32).toInt = 0 from by decide]
    omega
  show Scalar.select (IntOp.cmpi .slt (flat msg i) 0#32) _ _ = _
  rw [hc, select_zero]

/-- The index array at `(b, l, 0)` is the wrapped flat row at `(b, l)`. -/
private theorem idx_apply (msg : IVec S4096x80 32) (i : S4096x80x1.Idx) :
    idx msg i = wrapped msg (ix2 ⟨(i 0).val, (i 0).isLt⟩ ⟨(i 1).val, (i 1).isLt⟩) := by
  unfold idx broadcastInDim
  congr 1
  funext a
  match a with
  | ⟨0, _⟩ => rfl
  | ⟨1, _⟩ => rfl

/-- So, read signed, the index is `message[b, l] + 256 l`. -/
private theorem idx_toInt (msg : IVec S4096x80 32) (h : Cert.EmbedMlp.InCharset msg) (i : S4096x80x1.Idx) :
    (idx msg i).toInt = ((msg (ix2 ⟨(i 0).val, (i 0).isLt⟩ ⟨(i 1).val, (i 1).isLt⟩)).toNat + 256 * (i 1).val : Nat) := by
  rw [idx_apply, wrapped_apply msg h, flat_toInt msg h]

/-! ## The mask is all ones -/

/-- A left fold by `and` from `1` over words that are all `1` is `1`. -/
private theorem foldl_andi_one {ι : Type} (f : ι → BitVec 1) :
    ∀ (l : List ι), (∀ n ∈ l, f n = 1#1) → l.foldl (fun r n => IntOp.andi r (f n)) 1#1 = 1#1
  | [], _ => rfl
  | a :: l, hl => by
    rw [List.foldl_cons, hl a List.mem_cons_self, show IntOp.andi 1#1 1#1 = 1#1 from by decide]
    exact foldl_andi_one f l (fun n hn => hl n (List.mem_cons_of_mem _ hn))

/-- Every index lies in `[0, 20479]`, so the conjunction folded over the trailing axis is `1` everywhere. -/
private theorem inRange_apply (msg : IVec S4096x80 32) (h : Cert.EmbedMlp.InCharset msg) (j : S4096x80.Idx) :
    inRange msg j = 1#1 := by
  unfold inRange
  rw [Host.reduce_eq_foldl]
  refine foldl_andi_one _ _ fun i _ => ?_
  show IntOp.andi (IntOp.cmpi .sge (idx msg i) 0#32) (IntOp.cmpi .sle (idx msg i) 20479#32) = 1#1
  have h1 := h (ix2 ⟨(i 0).val, (i 0).isLt⟩ ⟨(i 1).val, (i 1).isLt⟩)
  have h2 : (i 1).val < 80 := (i 1).isLt
  rw [IntOp.andi_eq_one, IntOp.cmpi_sge, IntOp.cmpi_sle, idx_toInt msg h,
    show (0#32 : BitVec 32).toInt = 0 from by decide, show (20479#32 : BitVec 32).toInt = 20479 from by decide]
  omega

/-! ## The gather read at an index -/

/-- The gather at `(b, l, k)` is the table at the row `idx[b, l, 0]`, read signed and clamped into `[0, 20479]`, and
    column `k`. -/
private theorem gathered_apply (msg : IVec S4096x80 32) (W1 : FVec Ideal S20480x512 .f32) (b : Fin 4096) (l : Fin 80)
    (k : Fin 512) :
    gathered msg W1 (ix3 b l k)
      = W1 (ix2 ⟨min (idx msg (ix3 b l (0 : Fin 1))).toInt.toNat 20479, by omega⟩ k) := by
  unfold gathered Host.gather
  congr 1
  funext a
  refine Fin.ext ?_
  match a with
  | ⟨0, _⟩ =>
    show gather_S20480x512_S4096x80x1_S4096x80x512_2_0_n_n_0_2_1512.start (ix3 b l k) (idx msg) 0
      + gather_S20480x512_S4096x80x1_S4096x80x512_2_0_n_n_0_2_1512.batchCoord (ix3 b l k) 0
      + gather_S20480x512_S4096x80x1_S4096x80x512_2_0_n_n_0_2_1512.offCoord (ix3 b l k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S20480x512_S4096x80x1_S4096x80x512_2_0_n_n_0_2_1512.startIndexMap from
      List.mem_singleton.mpr rfl)]
    have hsi : gather_S20480x512_S4096x80x1_S4096x80x512_2_0_n_n_0_2_1512.siIdx (ix3 b l k)
        ⟨List.idxOf (0 : Fin 2) gather_S20480x512_S4096x80x1_S4096x80x512_2_0_n_n_0_2_1512.startIndexMap,
          List.idxOf_lt_length_iff.2 (List.mem_singleton.mpr rfl)⟩ = ix3 b l (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S20480x512_S4096x80x1_S4096x80x512_2_0_n_n_0_2_1512.start (ix3 b l k) (idx msg) 1
      + gather_S20480x512_S4096x80x1_S4096x80x512_2_0_n_n_0_2_1512.batchCoord (ix3 b l k) 1
      + gather_S20480x512_S4096x80x1_S4096x80x512_2_0_n_n_0_2_1512.offCoord (ix3 b l k) 1 = k.val
    have hs : gather_S20480x512_S4096x80x1_S4096x80x512_2_0_n_n_0_2_1512.start (ix3 b l k) (idx msg) 1 = 0 := by
      unfold GatherDims.start
      rw [dif_neg (show ¬ ((1 : Fin 2) ∈ gather_S20480x512_S4096x80x1_S4096x80x512_2_0_n_n_0_2_1512.startIndexMap) from
        by decide)]
    have ho : gather_S20480x512_S4096x80x1_S4096x80x512_2_0_n_n_0_2_1512.offCoord (ix3 b l k) 1 = k.val := by
      unfold GatherDims.offCoord
      rw [dif_pos (show (1 : Fin 2) ∈ gather_S20480x512_S4096x80x1_S4096x80x512_2_0_n_n_0_2_1512.sKept from by decide)]
      rfl
    rw [hs, GatherDims.batchCoord_eq_zero _ _ _ List.not_mem_nil, ho]
    omega

/-- The masked gathered row at `(b, l, k)` is the table's entry at the row the character picks at position `l`. -/
private theorem rows_apply (msg : IVec S4096x80 32) (W1 : FVec Ideal S20480x512 .f32) (h : Cert.EmbedMlp.InCharset msg)
    (b : Fin 4096) (l : Fin 80) (k : Fin 512) :
    rows msg W1 (ix3 b l k) = W1 (ix2 (Cert.EmbedMlp.row l (msg (ix2 b l))) k) := by
  have hm : broadcastInDim S4096x80x512 ![0, 1] Facts₀.bcast_S4096x80_S4096x80x512_0_1 (inRange msg) (ix3 b l k) = 1#1 := by
    unfold broadcastInDim
    exact inRange_apply msg h _
  unfold rows
  rw [select_apply, hm, select_one, gathered_apply]
  refine congrArg W1 ?_
  have h1 := h (ix2 b l)
  have h2 : l.val < 80 := l.isLt
  have hi := idx_toInt msg h (ix3 b l (0 : Fin 1))
  have e : (ix2 ⟨((ix3 b l (0 : Fin 1) : S4096x80x1.Idx) 0).val, ((ix3 b l (0 : Fin 1) : S4096x80x1.Idx) 0).isLt⟩
      ⟨((ix3 b l (0 : Fin 1) : S4096x80x1.Idx) 1).val, ((ix3 b l (0 : Fin 1) : S4096x80x1.Idx) 1).isLt⟩ : S4096x80.Idx)
        = ix2 b l := rfl
  rw [e] at hi
  have hl : ((ix3 b l (0 : Fin 1) : S4096x80x1.Idx) 1).val = l.val := rfl
  rw [hl] at hi
  funext a
  refine Fin.ext ?_
  match a with
  | ⟨0, _⟩ =>
    show min (idx msg (ix3 b l (0 : Fin 1))).toInt.toNat 20479 = 256 * l.val + (msg (ix2 b l)).toNat % 256
    rw [hi, Int.toNat_natCast, Nat.mod_eq_of_lt h1]
    omega
  | ⟨1, _⟩ => rfl

/-! ## The sum over the positions -/

private theorem reduces_d1 : S4096x80x512.Reduces [(1 : Fin 3)] S4096x512 := by decide

/-- The index over `(b, k)` with `l` inserted on the reduced axis is `(b, l, k)`. -/
private theorem lift_d1 (b : Fin 4096) (l : Fin 80) (k : Fin 512) :
    reduces_d1.lift (ix2 b k) l = ix3 b l k := by
  funext c
  refine Fin.ext ?_
  match c with
  | ⟨0, _⟩ => rfl
  | ⟨1, _⟩ => rfl
  | ⟨2, _⟩ => rfl

/-- The pooled value at `(b, k)` is the embedding: zero plus the sum over the positions. -/
private theorem pooled_apply (msg : IVec S4096x80 32) (W1 : FVec Ideal S20480x512 .f32) (h : Cert.EmbedMlp.InCharset msg)
    (b : Fin 4096) (k : Fin 512) :
    pooled msg W1 (ix2 b k) = Cert.EmbedMlp.emb msg W1 b k := by
  unfold pooled Host.reduceAdd
  rw [Ideal.hostReduceAdd_def, Ideal.hostReduceAdd_single _ reduces_d1]
  show Ideal.ofBits .f32 0x00000000#32 + ∑ l : Fin 80, rows msg W1 (reduces_d1.lift (ix2 b k) l) = _
  rw [Ideal.ofBits_zero_f32, zero_add]
  unfold Cert.EmbedMlp.emb
  refine Finset.sum_congr rfl fun l _ => ?_
  rw [lift_d1, rows_apply msg W1 h]

/-! ## The two layers -/

/-- A vector repeated down the rows reads its entry at the column. -/
private theorem biasRows_apply (v : FVec Ideal S512 .f32) (r : Fin 4096) (k : Fin 512) :
    biasRows v (ix2 r k) = v (ix1 k) := by
  unfold biasRows broadcastInDim
  refine congrArg v ?_
  funext a
  refine Fin.ext ?_
  match a with
  | ⟨0, _⟩ => rfl

/-- The rectifier at an index is the maximum with zero. -/
private theorem relu_apply (x : FVec Ideal S4096x512 .f32) (i : S4096x512.Idx) : relu x i = max (x i) 0 := by
  unfold relu
  rw [maximumf_apply]
  show max (x i) (Ideal.ofBits .f32 0x00000000#32) = _
  rw [Ideal.ofBits_zero_f32]

/-- The first layer at `(b, k)` is the specification's hidden value. -/
private theorem layer1_apply (msg : IVec S4096x80 32) (W1 : FVec Ideal S20480x512 .f32) (b1 : FVec Ideal S512 .f32)
    (h : Cert.EmbedMlp.InCharset msg) (b : Fin 4096) (k : Fin 512) :
    layer1 msg W1 b1 (ix2 b k) = Cert.EmbedMlp.hidden msg W1 b1 b k := by
  unfold layer1
  rw [relu_apply, addf_apply, pooled_apply msg W1 h, biasRows_apply]
  rfl

/-- The contraction's operand indices, coordinate by coordinate: at result `j` and contraction position `k` the left
    operand reads `(j 0, k)` and the right one `(k, j 1)`. -/
private theorem lhs_0 (j : S4096x512.Idx) (k : dot_S4096x512_S512x512_S4096x512_1_0_0_1_n_n.contr.Idx) :
    (dot_S4096x512_S512x512_S4096x512_1_0_0_1_n_n.lhsIdx j k 0 : ℕ) = j 0 := by
  simp [DotDims.lhsIdx, dot_S4096x512_S512x512_S4096x512_1_0_0_1_n_n]; rfl
private theorem lhs_1 (j : S4096x512.Idx) (k : dot_S4096x512_S512x512_S4096x512_1_0_0_1_n_n.contr.Idx) :
    (dot_S4096x512_S512x512_S4096x512_1_0_0_1_n_n.lhsIdx j k 1 : ℕ) = k ⟨0, by decide⟩ := by
  simp [DotDims.lhsIdx, dot_S4096x512_S512x512_S4096x512_1_0_0_1_n_n]; rfl
private theorem rhs_0 (j : S4096x512.Idx) (k : dot_S4096x512_S512x512_S4096x512_1_0_0_1_n_n.contr.Idx) :
    (dot_S4096x512_S512x512_S4096x512_1_0_0_1_n_n.rhsIdx j k 0 : ℕ) = k ⟨0, by decide⟩ := by
  simp [DotDims.rhsIdx, dot_S4096x512_S512x512_S4096x512_1_0_0_1_n_n]; rfl
private theorem rhs_1 (j : S4096x512.Idx) (k : dot_S4096x512_S512x512_S4096x512_1_0_0_1_n_n.contr.Idx) :
    (dot_S4096x512_S512x512_S4096x512_1_0_0_1_n_n.rhsIdx j k 1 : ℕ) = j 1 := by
  simp [DotDims.rhsIdx, dot_S4096x512_S512x512_S4096x512_1_0_0_1_n_n]; rfl

/-- The product at `(b, j)` is the textbook sum over the 512 contracted columns. -/
private theorem dot_apply (x : FVec Ideal S4096x512 .f32) (W2 : FVec Ideal S512x512 .f32) (b : Fin 4096) (j : Fin 512) :
    Host.dotGeneral dot_S4096x512_S512x512_S4096x512_1_0_0_1_n_n none x W2 (ix2 b j)
      = ∑ k : Fin 512, x (ix2 b k) * W2 (ix2 k j) := by
  show FloatOps.dotGeneral dot_S4096x512_S512x512_S4096x512_1_0_0_1_n_n none .single x W2 (ix2 b j) = _
  rw [Ideal.dotGeneral_apply,
    ← Equiv.sum_comp (contrEquiv1 dot_S4096x512_S512x512_S4096x512_1_0_0_1_n_n 512 rfl rfl).symm]
  refine Finset.sum_congr rfl fun k _ => ?_
  refine congrArg₂ (· * ·) (congrArg x ?_) (congrArg W2 ?_)
  · funext a
    refine Fin.ext ?_
    match a with
    | ⟨0, _⟩ => exact lhs_0 _ _
    | ⟨1, _⟩ => exact (lhs_1 _ _).trans (contrEquiv1_symm_val _ 512 rfl rfl k)
  · funext a
    refine Fin.ext ?_
    match a with
    | ⟨0, _⟩ => exact (rhs_0 _ _).trans (contrEquiv1_symm_val _ 512 rfl rfl k)
    | ⟨1, _⟩ => exact rhs_1 _ _

/-- The reference's result is the specification's, where the message's characters are of the character set. -/
theorem refOut_eq_spec (msg : IVec S4096x80 32) (W1 : FVec Ideal S20480x512 .f32) (b1 : FVec Ideal S512 .f32)
    (W2 : FVec Ideal S512x512 .f32) (b2 : FVec Ideal S512 .f32) (h : Cert.EmbedMlp.InCharset msg) :
    refOut (F := Ideal) msg W1 b1 W2 b2 = Cert.EmbedMlp.out msg W1 b1 W2 b2 := by
  funext i
  obtain ⟨b, j, rfl⟩ : ∃ b j, i = ix2 b j := ⟨i 0, i 1, eq_ix2 i⟩
  unfold refOut
  rw [relu_apply, addf_apply, dot_apply, biasRows_apply]
  unfold Cert.EmbedMlp.out Cert.EmbedMlp.outAt
  simp only [layer1_apply msg W1 b1 h]

end Cert.ReferenceIdeal.RefValue

end
-- ==== Proof.lean ====
/-
  An embedding of 80-character messages followed by two affine layers with a rectifier after each, computed by a kernel
  that turns the table lookup into ten matrix products with one-hot slabs, against the reference that gathers the
  table's rows and sums them.
  Both programs compute, over the extended reals, `Cert.EmbedMlp.out` (Proof/Spec.lean): row `b`'s embedding is the sum over
  the positions `l` of the table's row `256 l + message[b, l]`, and the result is `max (max (emb + b1) 0 · W2 + b2) 0`.
  The kernel side: a row of a group's one-hot slab times the table's slab picks the table row of each of the group's eight
  positions, and the ten groups' sums, added one after the other onto zero, are the sum over the eighty positions
  (Proof/OneHotSum.lean, Proof/BlockValue.lean); each grid point writes back the block of its 1024 rows, and the four
  blocks cover the result (Proof/ArrayValue.lean). The reference side: for a message of the 256-character set the flat row
  `message[b, l] + 256 l` is inside the table, so the gather's mask is all ones and its clamp the identity
  (Proof/RefValue.lean). The precondition states that the message is of the character set (Proof/PreRange.lean reads it
  off); the kernel clips the message to that range, which is then the identity. Changes of float format are the identity
  over the extended reals, and `0 · x = 0`, `1 · x = x` hold for every extended real, so finiteness of the float inputs is
  not used.
  The frames: each kernel program's is its frame certificate over the body's run with its pieces in closed form
  (Proof/FrameP.lean and its word-level twin); the reference's is its run with the result dropped.
-/
import proofs.«430982_j30846455119979_3_alg».proof.Defs
import proofs.«430982_j30846455119979_3_alg».proof.Proof.Gen.Kernel
import proofs.«430982_j30846455119979_3_alg».proof.Proof.Gen.KernelIdeal
import proofs.«430982_j30846455119979_3_alg».proof.Proof.Gen.ReferenceIdeal
import proofs.«430982_j30846455119979_3_alg».proof.Proof.Gen.Pre_finite_inputs
import proofs.«430982_j30846455119979_3_alg».proof.Proof.BitsFrameP
import proofs.«430982_j30846455119979_3_alg».proof.Proof.FrameP
import proofs.«430982_j30846455119979_3_alg».proof.Proof.ValueP
import proofs.«430982_j30846455119979_3_alg».proof.Proof.ArrayValue
import proofs.«430982_j30846455119979_3_alg».proof.Proof.PreRange
import proofs.«430982_j30846455119979_3_alg».proof.Proof.RefRun
import proofs.«430982_j30846455119979_3_alg».proof.Proof.RefValue

noncomputable section

namespace Cert.Proof

open Idealize.ShloMosaic Idealize.SL.Sem

/-- The word-level kernel program runs and leaves its arguments as they were. -/
theorem frame_kernel : Cert.frame_Kernel := fun m ρ _ => Cert.Kernel.GenP.frame m ρ

/-- So does the idealized kernel program. -/
theorem frame_kernelIdeal : Cert.frame_KernelIdeal := fun m ρ _ => Cert.KernelIdeal.GenP.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.RefValue.run (F := Ideal) m ρ)

/-- Both programs end at the specification of the argument arrays: the kernel's result array block by block, the
    reference's term index by index, for a message of the character set (which the precondition states). -/
theorem algebraic : Cert.algebraic_KernelIdeal_ReferenceIdeal := by
  intro m ρ m' ρ' hpre hagree
  have hch : ∀ c : Dev Cert.KernelIdeal.nD,
      Cert.EmbedMlp.InCharset (m ((c.tc : Thread Cert.KernelIdeal.nD Cert.KernelIdeal.τ).loc Cert.KernelIdeal.main_arg0)) :=
    fun c => Cert.PreRange.inCharset_of_pre _ _ _ _ _ (hpre c)
  refine ⟨fun c => Cert.EmbedMlp.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.ArrayValue.final4 m c (hch c)), (h c).2⟩)
      (Cert.KernelIdeal.ValueP.run_blocks m ρ)
  · refine (θ_run Cert.ReferenceIdeal.defs _ _).mono (fun r h c => ⟨?_, (h c).2⟩)
      (Cert.ReferenceIdeal.RefValue.run (F := Ideal) m' ρ')
    rw [(h c).1, (hagree c).1, (hagree c).2.1, (hagree c).2.2.1, (hagree c).2.2.2.1, (hagree c).2.2.2.2]
    exact Cert.ReferenceIdeal.RefValue.refOut_eq_spec _ _ _ _ _ (hch c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
